-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_arg1)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg1) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v25) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg1) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_v19) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S16384x32 : Shape := ⟨2, ![16384, 32]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_

variable [Facts]

def fn {F : FTy → Type} [FloatOps F] (main_arg0 : FVec F S8192x8192 .f32) (main_arg1 : FVec F S16384x32 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  main_v8
-- ==== Kernel.lean ====
abbrev S8192x8192 : Shape := ⟨2, ![8192, 8192]⟩
abbrev S16384x32 : Shape := ⟨2, ![16384, 32]⟩
abbrev S3x8192x32 : Shape := ⟨3, ![3, 8192, 32]⟩
abbrev S256x8192 : Shape := ⟨2, ![256, 8192]⟩
abbrev S1x256x32 : Shape := ⟨3, ![1, 256, 32]⟩
abbrev S1x8192x32 : Shape := ⟨3, ![1, 8192, 32]⟩
abbrev S8192x32 : Shape := ⟨2, ![8192, 32]⟩
abbrev S256x32 : Shape := ⟨2, ![256, 32]⟩

abbrev nBuf : Space → Nat
  | .hbm => 36
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S16384x32, .f32⟩
  | .hbm, ⟨2, _⟩ => ⟨S3x8192x32, .f32⟩
  | .hbm, ⟨3, _⟩ => ⟨S3x8192x32, .f32⟩
  | .hbm, ⟨4, _⟩ => ⟨S3x8192x32, .f32⟩
  | .hbm, ⟨5, _⟩ => ⟨S3x8192x32, .f32⟩
  | .hbm, ⟨6, _⟩ => ⟨S1x8192x32, .f32⟩
  | .hbm, ⟨7, _⟩ => ⟨S8192x32, .f32⟩
  | .hbm, ⟨8, _⟩ => ⟨S1x8192x32, .f32⟩
  | .hbm, ⟨9, _⟩ => ⟨S8192x32, .f32⟩
  | .hbm, ⟨10, _⟩ => ⟨S16384x32, .f32⟩
  | .hbm, ⟨11, _⟩ => ⟨S1x8192x32, .f32⟩
  | .hbm, ⟨12, _⟩ => ⟨S8192x32, .f32⟩
  | .hbm, ⟨13, _⟩ => ⟨S1x8192x32, .f32⟩
  | .hbm, ⟨14, _⟩ => ⟨S8192x32, .f32⟩
  | .hbm, ⟨15, _⟩ => ⟨S16384x32, .f32⟩
  | .hbm, ⟨16, _⟩ => ⟨S1x8192x32, .f32⟩
  | .hbm, ⟨17, _⟩ => ⟨S8192x32, .f32⟩
  | .hbm, ⟨18, _⟩ => ⟨S1x8192x32, .f32⟩
  | .hbm, ⟨19, _⟩ => ⟨S8192x32, .f32⟩
  | .hbm, ⟨20, _⟩ => ⟨S16384x32, .f32⟩
  | .hbm, ⟨21, _⟩ => ⟨S1x8192x32, .f32⟩
  | .hbm, ⟨22, _⟩ => ⟨S8192x32, .f32⟩
  | .hbm, ⟨23, _⟩ => ⟨S1x8192x32, .f32⟩
  | .hbm, ⟨24, _⟩ => ⟨S8192x32, .f32⟩
  | .hbm, ⟨25, _⟩ => ⟨S16384x32, .f32⟩
  | .hbm, ⟨26, _⟩ => ⟨S1x8192x32, .f32⟩
  | .hbm, ⟨27, _⟩ => ⟨S8192x32, .f32⟩
  | .hbm, ⟨28, _⟩ => ⟨S1x8192x32, .f32⟩
  | .hbm, ⟨29, _⟩ => ⟨S8192x32, .f32⟩
  | .hbm, ⟨30, _⟩ => ⟨S16384x32, .f32⟩
  | .hbm, ⟨31, _⟩ => ⟨S1x8192x32, .f32⟩
  | .hbm, ⟨32, _⟩ => ⟨S8192x32, .f32⟩
  | .hbm, ⟨33, _⟩ => ⟨S1x8192x32, .f32⟩
  | .hbm, ⟨34, _⟩ => ⟨S8192x32, .f32⟩
  | .hbm, ⟨35, _⟩ => ⟨S16384x32, .f32⟩
  | .local _ .vmem, ⟨0, _⟩ => ⟨S256x8192, .f32⟩
  | .local _ .vmem, ⟨1, _⟩ => ⟨S256x8192, .f32⟩
  | .local _ .vmem, ⟨2, _⟩ => ⟨S16384x32, .f32⟩
  | .local _ .vmem, ⟨3, _⟩ => ⟨S1x256x32, .f32⟩
  | .local _ .vmem, ⟨4, _⟩ => ⟨S1x256x32, .f32⟩
  | .local _ .vmem, ⟨5, _⟩ => ⟨S1x256x32, .f32⟩
  | .local _ .vmem, ⟨6, _⟩ => ⟨S1x256x32, .f32⟩
  | .local _ .vmem, ⟨7, _⟩ => ⟨S1x8192x32, .f32⟩
  | .local _ .vmem, ⟨8, _⟩ => ⟨S1x8192x32, .f32⟩
  | .local _ .vmem, ⟨9, _⟩ => ⟨S1x8192x32, .f32⟩
  | .local _ .vmem, ⟨10, _⟩ => ⟨S1x8192x32, .f32⟩
  | .local _ .vmem, ⟨11, _⟩ => ⟨S8192x32, .f32⟩
  | .local _ .vmem, ⟨12, _⟩ => ⟨S8192x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 32], ![false, false]⟩

def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : Index := Scalar.indexCast v6
  let c0_3 : Index := 0#32
  ![v7.toNat, 0]
def k0_cond2 (i : grid0.Coords) : BitVec 1 :=
  let arg1 : BitVec 32 := BitVec.ofNat 32 (i 1).val
  let c0_i32_15 : BitVec 32 := 0#32
  let v24 : BitVec 1 := Scalar.cmpi .eq arg1 c0_i32_15
  let v25 : BitVec 32 := Scalar.extui v24
  let c0_i32_16 : BitVec 32 := 0#32
  let v26 : BitVec 1 := Scalar.cmpi .ne v25 c0_i32_16
  v26

def k0_cond3 (i : grid0.Coords) : BitVec 1 :=
  let arg1 : BitVec 32 := BitVec.ofNat 32 (i 1).val
  let c0_i32_17 : BitVec 32 := 0#32
  let v27 : BitVec 1 := Scalar.cmpi .sgt arg1 c0_i32_17
  let v28 : BitVec 32 := Scalar.extui v27
  let c0_i32_18 : BitVec 32 := 0#32
  let v29 : BitVec 1 := Scalar.cmpi .ne v28 c0_i32_18
  v29

def k0_cond4 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16384x32_S8192x32_0_0 : ∀ a, (![0, 0] : Fin 2 → Nat) a + S8192x32.size a ≤ S16384x32.size a
  h_S8192x32 : 0 < S8192x32.numel
  inb_S8192x32_S8192x32_0_0 : ∀ a, (![0, 0] : Fin 2 → Nat) a + S8192x32.size a ≤ S8192x32.size a
  shapeCasts_S8192x32_S8192x32 : S8192x32.ShapeCasts S8192x32
  inb_S16384x32_S8192x32_8192_0 : ∀ a, (![8192, 0] : Fin 2 → Nat) a + S8192x32.size a ≤ S16384x32.size a
  inb_S256x8192_S256x8192_0_0 : ∀ a, (![0, 0] : Fin 2 → Nat) a + S256x8192.size a ≤ S256x8192.size a
  h_S256x8192 : 0 < S256x8192.numel
  h_S256x32 : 0 < S256x32.numel
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  shapeCasts_S256x32_S1x256x32 : S256x32.ShapeCasts S1x256x32
  shapeCasts_S256x32_S256x32 : S256x32.ShapeCasts S256x32
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  shapeCasts_S8192x32_S1x8192x32 : S8192x32.ShapeCasts S1x8192x32
  slices_S3x8192x32_S1x8192x32_0_0_0 : S3x8192x32.Slices ![0, 0, 0] S1x8192x32
  concatenates_S8192x32_S8192x32_S16384x32_d0 : Shape.Concatenates [S8192x32, S8192x32] S16384x32 0
  slices_S3x8192x32_S1x8192x32_1_0_0 : S3x8192x32.Slices ![1, 0, 0] S1x8192x32
  slices_S3x8192x32_S1x8192x32_2_0_0 : S3x8192x32.Slices ![2, 0, 0] S1x8192x32
  dot_S256x8192_S8192x32_S256x32_1_0_0_1_n_n_wf : DotDims.WF S256x8192 S8192x32 S256x32 [1] [0] [0] [1] [] []
  dot_S256x8192_S256x32_S8192x32_0_0_1_1_n_n_wf : DotDims.WF S256x8192 S256x32 S8192x32 [0] [0] [1] [1] [] []
  hrank0 : 0 < grid0.rank
  k0_off1_inb : ∀ i : grid0.Coords, ∀ a, (k0_off1 i) a + S256x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32.size a ≤ S3x8192x32.size a
  hwx0_2 : ∀ i : grid0.Coords, EltTy.bits .f32 = 32 ∨ (Rect.block (s := S3x8192x32) S1x256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32.size a ≤ S3x8192x32.size a
  hwx0_3 : ∀ i : grid0.Coords, EltTy.bits .f32 = 32 ∨ (Rect.block (s := S3x8192x32) S1x256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x32.size a ≤ S3x8192x32.size a
  hwx0_4 : ∀ i : grid0.Coords, EltTy.bits .f32 = 32 ∨ (Rect.block (s := S3x8192x32) S1x8192x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x32.size a ≤ S3x8192x32.size a
  hwx0_5 : ∀ i : grid0.Coords, EltTy.bits .f32 = 32 ∨ (Rect.block (s := S3x8192x32) S1x8192x32.size (cc0_transform_5 i) (hinb0_5 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x8192_S256x32_S8192x32_0_0_1_1_n_n : DotDims S256x8192 S256x32 S8192x32 where
  lhsContracting := [0]
  rhsContracting := [0]
  lhsNonContracting := [1]
  rhsNonContracting := [1]
  lhsBatch := []
  rhsBatch := []
  wf := dot_S256x8192_S256x32_S8192x32_0_0_1_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8192x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x8192x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) && !(k0_cond3 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S16384x32 : Shape := ⟨2, ![16384, 32]⟩
abbrev S8192x32 : Shape := ⟨2, ![8192, 32]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S16384x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x32, .f32⟩
  | .hbm, ⟨6, _⟩ => ⟨S8192x32, .f32⟩
  | .hbm, ⟨7, _⟩ => ⟨S16384x32, .f32⟩
  | .hbm, ⟨8, _⟩ => ⟨S16384x32, .f32⟩
  | .hbm, ⟨9, _⟩ => ⟨S8192x32, .f32⟩
  | .hbm, ⟨10, _⟩ => ⟨S8192x32, .f32⟩
  | .hbm, ⟨11, _⟩ => ⟨S8192x8192, .f32⟩
  | .hbm, ⟨12, _⟩ => ⟨S8192x32, .f32⟩
  | .hbm, ⟨13, _⟩ => ⟨S8192x32, .f32⟩
  | .hbm, ⟨14, _⟩ => ⟨S16384x32, .f32⟩
  | .hbm, ⟨15, _⟩ => ⟨S16384x32, .f32⟩
  | .hbm, ⟨16, _⟩ => ⟨S8192x32, .f32⟩
  | .hbm, ⟨17, _⟩ => ⟨S8192x32, .f32⟩
  | .hbm, ⟨18, _⟩ => ⟨S8192x8192, .f32⟩
  | .hbm, ⟨19, _⟩ => ⟨S8192x32, .f32⟩
  | .hbm, ⟨20, _⟩ => ⟨S8192x32, .f32⟩
  | .hbm, ⟨21, _⟩ => ⟨S16384x32, .f32⟩
  | .hbm, ⟨22, _⟩ => ⟨S16384x32, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]

class Facts₀ : Prop where
  slices_S16384x32_S8192x32_8192_0 : S16384x32.Slices ![8192, 0] S8192x32
  transposes_S8192x8192_S8192x8192_1_0 : S8192x8192.Transposes [1, 0] S8192x8192
  slices_S16384x32_S8192x32_0_0 : S16384x32.Slices ![0, 0] S8192x32
  concatenates_S8192x32_S8192x32_S16384x32_d0 : Shape.Concatenates [S8192x32, S8192x32] S16384x32 0
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.K.Common.lean ====
/-
  What the four runs of the propagation kernel's body share: the body's branch conditions read in closed form
  over the 96 grid points (point n is layer n / 32, stripe n % 32), where the two item windows are idle or
  written back, the staging and scratch memrefs by name, and the region invariant opened to the two scratch
  buffers (the user embeddings and the item embeddings the kernel carries from point to point).
-/
import proofs.«129477_g20109036880396_cont_8to1_786_6_alg».proof.Proof.Gen.Kernel.Frame
import proofs.«129477_g20109036880396_cont_8to1_786_6_alg».proof.Proof.Gen.Kernel.Skeleton

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch (copy the embeddings into the scratch buffers): layer 0, stripe 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (store the stripe's item contribution): stripe 0. -/
abbrev cond0_1 (i : grid0.Coords) : Prop := k0_cond2 i = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- The third branch (add the stripe's item contribution): every later stripe. -/
abbrev cond0_2 (i : grid0.Coords) : Prop := k0_cond3 i = 1#1
theorem hcond0_2 : ∀ t : Fin cfg0.N, cond0_2 (grid0.coords t) ↔ ¬ t.val % 32 = 0 :=
  (by decide +kernel : ∀ t : Fin grid0.N, cond0_2 (grid0.coords t) ↔ ¬ t.val % 32 = 0)

/-- The fourth branch (close the layer): the last stripe. -/
abbrev cond0_3 (i : grid0.Coords) : Prop := k0_cond4 i = 1#1
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Every stripe stores into the item aggregate's window (stripe 0 stores, the others add). -/
theorem liveAt0_4 : ∀ t : Fin cfg0.N, cfg0.idle 4 (grid0.coords t) = false := by decide +kernel
/-- Only a layer's last stripe stores into the item embeddings' window; -/
theorem liveAt0_5 : ∀ t : Fin cfg0.N, t.val % 32 = 31 → cfg0.idle 5 (grid0.coords t) = false := by decide +kernel
/-- at the others it is idle and not written back. -/
theorem idleAt0_5 : ∀ t : Fin cfg0.N, ¬ t.val % 32 = 31 → cfg0.idle 5 (grid0.coords t) = true := by decide +kernel
theorem noFlush0_5 : ∀ t : Fin cfg0.N, ¬ t.val % 32 = 31 → (cfg0.win 5).flush t = false := by decide +kernel
theorem noFlush0_4 : ∀ t : Fin cfg0.N, ¬ t.val % 32 = 31 → (cfg0.win 4).flush t = false := by decide +kernel

/-! ## The memrefs the body is called with -/

abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x32 .f32 := win0_5.stage (cfg0.slots t 5)
abbrev hs0_5 (t : Fin cfg0.N) : (ms0_5 t).IsWhole := hstage0_5 ((cfg0.slots t 5).cast nbuf0_5)
/-- The user embeddings' scratch and the item embeddings' scratch. -/
abbrev scM0_0 : Memref sig .tc .vmem S8192x32 .f32 := Memref.whole cc0_scratch0
abbrev scM0_1 : Memref sig .tc .vmem S8192x32 .f32 := Memref.whole cc0_scratch1
theorem hsc0_0 : scM0_0.IsWhole := Memref.isWhole_whole _
theorem hsc0_1 : scM0_1.IsWhole := Memref.isWhole_whole _

/-- The launch's invariant: both scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/-
  The body at the very first point (layer 0, stripe 0): the body first copies the two halves of the embeddings into the scratch buffers, then works as at any first stripe.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.K.Common

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_A (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    Σ' (L2 : List (View.Piece (Elt F) S1x256x32 .f32)) (L3 : List (View.Piece (Elt F) S1x256x32 .f32)) (L4 : List (View.Piece (Elt F) S1x8192x32 .f32)) (LS0 : List (View.Piece (Elt F) S8192x32 .f32)), { LS1 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fH5, %hfH5, H5⟩, ⟨%dHS0, %fHS0, -, HS0⟩, ⟨%dHS1, %fHS1, -, HS1⟩, Hk⟩
    obtain rfl := harg2.eq_unread hf0; obtain rfl := harg3.eq_unread hf1; obtain rfl := harg7.eq_unread hfH5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexists _; iexact HS0
    iexists _; iexact HS1

end Cert.Kernel.Hand

end
-- ==== Proof.K.RunB.lean ====
/-
  The body at the first stripe of a later layer: the stripe's contribution to the item aggregate is stored, not added.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.K.Common

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_B (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)), { LS0 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (arg8.view.loc (c : Thread nD τ) ↦[arg8.view.set]{fullShare} arg8.view.writes (Elt F) (harg8.unread xs0) LS0) ∗ owns (c : Thread nD τ) arg9 fullShare xs1) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fH5, %hfH5, H5⟩, ⟨%fHS0, %hfHS0, HS0⟩, ⟨%fHS1, %hfHS1, HS1⟩, Hk⟩
    obtain rfl := harg2.eq_unread hf0; obtain rfl := harg3.eq_unread hf1; obtain rfl := harg7.eq_unread hfH5; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexact HS0
    iexists _; isplitr; · ipureintro; exact harg9.read_unread _
    iexact HS1

end Cert.Kernel.Hand

end
-- ==== Proof.K.RunC.lean ====
/-
  The body at an interior stripe of a layer: the stripe's contribution is added into the item aggregate's window, read back first.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.K.Common

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_C (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)), { LS0 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (arg8.view.loc (c : Thread nD τ) ↦[arg8.view.set]{fullShare} arg8.view.writes (Elt F) (harg8.unread xs0) LS0) ∗ owns (c : Thread nD τ) arg9 fullShare xs1) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%fH4, %hfH4, H4⟩, ⟨%fH5, %hfH5, H5⟩, ⟨%fHS0, %hfHS0, HS0⟩, ⟨%fHS1, %hfHS1, HS1⟩, Hk⟩
    obtain rfl := harg2.eq_unread hf0; obtain rfl := harg3.eq_unread hf1; obtain rfl := harg6.eq_unread hfH4; obtain rfl := harg7.eq_unread hfH5; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexact HS0
    iexists _; isplitr; · ipureintro; exact harg9.read_unread _
    iexact HS1

end Cert.Kernel.Hand

end
-- ==== Proof.K.RunD.lean ====
/-
  The body at the last stripe of a layer: after adding its contribution the body closes the layer, storing aggregate plus old item embeddings into the item window and into the item scratch.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.K.Common

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_D (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)) (L5 : List (View.Piece (Elt F) S1x8192x32 .f32)) (LS0 : List (View.Piece (Elt F) S8192x32 .f32)), { LS1 : List (View.Piece (Elt F) S8192x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%fH4, %hfH4, H4⟩, ⟨%dH5, %fH5, -, H5⟩, ⟨%fHS0, %hfHS0, HS0⟩, ⟨%fHS1, %hfHS1, HS1⟩, Hk⟩
    obtain rfl := harg2.eq_unread hf0; obtain rfl := harg3.eq_unread hf1; obtain rfl := harg6.eq_unread hfH4; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexact HS0
    iexists _; iexact HS1

end Cert.Kernel.Hand

end
-- ==== Proof.K.Body.lean ====
/-
  The propagation kernel's frame, for every float instance. Point n of the 96-point grid is stripe n % 32 of layer
  n / 32. After each point: the stripe's user aggregate and new user rows sit in their two windows; the item
  aggregate's window holds the sum of the contributions of the layer's stripes so far; at a layer's last stripe the
  item window holds aggregate plus old item embeddings; the user scratch holds the new rows for the stripes done and
  the old rows for the rest; the item scratch holds the layer's item embeddings until the last stripe replaces them.
  This module states those contents point by point (as what each case of the body leaves, over what the point before
  left), gives them to the pipeline's launch as proof data with the scratch contents carried in the invariant, and
  proves the body obligation by the four cases. The arrays' values are read off these contents elsewhere.
-/
import proofs.«129477_g20109036880396_cont_8to1_786_6_alg».proof.Proof.K.RunA
import proofs.«129477_g20109036880396_cont_8to1_786_6_alg».proof.Proof.K.RunB
import proofs.«129477_g20109036880396_cont_8to1_786_6_alg».proof.Proof.K.RunC
import proofs.«129477_g20109036880396_cont_8to1_786_6_alg».proof.Proof.K.RunD

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, and the two scratch buffers, as views: what a buffer holds is stated through them
    (a covering list of stores reads the same through any view of the shape). -/
abbrev VO0_2 : View sig .tc .vmem S1x256x32 .f32 := (Memref.whole cc0_stg2_0 : Memref sig .tc .vmem S1x256x32 .f32).view
abbrev VO0_3 : View sig .tc .vmem S1x256x32 .f32 := (Memref.whole cc0_stg3_0 : Memref sig .tc .vmem S1x256x32 .f32).view
abbrev VO0_4 : View sig .tc .vmem S1x8192x32 .f32 := (Memref.whole cc0_stg4_0 : Memref sig .tc .vmem S1x8192x32 .f32).view
abbrev VO0_5 : View sig .tc .vmem S1x8192x32 .f32 := (Memref.whole cc0_stg5_0 : Memref sig .tc .vmem S1x8192x32 .f32).view
abbrev VS0_0 : View sig .tc .vmem S8192x32 .f32 := scM0_0.view
abbrev VS0_1 : View sig .tc .vmem S8192x32 .f32 := scM0_1.view

/-! ## What each case leaves -/

/-- The stores of this case cover window 2's block. -/
theorem cover0_A_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x256x32.Idx) :
    ∃ pc ∈ (kernelRun0_A c i arg2 harg2 arg3 harg3 arg4 harg4 arg5 harg5 arg6 harg6 arg7 harg7 arg8 harg8 arg9 harg9 hc0 hc1 hc2 hc3 x0 x1).1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).1 S1x256x32.size (by sl_kernel_rfl) y

/-- What this case leaves in window 2's staging buffer. -/
def out0_A_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x256x32 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 hc2 hc3 x0 x1).1)

/-- The stores of this case cover window 3's block. -/
theorem cover0_A_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x256x32.Idx) :
    ∃ pc ∈ (kernelRun0_A c i arg2 harg2 arg3 harg3 arg4 harg4 arg5 harg5 arg6 harg6 arg7 harg7 arg8 harg8 arg9 harg9 hc0 hc1 hc2 hc3 x0 x1).2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.1 S1x256x32.size (by sl_kernel_rfl) y

/-- What this case leaves in window 3's staging buffer. -/
def out0_A_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x256x32 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 hc2 hc3 x0 x1).2.1)

/-- The stores of this case cover window 4's block. -/
theorem cover0_A_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x8192x32.Idx) :
    ∃ pc ∈ (kernelRun0_A c i arg2 harg2 arg3 harg3 arg4 harg4 arg5 harg5 arg6 harg6 arg7 harg7 arg8 harg8 arg9 harg9 hc0 hc1 hc2 hc3 x0 x1).2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.1 S1x8192x32.size (by sl_kernel_rfl) y

/-- What this case leaves in window 4's staging buffer. -/
def out0_A_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x8192x32 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 hc2 hc3 x0 x1).2.2.1)

/-- The stores of this case cover the user scratch. -/
theorem scover0_A_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S8192x32.Idx) :
    ∃ pc ∈ (kernelRun0_A c i arg2 harg2 arg3 harg3 arg4 harg4 arg5 harg5 arg6 harg6 arg7 harg7 arg8 harg8 arg9 harg9 hc0 hc1 hc2 hc3 x0 x1).2.2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.2.1 S8192x32.size (by sl_kernel_rfl) y

/-- What this case leaves in the user scratch. -/
def sout0_A_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S8192x32 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 hc3 x0 x1).2.2.2.1)

/-- The stores of this case cover the item scratch. -/
theorem scover0_A_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S8192x32.Idx) :
    ∃ pc ∈ (kernelRun0_A c i arg2 harg2 arg3 harg3 arg4 harg4 arg5 harg5 arg6 harg6 arg7 harg7 arg8 harg8 arg9 harg9 hc0 hc1 hc2 hc3 x0 x1).2.2.2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.2.2.1 S8192x32.size (by sl_kernel_rfl) y

/-- What this case leaves in the item scratch. -/
def sout0_A_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S8192x32 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 hc2 hc3 x0 x1).2.2.2.2.1)

/-- The stores of this case cover window 2's block. -/
theorem cover0_B_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x256x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).1 S1x256x32.size (by sl_kernel_rfl) y

/-- What this case leaves in window 2's staging buffer. -/
def out0_B_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x256x32 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 hc2 hc3 x0 x1 xs0 xs1).1)

/-- The stores of this case cover window 3's block. -/
theorem cover0_B_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x256x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).2.1 S1x256x32.size (by sl_kernel_rfl) y

/-- What this case leaves in window 3's staging buffer. -/
def out0_B_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x256x32 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 hc2 hc3 x0 x1 xs0 xs1).2.1)

/-- The stores of this case cover window 4's block. -/
theorem cover0_B_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x8192x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).2.2.1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).2.2.1 S1x8192x32.size (by sl_kernel_rfl) y

/-- What this case leaves in window 4's staging buffer. -/
def out0_B_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x8192x32 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 hc2 hc3 x0 x1 xs0 xs1).2.2.1)

/-- What this case leaves in the user scratch: the stripe's rows stored over what the scratch held. -/
def sout0_B_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S8192x32 .f32 :=
  arg8.view.read (Elt F) (arg8.view.writes (Elt F) (harg8.unread xs0) (kernelRun0_B c i arg2 harg2 arg3 harg3 arg4 harg4 arg5 harg5 arg6 harg6 arg7 harg7 arg8 harg8 arg9 harg9 hc0 hc1 hc2 hc3 x0 x1 xs0 xs1).2.2.2.1)

/-- The stores of this case cover window 2's block. -/
theorem cover0_C_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).1 S1x256x32.size (by sl_kernel_rfl) y

/-- What this case leaves in window 2's staging buffer. -/
def out0_C_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 hc2 hc3 x0 x1 xo4 xs0 xs1).1)

/-- The stores of this case cover window 3's block. -/
theorem cover0_C_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).2.1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).2.1 S1x256x32.size (by sl_kernel_rfl) y

/-- What this case leaves in window 3's staging buffer. -/
def out0_C_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 hc2 hc3 x0 x1 xo4 xs0 xs1).2.1)

/-- The stores of this case cover window 4's block. -/
theorem cover0_C_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).2.2.1 S1x8192x32.size (by sl_kernel_rfl) y

/-- What this case leaves in window 4's staging buffer. -/
def out0_C_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 hc2 hc3 x0 x1 xo4 xs0 xs1).2.2.1)

/-- What this case leaves in the user scratch: the stripe's rows stored over what the scratch held. -/
def sout0_C_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  arg8.view.read (Elt F) (arg8.view.writes (Elt F) (harg8.unread xs0) (kernelRun0_C c i arg2 harg2 arg3 harg3 arg4 harg4 arg5 harg5 arg6 harg6 arg7 harg7 arg8 harg8 arg9 harg9 hc0 hc1 hc2 hc3 x0 x1 xo4 xs0 xs1).2.2.2.1)

/-- The stores of this case cover window 2's block. -/
theorem cover0_D_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).1 S1x256x32.size (by sl_kernel_rfl) y

/-- What this case leaves in window 2's staging buffer. -/
def out0_D_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_2.read (Elt F) (VO0_2.writes (Elt F) VO0_2.junk (kernelRun0_D c i arg2 harg2 arg3 harg3 arg4 harg4 arg5 harg5 arg6 harg6 arg7 harg7 arg8 harg8 arg9 harg9 hc0 hc1 hc2 hc3 x0 x1 xo4 xs0 xs1).1)

/-- The stores of this case cover window 3's block. -/
theorem cover0_D_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.1 S1x256x32.size (by sl_kernel_rfl) y

/-- What this case leaves in window 3's staging buffer. -/
def out0_D_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_3.read (Elt F) (VO0_3.writes (Elt F) VO0_3.junk (kernelRun0_D c i arg2 harg2 arg3 harg3 arg4 harg4 arg5 harg5 arg6 harg6 arg7 harg7 arg8 harg8 arg9 harg9 hc0 hc1 hc2 hc3 x0 x1 xo4 xs0 xs1).2.1)

/-- The stores of this case cover window 4's block. -/
theorem cover0_D_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.1 S1x8192x32.size (by sl_kernel_rfl) y

/-- What this case leaves in window 4's staging buffer. -/
def out0_D_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_4.read (Elt F) (VO0_4.writes (Elt F) VO0_4.junk (kernelRun0_D c i arg2 harg2 arg3 harg3 arg4 harg4 arg5 harg5 arg6 harg6 arg7 harg7 arg8 harg8 arg9 harg9 hc0 hc1 hc2 hc3 x0 x1 xo4 xs0 xs1).2.2.1)

/-- The stores of this case cover window 5's block. -/
theorem cover0_D_5 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.2.1 S1x8192x32.size (by sl_kernel_rfl) y

/-- What this case leaves in window 5's staging buffer. -/
def out0_D_5 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_5.read (Elt F) (VO0_5.writes (Elt F) VO0_5.junk (kernelRun0_D c i arg2 harg2 arg3 harg3 arg4 harg4 arg5 harg5 arg6 harg6 arg7 harg7 arg8 harg8 arg9 harg9 hc0 hc1 hc2 hc3 x0 x1 xo4 xs0 xs1).2.2.2.1)

/-- What this case leaves in the user scratch: the stripe's rows stored over what the scratch held. -/
def sout0_D_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  arg8.view.read (Elt F) (arg8.view.writes (Elt F) (harg8.unread xs0) (kernelRun0_D c i arg2 harg2 arg3 harg3 arg4 harg4 arg5 harg5 arg6 harg6 arg7 harg7 arg8 harg8 arg9 harg9 hc0 hc1 hc2 hc3 x0 x1 xo4 xs0 xs1).2.2.2.2.1)

/-- The stores of this case cover the item scratch. -/
theorem scover0_D_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.2.2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.2.2.2.1 S8192x32.size (by sl_kernel_rfl) y

/-- What this case leaves in the item scratch. -/
def sout0_D_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  VS0_1.read (Elt F) (VS0_1.writes (Elt F) VS0_1.junk (kernelRun0_D c i arg2 harg2 arg3 harg3 arg4 harg4 arg5 harg5 arg6 harg6 arg7 harg7 arg8 harg8 arg9 harg9 hc0 hc1 hc2 hc3 x0 x1 xo4 xs0 xs1).2.2.2.2.2.1)

/-! ## The four cases, by the point's number -/

theorem caseA_0 (t : Fin cfg0.N) (h0 : t.val = 0) : cond0_0 (grid0.coords t) := (hcond0_0 t).mpr h0
theorem caseA_1 (t : Fin cfg0.N) (h0 : t.val = 0) : cond0_1 (grid0.coords t) := (hcond0_1 t).mpr (by omega)
theorem caseA_2 (t : Fin cfg0.N) (h0 : t.val = 0) : ¬cond0_2 (grid0.coords t) := fun h => (hcond0_2 t).mp h (by omega)
theorem caseA_3 (t : Fin cfg0.N) (h0 : t.val = 0) : ¬cond0_3 (grid0.coords t) := fun h => by have := (hcond0_3 t).mp h; omega
theorem caseB_0 (t : Fin cfg0.N) (h0 : ¬t.val = 0) (h1 : t.val % 32 = 0) : ¬cond0_0 (grid0.coords t) := fun h => h0 ((hcond0_0 t).mp h)
theorem caseB_1 (t : Fin cfg0.N) (h0 : ¬t.val = 0) (h1 : t.val % 32 = 0) : cond0_1 (grid0.coords t) := (hcond0_1 t).mpr h1
theorem caseB_2 (t : Fin cfg0.N) (h0 : ¬t.val = 0) (h1 : t.val % 32 = 0) : ¬cond0_2 (grid0.coords t) := fun h => (hcond0_2 t).mp h h1
theorem caseB_3 (t : Fin cfg0.N) (h0 : ¬t.val = 0) (h1 : t.val % 32 = 0) : ¬cond0_3 (grid0.coords t) := fun h => by have := (hcond0_3 t).mp h; omega
theorem caseC_0 (t : Fin cfg0.N) (h1 : ¬t.val % 32 = 0) (h3 : ¬t.val % 32 = 31) : ¬cond0_0 (grid0.coords t) := fun h => by have := (hcond0_0 t).mp h; omega
theorem caseC_1 (t : Fin cfg0.N) (h1 : ¬t.val % 32 = 0) (h3 : ¬t.val % 32 = 31) : ¬cond0_1 (grid0.coords t) := fun h => h1 ((hcond0_1 t).mp h)
theorem caseC_2 (t : Fin cfg0.N) (h1 : ¬t.val % 32 = 0) (h3 : ¬t.val % 32 = 31) : cond0_2 (grid0.coords t) := (hcond0_2 t).mpr h1
theorem caseC_3 (t : Fin cfg0.N) (h1 : ¬t.val % 32 = 0) (h3 : ¬t.val % 32 = 31) : ¬cond0_3 (grid0.coords t) := fun h => h3 ((hcond0_3 t).mp h)
theorem caseD_0 (t : Fin cfg0.N) (h3 : t.val % 32 = 31) : ¬cond0_0 (grid0.coords t) := fun h => by have := (hcond0_0 t).mp h; omega
theorem caseD_1 (t : Fin cfg0.N) (h3 : t.val % 32 = 31) : ¬cond0_1 (grid0.coords t) := fun h => by have := (hcond0_1 t).mp h; omega
theorem caseD_2 (t : Fin cfg0.N) (h3 : t.val % 32 = 31) : cond0_2 (grid0.coords t) := (hcond0_2 t).mpr (by omega)
theorem caseD_3 (t : Fin cfg0.N) (h3 : t.val % 32 = 31) : cond0_3 (grid0.coords t) := (hcond0_3 t).mpr h3

/-! ## What the buffers hold after each point -/

/-- The four output windows' staging buffers and the two scratch buffers. -/
structure Outs (F : FTy → Type) [FloatOps F] where
  o2 : Vec F S1x256x32 .f32
  o3 : Vec F S1x256x32 .f32
  o4 : Vec F S1x8192x32 .f32
  o5 : Vec F S1x8192x32 .f32
  s0 : Vec F S8192x32 .f32
  s1 : Vec F S8192x32 .f32

/-- Contents nothing reads: what the recursion starts from (the first point reads none of it). -/
def junkOuts : Outs F where
  o2 := VO0_2.read (Elt F) VO0_2.junk
  o3 := VO0_3.read (Elt F) VO0_3.junk
  o4 := VO0_4.read (Elt F) VO0_4.junk
  o5 := VO0_5.read (Elt F) VO0_5.junk
  s0 := VS0_0.read (Elt F) VS0_0.junk
  s1 := VS0_1.read (Elt F) VS0_1.junk

/-- What the buffers hold after a point of this case. -/
def outsA (c : Dev nD) (t : Fin cfg0.N) (h0 : t.val = 0) : Outs F where
  o2 := out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o3 := out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o4 := out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o5 := VO0_5.read (Elt F) VO0_5.junk
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)

/-- What the buffers hold after a point of this case over what the point before left. -/
def outsB (c : Dev nD) (t : Fin cfg0.N) (h0 : ¬t.val = 0) (h1 : t.val % 32 = 0) (prev : Outs F) : Outs F where
  o2 := out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o3 := out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o4 := out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o5 := VO0_5.read (Elt F) VO0_5.junk
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  s1 := prev.s1

/-- What the buffers hold after a point of this case over what the point before left. -/
def outsC (c : Dev nD) (t : Fin cfg0.N) (h1 : ¬t.val % 32 = 0) (h3 : ¬t.val % 32 = 31) (prev : Outs F) : Outs F where
  o2 := out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o3 := out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o5 := VO0_5.read (Elt F) VO0_5.junk
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  s1 := prev.s1

/-- What the buffers hold after a point of this case over what the point before left. -/
def outsD (c : Dev nD) (t : Fin cfg0.N) (h3 : t.val % 32 = 31) (prev : Outs F) : Outs F where
  o2 := out0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o3 := out0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o4 := out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1

/-- One point: the case its number selects. -/
def stepAt (c : Dev nD) (t : Fin cfg0.N) (prev : Outs F) : Outs F :=
  if h0 : t.val = 0 then outsA m c t h0
  else if h1 : t.val % 32 = 0 then outsB m c t h0 h1 prev
  else if h3 : t.val % 32 = 31 then outsD m c t h3 prev
  else outsC m c t h1 h3 prev

/-- The buffers after point n, by recursion on n. -/
def outsAt0 (c : Dev nD) : (n : ℕ) → n < cfg0.N → Outs F
  | 0, hn => stepAt m c ⟨0, hn⟩ junkOuts
  | n + 1, hn => stepAt m c ⟨n + 1, hn⟩ (outsAt0 c n (Nat.lt_of_succ_lt hn))

theorem outsAt0_A (c : Dev nD) (t : Fin cfg0.N) (h0 : t.val = 0) : outsAt0 m c t.val t.isLt = outsA m c t h0 := by
  obtain ⟨n, hn⟩ := t
  cases n with
  | zero => show stepAt m c ⟨0, hn⟩ junkOuts = _; unfold stepAt; rw [dif_pos h0]
  | succ n => exact absurd h0 (Nat.succ_ne_zero n)

theorem outsAt0_pos (c : Dev nD) (t : Fin cfg0.N) (h0 : ¬t.val = 0) :
    outsAt0 m c t.val t.isLt = stepAt m c t (outsAt0 m c (t.val - 1) (Nat.lt_of_le_of_lt (Nat.sub_le _ _) t.isLt)) := by
  obtain ⟨n, hn⟩ := t
  cases n with
  | zero => exact absurd rfl h0
  | succ n => rfl

theorem outsAt0_B (c : Dev nD) (t : Fin cfg0.N) (h0 : ¬t.val = 0) (h1 : t.val % 32 = 0) :
    outsAt0 m c t.val t.isLt = outsB m c t h0 h1 (outsAt0 m c (t.val - 1) (Nat.lt_of_le_of_lt (Nat.sub_le _ _) t.isLt)) := by
  rw [outsAt0_pos m c t h0]; unfold stepAt; rw [dif_neg h0, dif_pos h1]

theorem outsAt0_C (c : Dev nD) (t : Fin cfg0.N) (h1 : ¬t.val % 32 = 0) (h3 : ¬t.val % 32 = 31) :
    outsAt0 m c t.val t.isLt = outsC m c t h1 h3 (outsAt0 m c (t.val - 1) (Nat.lt_of_le_of_lt (Nat.sub_le _ _) t.isLt)) := by
  have h0 : ¬t.val = 0 := fun h => h1 (by omega)
  rw [outsAt0_pos m c t h0]; unfold stepAt; rw [dif_neg h0, dif_neg h1, dif_neg h3]

theorem outsAt0_D (c : Dev nD) (t : Fin cfg0.N) (h3 : t.val % 32 = 31) :
    outsAt0 m c t.val t.isLt = outsD m c t h3 (outsAt0 m c (t.val - 1) (Nat.lt_of_le_of_lt (Nat.sub_le _ _) t.isLt)) := by
  have h0 : ¬t.val = 0 := fun h => by omega
  have h1 : ¬t.val % 32 = 0 := fun h => by omega
  rw [outsAt0_pos m c t h0]; unfold stepAt; rw [dif_neg h0, dif_neg h1, dif_pos h3]

/-! ## The invariant: the scratch buffers at what the point before left -/

/-- Before point n: at the start the launch's invariant (both scratch buffers at anything); afterwards the user scratch and the
    item scratch at what point n - 1 left, and the generator register at some state. -/
def PhiS (c : Dev nD) : (n : ℕ) → n ≤ cfg0.N → sProp 𝕄
  | 0, _ => Pipeline.ΦA spec0 c
  | n + 1, hn => iprop(owns (c : Thread nD τ) scM0_0 fullShare ((outsAt0 m c n hn).s0) ∗ owns (c : Thread nD τ) scM0_1 fullShare ((outsAt0 m c n hn).s1) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare ((outsAt0 m c n hn).s0) ∗ owns (c : Thread nD τ) scM0_1 fullShare ((outsAt0 m c n hn).s1) ∗ (∃ r, prngReg c r)) := rfl

theorem PhiS_pos (c : Dev nD) (n : ℕ) (h : n ≤ cfg0.N) (hz : n ≠ 0) :
    PhiS m c n h = iprop(owns (c : Thread nD τ) scM0_0 fullShare ((outsAt0 m c (n - 1) (by omega)).s0) ∗ owns (c : Thread nD τ) scM0_1 fullShare ((outsAt0 m c (n - 1) (by omega)).s1) ∗ (∃ r, prngReg c r)) := by
  cases n with
  | zero => exact absurd rfl hz
  | succ n => rfl

/-! ## The pipeline's proof data -/

/-- The arrays as the region finds them; after the body at point t the inputs' buffers at their blocks and the outputs' at
    what the recursion says; the invariant carrying the scratch contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).o2
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).o2 := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Every stripe stores into the item aggregate's window: it is idle nowhere. -/
theorem live0_4 : ∀ i : grid0.Coords, cfg0.idle 4 i = false := by
  intro i
  show (!(k0_cond2 i == 1#1) && !(k0_cond3 i == 1#1)) = false
  unfold k0_cond2 k0_cond3
  have h : ∀ b : Fin 32, (!(Scalar.cmpi .ne (Scalar.extui (Scalar.cmpi .eq (BitVec.ofNat 32 b.val) 0#32)) 0#32 == 1#1)
      && !(Scalar.cmpi .ne (Scalar.extui (Scalar.cmpi .sgt (BitVec.ofNat 32 b.val) 0#32)) 0#32 == 1#1)) = false := by decide
  exact h (i 1)

/-- Within a layer, after its first stripe, the item aggregate's window holds what the stripe before left: the block index
    has not moved, so the buffer was not written back between. -/
theorem before0_4_kept (c : Dev nD) (t : Fin cfg0.N) (h1 : ¬t.val % 32 = 0) (d) :
    (dats m 0 c).before 4 t d = (outsAt0 m c (t.val - 1) (Nat.lt_of_le_of_lt (Nat.sub_le _ _) t.isLt)).o4 := by
  have hN : t.val < 96 := lt_of_lt_of_eq t.isLt (show cfg0.N = 96 from N_0)
  rw [Dat.before_out_kept _ 4 rfl t (by omega) (Bool.eq_false_iff.mpr fun h => by have := (flush0_4 _).mp h; dsimp only at this; omega)
    live0_4 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point's number says which case it is in; the invariant hands the
    body the scratch buffers at what the point before left (at anything at the very first point) and takes them back at this point's
    contents; within a layer the item aggregate's window holds what the stripe before left; the item window is handed back untouched
    except at a layer's last stripe. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · rw [Dat.leavesExact_idle (dats m 0 c) 5 t (idleAt0_5 t (by omega)) (noFlush0_5 t (by omega))]
    rw [outsAt0_A m c t h0]
    unfold outsA out0_A_2 out0_A_3 out0_A_4 sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)).2.2.2.2.2 _ Set.univ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [HS0]; · iexact HS0
    isplitl [HS1]; · iexact HS1
    iintro ⟨H0, H1, ⟨%e2, H2⟩, ⟨%e3, H3⟩, ⟨%e4, H4⟩, H5, ⟨%es0, HS0⟩, ⟨%es1, HS1⟩⟩
    isplitl [HS0 HS1 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    iexists _; iexact H5
  · by_cases h1 : t.val % 32 = 0
    · rw [Dat.leavesExact_idle (dats m 0 c) 5 t (idleAt0_5 t (by omega)) (noFlush0_5 t (by omega))]
      rw [outsAt0_B m c t h0 h1]
      unfold outsB out0_B_2 out0_B_3 out0_B_4 sout0_B_0; (try dsimp only)
      rw [PhiS_castSucc m c t, PhiS_pos m c _ _ h0]
      iintro ⟨⟨HS0, HS1, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) (outsAt0 m c (t.val - 1) (Nat.lt_of_le_of_lt (Nat.sub_le _ _) t.isLt)).s0 (outsAt0 m c (t.val - 1) (Nat.lt_of_le_of_lt (Nat.sub_le _ _) t.isLt)).s1).2.2.2.2 _ Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [HS0]; · iexact HS0
      isplitl [HS1]; · iexact HS1
      iintro ⟨H0, H1, ⟨%e2, H2⟩, ⟨%e3, H3⟩, ⟨%e4, H4⟩, H5, HS0, HS1⟩
      isplitl [HS0 HS1 Hg]
      · isplitl [HS0]
        · unfold owns; iexists _; isplitr
          swap; · iexact HS0
          ipureintro; rfl
        isplitl [HS1]; · iexact HS1
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      iexists _; iexact H5
    · by_cases h3 : t.val % 32 = 31
      · rw [show (dats m 0 c).leavesExact 5 t = owns (c : Thread nD τ) (ms0_5 t) fullShare ((dats m 0 c).after 5 t) from by
          unfold Dat.leavesExact; rw [liveAt0_5 t h3], after0_5]
        rw [outsAt0_D m c t h3]
        unfold outsD out0_D_2 out0_D_3 out0_D_4 out0_D_5 sout0_D_0 sout0_D_1; (try dsimp only)
        rw [PhiS_castSucc m c t, PhiS_pos m c _ _ (by omega)]
        have hk4 := before0_4_kept m c t (by omega)
        simp only [hk4]
        iintro ⟨⟨HS0, HS1, Hg⟩, Ho, ⟨%d0, H0⟩, ⟨%d1, H1⟩, ⟨%d2, H2⟩, ⟨%d3, H3⟩, ⟨%d4, H4⟩, ⟨%d5, H5⟩⟩
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) (outsAt0 m c (t.val - 1) (Nat.lt_of_le_of_lt (Nat.sub_le _ _) t.isLt)).o4 (outsAt0 m c (t.val - 1) (Nat.lt_of_le_of_lt (Nat.sub_le _ _) t.isLt)).s0 (outsAt0 m c (t.val - 1) (Nat.lt_of_le_of_lt (Nat.sub_le _ _) t.isLt)).s1).2.2.2.2.2.2 Set.univ _)
        isplitl [H0]; · iexact H0
        isplitl [H1]; · iexact H1
        isplitl [H2]; · iexists _; iexact H2
        isplitl [H3]; · iexists _; iexact H3
        isplitl [H4]; · iexact H4
        isplitl [H5]; · iexists _; iexact H5
        isplitl [HS0]; · iexact HS0
        isplitl [HS1]; · iexact HS1
        iintro ⟨H0, H1, ⟨%e2, H2⟩, ⟨%e3, H3⟩, ⟨%e4, H4⟩, ⟨%e5, H5⟩, HS0, ⟨%es1, HS1⟩⟩
        isplitl [HS0 HS1 Hg]
        · isplitl [HS0]
          · unfold owns; iexists _; isplitr
            swap; · iexact HS0
            ipureintro; rfl
          isplitl [HS1]
          · unfold owns; iexists _; isplitr
            swap; · iexact HS1
            ipureintro; exact View.read_writes_of_cover _ _ _ _ _ (scover0_D_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_D_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_D_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_D_4 c _ _ _ _ _ _ _ _ _ _ _ _ _ _ _ _ _ _ _ _ _ _ _ _ _ _)
        unfold owns; iexists _; isplitr
        swap; · iexact H5
        ipureintro; exact View.read_writes_of_cover _ _ _ _ _ (cover0_D_5 c _ _ _ _ _ _ _ _ _ _ _ _ _ _ _ _ _ _ _ _ _ _ _ _ _ _)
      · rw [Dat.leavesExact_idle (dats m 0 c) 5 t (idleAt0_5 t (by omega)) (noFlush0_5 t (by omega))]
        rw [outsAt0_C m c t h1 h3]
        unfold outsC out0_C_2 out0_C_3 out0_C_4 sout0_C_0; (try dsimp only)
        rw [PhiS_castSucc m c t, PhiS_pos m c _ _ (by omega)]
        have hk4 := before0_4_kept m c t (by omega)
        simp only [hk4]
        iintro ⟨⟨HS0, HS1, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) (outsAt0 m c (t.val - 1) (Nat.lt_of_le_of_lt (Nat.sub_le _ _) t.isLt)).o4 (outsAt0 m c (t.val - 1) (Nat.lt_of_le_of_lt (Nat.sub_le _ _) t.isLt)).s0 (outsAt0 m c (t.val - 1) (Nat.lt_of_le_of_lt (Nat.sub_le _ _) t.isLt)).s1).2.2.2.2 _ Set.univ _)
        isplitl [H0]; · iexact H0
        isplitl [H1]; · iexact H1
        isplitl [H2]; · iexists _; iexact H2
        isplitl [H3]; · iexists _; iexact H3
        isplitl [H4]; · iexact H4
        isplitl [H5]; · iexact H5
        isplitl [HS0]; · iexact HS0
        isplitl [HS1]; · iexact HS1
        iintro ⟨H0, H1, ⟨%e2, H2⟩, ⟨%e3, H3⟩, ⟨%e4, H4⟩, H5, HS0, HS1⟩
        isplitl [HS0 HS1 Hg]
        · isplitl [HS0]
          · unfold owns; iexists _; isplitr
            swap; · iexact HS0
            ipureintro; rfl
          isplitl [HS1]; · iexact HS1
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _)
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 96 := N_0; omega), PhiA0_eq]
  iintro ⟨HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and in every final state each array of the pipeline holds what the
    library computes from the proof data, every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Common.lean ====
/-
  What the four runs of the propagation kernel's body share: the body's branch conditions read in closed form
  over the 96 grid points (point n is layer n / 32, stripe n % 32), where the two item windows are idle or
  written back, the staging and scratch memrefs by name, and the region invariant opened to the two scratch
  buffers (the user embeddings and the item embeddings the kernel carries from point to point).
-/
import proofs.«129477_g20109036880396_cont_8to1_786_6_alg».proof.Proof.Gen.KernelIdeal.Frame
import proofs.«129477_g20109036880396_cont_8to1_786_6_alg».proof.Proof.Gen.KernelIdeal.Skeleton

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch (copy the embeddings into the scratch buffers): layer 0, stripe 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (store the stripe's item contribution): stripe 0. -/
abbrev cond0_1 (i : grid0.Coords) : Prop := k0_cond2 i = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- The third branch (add the stripe's item contribution): every later stripe. -/
abbrev cond0_2 (i : grid0.Coords) : Prop := k0_cond3 i = 1#1
theorem hcond0_2 : ∀ t : Fin cfg0.N, cond0_2 (grid0.coords t) ↔ ¬ t.val % 32 = 0 :=
  (by decide +kernel : ∀ t : Fin grid0.N, cond0_2 (grid0.coords t) ↔ ¬ t.val % 32 = 0)

/-- The fourth branch (close the layer): the last stripe. -/
abbrev cond0_3 (i : grid0.Coords) : Prop := k0_cond4 i = 1#1
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Every stripe stores into the item aggregate's window (stripe 0 stores, the others add). -/
theorem liveAt0_4 : ∀ t : Fin cfg0.N, cfg0.idle 4 (grid0.coords t) = false := by decide +kernel
/-- Only a layer's last stripe stores into the item embeddings' window; -/
theorem liveAt0_5 : ∀ t : Fin cfg0.N, t.val % 32 = 31 → cfg0.idle 5 (grid0.coords t) = false := by decide +kernel
/-- at the others it is idle and not written back. -/
theorem idleAt0_5 : ∀ t : Fin cfg0.N, ¬ t.val % 32 = 31 → cfg0.idle 5 (grid0.coords t) = true := by decide +kernel
theorem noFlush0_5 : ∀ t : Fin cfg0.N, ¬ t.val % 32 = 31 → (cfg0.win 5).flush t = false := by decide +kernel
theorem noFlush0_4 : ∀ t : Fin cfg0.N, ¬ t.val % 32 = 31 → (cfg0.win 4).flush t = false := by decide +kernel

/-! ## The memrefs the body is called with -/

abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x32 .f32 := win0_5.stage (cfg0.slots t 5)
abbrev hs0_5 (t : Fin cfg0.N) : (ms0_5 t).IsWhole := hstage0_5 ((cfg0.slots t 5).cast nbuf0_5)
/-- The user embeddings' scratch and the item embeddings' scratch. -/
abbrev scM0_0 : Memref sig .tc .vmem S8192x32 .f32 := Memref.whole cc0_scratch0
abbrev scM0_1 : Memref sig .tc .vmem S8192x32 .f32 := Memref.whole cc0_scratch1
theorem hsc0_0 : scM0_0.IsWhole := Memref.isWhole_whole _
theorem hsc0_1 : scM0_1.IsWhole := Memref.isWhole_whole _

/-- The launch's invariant: both scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/-
  The body at the very first point (layer 0, stripe 0): the body first copies the two halves of the embeddings into the scratch buffers, then works as at any first stripe.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.KI.Common

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_A (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    Σ' (L2 : List (View.Piece (Elt F) S1x256x32 .f32)) (L3 : List (View.Piece (Elt F) S1x256x32 .f32)) (L4 : List (View.Piece (Elt F) S1x8192x32 .f32)) (LS0 : List (View.Piece (Elt F) S8192x32 .f32)), { LS1 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fH5, %hfH5, H5⟩, ⟨%dHS0, %fHS0, -, HS0⟩, ⟨%dHS1, %fHS1, -, HS1⟩, Hk⟩
    obtain rfl := harg2.eq_unread hf0; obtain rfl := harg3.eq_unread hf1; obtain rfl := harg7.eq_unread hfH5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexists _; iexact HS0
    iexists _; iexact HS1

end Cert.KernelIdeal.Hand

end
-- ==== Proof.KI.RunB.lean ====
/-
  The body at the first stripe of a later layer: the stripe's contribution to the item aggregate is stored, not added.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.KI.Common

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_B (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)), { LS0 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (arg8.view.loc (c : Thread nD τ) ↦[arg8.view.set]{fullShare} arg8.view.writes (Elt F) (harg8.unread xs0) LS0) ∗ owns (c : Thread nD τ) arg9 fullShare xs1) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fH5, %hfH5, H5⟩, ⟨%fHS0, %hfHS0, HS0⟩, ⟨%fHS1, %hfHS1, HS1⟩, Hk⟩
    obtain rfl := harg2.eq_unread hf0; obtain rfl := harg3.eq_unread hf1; obtain rfl := harg7.eq_unread hfH5; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexact HS0
    iexists _; isplitr; · ipureintro; exact harg9.read_unread _
    iexact HS1

end Cert.KernelIdeal.Hand

end
-- ==== Proof.KI.RunC.lean ====
/-
  The body at an interior stripe of a layer: the stripe's contribution is added into the item aggregate's window, read back first.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.KI.Common

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_C (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)), { LS0 : List (View.Piece (Elt F) S8192x32 .f32) //
      ∀ (xi5 : Vec F S1x8192x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (arg8.view.loc (c : Thread nD τ) ↦[arg8.view.set]{fullShare} arg8.view.writes (Elt F) (harg8.unread xs0) LS0) ∗ owns (c : Thread nD τ) arg9 fullShare xs1) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, fun xi5 E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%fH4, %hfH4, H4⟩, ⟨%fH5, %hfH5, H5⟩, ⟨%fHS0, %hfHS0, HS0⟩, ⟨%fHS1, %hfHS1, HS1⟩, Hk⟩
    obtain rfl := harg2.eq_unread hf0; obtain rfl := harg3.eq_unread hf1; obtain rfl := harg6.eq_unread hfH4; obtain rfl := harg7.eq_unread hfH5; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    isplitl [HS0]; · iexact HS0
    iexists _; isplitr; · ipureintro; exact harg9.read_unread _
    iexact HS1

end Cert.KernelIdeal.Hand

end
-- ==== Proof.KI.RunD.lean ====
/-
  The body at the last stripe of a layer: after adding its contribution the body closes the layer, storing aggregate plus old item embeddings into the item window and into the item scratch.
  Stated for every float instance: on whole staging memrefs holding the point's blocks, the body runs to the end
  and leaves each buffer it stores into with the pieces found here written; a buffer it only reads, or does not
  touch, comes back as it was.
-/
import proofs.«129477_g20109036880396_cont_8to1_786_6_alg».proof.Proof.KI.Common

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with in this case, with the body's triple (the run finds the pieces). -/
noncomputable def kernelRun0_D (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    Σ' (L2 : List (View.Piece (Elt F) S1x256x32 .f32)) (L3 : List (View.Piece (Elt F) S1x256x32 .f32)) (L4 : List (View.Piece (Elt F) S1x8192x32 .f32)) (L5 : List (View.Piece (Elt F) S1x8192x32 .f32)) (LS0 : List (View.Piece (Elt F) S8192x32 .f32)), { LS1 : List (View.Piece (Elt F) S8192x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__lightgcn_kernel_eq_skeleton]; unfold cc0__lightgcn_kernel_skel
    unfold owns
    iintro ⟨⟨%f0, %hf0, H0⟩, ⟨%f1, %hf1, H1⟩, ⟨%dH2, %fH2, -, H2⟩, ⟨%dH3, %fH3, -, H3⟩, ⟨%fH4, %hfH4, H4⟩, ⟨%dH5, %fH5, -, H5⟩, ⟨%fHS0, %hfHS0, HS0⟩, ⟨%fHS1, %hfHS1, HS1⟩, Hk⟩
    obtain rfl := harg2.eq_unread hf0; obtain rfl := harg3.eq_unread hf1; obtain rfl := harg6.eq_unread hfH4; obtain rfl := harg8.eq_unread hfHS0; obtain rfl := harg9.eq_unread hfHS1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexact HS0
    iexists _; iexact HS1

end Cert.KernelIdeal.Hand

end
-- ==== Proof.KI.Body.lean ====
/-
  The propagation kernel's frame, for every float instance. Point n of the 96-point grid is stripe n % 32 of layer
  n / 32. After each point: the stripe's user aggregate and new user rows sit in their two windows; the item
  aggregate's window holds the sum of the contributions of the layer's stripes so far; at a layer's last stripe the
  item window holds aggregate plus old item embeddings; the user scratch holds the new rows for the stripes done and
  the old rows for the rest; the item scratch holds the layer's item embeddings until the last stripe replaces them.
  This module states those contents point by point (as what each case of the body leaves, over what the point before
  left), gives them to the pipeline's launch as proof data with the scratch contents carried in the invariant, and
  proves the body obligation by the four cases. The arrays' values are read off these contents elsewhere.
-/
import proofs.«129477_g20109036880396_cont_8to1_786_6_alg».proof.Proof.KI.RunA
import proofs.«129477_g20109036880396_cont_8to1_786_6_alg».proof.Proof.KI.RunB
import proofs.«129477_g20109036880396_cont_8to1_786_6_alg».proof.Proof.KI.RunC
import proofs.«129477_g20109036880396_cont_8to1_786_6_alg».proof.Proof.KI.RunD

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, and the two scratch buffers, as views: what a buffer holds is stated through them
    (a covering list of stores reads the same through any view of the shape). -/
abbrev VO0_2 : View sig .tc .vmem S1x256x32 .f32 := (Memref.whole cc0_stg2_0 : Memref sig .tc .vmem S1x256x32 .f32).view
abbrev VO0_3 : View sig .tc .vmem S1x256x32 .f32 := (Memref.whole cc0_stg3_0 : Memref sig .tc .vmem S1x256x32 .f32).view
abbrev VO0_4 : View sig .tc .vmem S1x8192x32 .f32 := (Memref.whole cc0_stg4_0 : Memref sig .tc .vmem S1x8192x32 .f32).view
abbrev VO0_5 : View sig .tc .vmem S1x8192x32 .f32 := (Memref.whole cc0_stg5_0 : Memref sig .tc .vmem S1x8192x32 .f32).view
abbrev VS0_0 : View sig .tc .vmem S8192x32 .f32 := scM0_0.view
abbrev VS0_1 : View sig .tc .vmem S8192x32 .f32 := scM0_1.view

/-! ## What each case leaves -/

/-- The stores of this case cover window 2's block. -/
theorem cover0_A_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x256x32.Idx) :
    ∃ pc ∈ (kernelRun0_A c i arg2 harg2 arg3 harg3 arg4 harg4 arg5 harg5 arg6 harg6 arg7 harg7 arg8 harg8 arg9 harg9 hc0 hc1 hc2 hc3 x0 x1).1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).1 S1x256x32.size (by sl_kernel_rfl) y

/-- What this case leaves in window 2's staging buffer. -/
def out0_A_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x256x32 .f32 :=
  VO0_2.read (Elt F) (VO0_2.writes (Elt F) VO0_2.junk (kernelRun0_A c i arg2 harg2 arg3 harg3 arg4 harg4 arg5 harg5 arg6 harg6 arg7 harg7 arg8 harg8 arg9 harg9 hc0 hc1 hc2 hc3 x0 x1).1)

/-- The stores of this case cover window 3's block. -/
theorem cover0_A_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x256x32.Idx) :
    ∃ pc ∈ (kernelRun0_A c i arg2 harg2 arg3 harg3 arg4 harg4 arg5 harg5 arg6 harg6 arg7 harg7 arg8 harg8 arg9 harg9 hc0 hc1 hc2 hc3 x0 x1).2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.1 S1x256x32.size (by sl_kernel_rfl) y

/-- What this case leaves in window 3's staging buffer. -/
def out0_A_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x256x32 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 hc2 hc3 x0 x1).2.1)

/-- The stores of this case cover window 4's block. -/
theorem cover0_A_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S1x8192x32.Idx) :
    ∃ pc ∈ (kernelRun0_A c i arg2 harg2 arg3 harg3 arg4 harg4 arg5 harg5 arg6 harg6 arg7 harg7 arg8 harg8 arg9 harg9 hc0 hc1 hc2 hc3 x0 x1).2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.1 S1x8192x32.size (by sl_kernel_rfl) y

/-- What this case leaves in window 4's staging buffer. -/
def out0_A_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S1x8192x32 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 hc2 hc3 x0 x1).2.2.1)

/-- The stores of this case cover the user scratch. -/
theorem scover0_A_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S8192x32.Idx) :
    ∃ pc ∈ (kernelRun0_A c i arg2 harg2 arg3 harg3 arg4 harg4 arg5 harg5 arg6 harg6 arg7 harg7 arg8 harg8 arg9 harg9 hc0 hc1 hc2 hc3 x0 x1).2.2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.2.1 S8192x32.size (by sl_kernel_rfl) y

/-- What this case leaves in the user scratch. -/
def sout0_A_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S8192x32 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 hc3 x0 x1).2.2.2.1)

/-- The stores of this case cover the item scratch. -/
theorem scover0_A_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) (y : S8192x32.Idx) :
    ∃ pc ∈ (kernelRun0_A c i arg2 harg2 arg3 harg3 arg4 harg4 arg5 harg5 arg6 harg6 arg7 harg7 arg8 harg8 arg9 harg9 hc0 hc1 hc2 hc3 x0 x1).2.2.2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1).2.2.2.2.1 S8192x32.size (by sl_kernel_rfl) y

/-- What this case leaves in the item scratch. -/
def sout0_A_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : cond0_0 i) (hc1 : cond0_1 i) (hc2 : ¬cond0_2 i) (hc3 : ¬cond0_3 i)
    (x0 : Vec F S256x8192 .f32) (x1 : Vec F S16384x32 .f32) : Vec F S8192x32 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 hc2 hc3 x0 x1).2.2.2.2.1)

/-- The stores of this case cover window 2's block. -/
theorem cover0_B_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x256x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).1 S1x256x32.size (by sl_kernel_rfl) y

/-- What this case leaves in window 2's staging buffer. -/
def out0_B_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x256x32 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 hc2 hc3 x0 x1 xs0 xs1).1)

/-- The stores of this case cover window 3's block. -/
theorem cover0_B_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x256x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).2.1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).2.1 S1x256x32.size (by sl_kernel_rfl) y

/-- What this case leaves in window 3's staging buffer. -/
def out0_B_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x256x32 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 hc2 hc3 x0 x1 xs0 xs1).2.1)

/-- The stores of this case cover window 4's block. -/
theorem cover0_B_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S1x8192x32.Idx) :
    ∃ pc ∈ (kernelRun0_B c i arg2 harg2 arg3 harg3 arg4 harg4 arg5 harg5 arg6 harg6 arg7 harg7 arg8 harg8 arg9 harg9 hc0 hc1 hc2 hc3 x0 x1 xs0 xs1).2.2.1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 xs0 xs1).2.2.1 S1x8192x32.size (by sl_kernel_rfl) y

/-- What this case leaves in window 4's staging buffer. -/
def out0_B_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S1x8192x32 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 hc2 hc3 x0 x1 xs0 xs1).2.2.1)

/-- What this case leaves in the user scratch: the stripe's rows stored over what the scratch held. -/
def sout0_B_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) : Vec F S8192x32 .f32 :=
  arg8.view.read (Elt F) (arg8.view.writes (Elt F) (harg8.unread xs0) (kernelRun0_B c i arg2 harg2 arg3 harg3 arg4 harg4 arg5 harg5 arg6 harg6 arg7 harg7 arg8 harg8 arg9 harg9 hc0 hc1 hc2 hc3 x0 x1 xs0 xs1).2.2.2.1)

/-- The stores of this case cover window 2's block. -/
theorem cover0_C_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).1 S1x256x32.size (by sl_kernel_rfl) y

/-- What this case leaves in window 2's staging buffer. -/
def out0_C_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_2.read (Elt F) (VO0_2.writes (Elt F) VO0_2.junk (kernelRun0_C c i arg2 harg2 arg3 harg3 arg4 harg4 arg5 harg5 arg6 harg6 arg7 harg7 arg8 harg8 arg9 harg9 hc0 hc1 hc2 hc3 x0 x1 xo4 xs0 xs1).1)

/-- The stores of this case cover window 3's block. -/
theorem cover0_C_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).2.1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).2.1 S1x256x32.size (by sl_kernel_rfl) y

/-- What this case leaves in window 3's staging buffer. -/
def out0_C_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 hc2 hc3 x0 x1 xo4 xs0 xs1).2.1)

/-- The stores of this case cover window 4's block. -/
theorem cover0_C_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_C c i arg2 harg2 arg3 harg3 arg4 harg4 arg5 harg5 arg6 harg6 arg7 harg7 arg8 harg8 arg9 harg9 hc0 hc1 hc2 hc3 x0 x1 xo4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 xo4 xs0 xs1).2.2.1 S1x8192x32.size (by sl_kernel_rfl) y

/-- What this case leaves in window 4's staging buffer. -/
def out0_C_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 hc2 hc3 x0 x1 xo4 xs0 xs1).2.2.1)

/-- What this case leaves in the user scratch: the stripe's rows stored over what the scratch held. -/
def sout0_C_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  arg8.view.read (Elt F) (arg8.view.writes (Elt F) (harg8.unread xs0) (kernelRun0_C c i arg2 harg2 arg3 harg3 arg4 harg4 arg5 harg5 arg6 harg6 arg7 harg7 arg8 harg8 arg9 harg9 hc0 hc1 hc2 hc3 x0 x1 xo4 xs0 xs1).2.2.2.1)

/-- The stores of this case cover window 2's block. -/
theorem cover0_D_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).1 S1x256x32.size (by sl_kernel_rfl) y

/-- What this case leaves in window 2's staging buffer. -/
def out0_D_2 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_2.read (Elt F) (VO0_2.writes (Elt F) VO0_2.junk (kernelRun0_D c i arg2 harg2 arg3 harg3 arg4 harg4 arg5 harg5 arg6 harg6 arg7 harg7 arg8 harg8 arg9 harg9 hc0 hc1 hc2 hc3 x0 x1 xo4 xs0 xs1).1)

/-- The stores of this case cover window 3's block. -/
theorem cover0_D_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x256x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.1 S1x256x32.size (by sl_kernel_rfl) y

/-- What this case leaves in window 3's staging buffer. -/
def out0_D_3 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x256x32 .f32 :=
  VO0_3.read (Elt F) (VO0_3.writes (Elt F) VO0_3.junk (kernelRun0_D c i arg2 harg2 arg3 harg3 arg4 harg4 arg5 harg5 arg6 harg6 arg7 harg7 arg8 harg8 arg9 harg9 hc0 hc1 hc2 hc3 x0 x1 xo4 xs0 xs1).2.1)

/-- The stores of this case cover window 4's block. -/
theorem cover0_D_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.1 S1x8192x32.size (by sl_kernel_rfl) y

/-- What this case leaves in window 4's staging buffer. -/
def out0_D_4 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_4.read (Elt F) (VO0_4.writes (Elt F) VO0_4.junk (kernelRun0_D c i arg2 harg2 arg3 harg3 arg4 harg4 arg5 harg5 arg6 harg6 arg7 harg7 arg8 harg8 arg9 harg9 hc0 hc1 hc2 hc3 x0 x1 xo4 xs0 xs1).2.2.1)

/-- The stores of this case cover window 5's block. -/
theorem cover0_D_5 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S1x8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.2.1 S1x8192x32.size (by sl_kernel_rfl) y

/-- What this case leaves in window 5's staging buffer. -/
def out0_D_5 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S1x8192x32 .f32 :=
  VO0_5.read (Elt F) (VO0_5.writes (Elt F) VO0_5.junk (kernelRun0_D c i arg2 harg2 arg3 harg3 arg4 harg4 arg5 harg5 arg6 harg6 arg7 harg7 arg8 harg8 arg9 harg9 hc0 hc1 hc2 hc3 x0 x1 xo4 xs0 xs1).2.2.2.1)

/-- What this case leaves in the user scratch: the stripe's rows stored over what the scratch held. -/
def sout0_D_0 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  arg8.view.read (Elt F) (arg8.view.writes (Elt F) (harg8.unread xs0) (kernelRun0_D c i arg2 harg2 arg3 harg3 arg4 harg4 arg5 harg5 arg6 harg6 arg7 harg7 arg8 harg8 arg9 harg9 hc0 hc1 hc2 hc3 x0 x1 xo4 xs0 xs1).2.2.2.2.1)

/-- The stores of this case cover the item scratch. -/
theorem scover0_D_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S8192x32.Idx) :
    ∃ pc ∈ (kernelRun0_D c i arg2 harg2 arg3 harg3 arg4 harg4 arg5 harg5 arg6 harg6 arg7 harg7 arg8 harg8 arg9 harg9 hc0 hc1 hc2 hc3 x0 x1 xo4 xs0 xs1).2.2.2.2.2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 xo4 xs0 xs1).2.2.2.2.2.1 S8192x32.size (by sl_kernel_rfl) y

/-- What this case leaves in the item scratch. -/
def sout0_D_1 (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) : Vec F S8192x32 .f32 :=
  VS0_1.read (Elt F) (VS0_1.writes (Elt F) VS0_1.junk (kernelRun0_D c i arg2 harg2 arg3 harg3 arg4 harg4 arg5 harg5 arg6 harg6 arg7 harg7 arg8 harg8 arg9 harg9 hc0 hc1 hc2 hc3 x0 x1 xo4 xs0 xs1).2.2.2.2.2.1)

/-! ## The four cases, by the point's number -/

theorem caseA_0 (t : Fin cfg0.N) (h0 : t.val = 0) : cond0_0 (grid0.coords t) := (hcond0_0 t).mpr h0
theorem caseA_1 (t : Fin cfg0.N) (h0 : t.val = 0) : cond0_1 (grid0.coords t) := (hcond0_1 t).mpr (by omega)
theorem caseA_2 (t : Fin cfg0.N) (h0 : t.val = 0) : ¬cond0_2 (grid0.coords t) := fun h => (hcond0_2 t).mp h (by omega)
theorem caseA_3 (t : Fin cfg0.N) (h0 : t.val = 0) : ¬cond0_3 (grid0.coords t) := fun h => by have := (hcond0_3 t).mp h; omega
theorem caseB_0 (t : Fin cfg0.N) (h0 : ¬t.val = 0) (h1 : t.val % 32 = 0) : ¬cond0_0 (grid0.coords t) := fun h => h0 ((hcond0_0 t).mp h)
theorem caseB_1 (t : Fin cfg0.N) (h0 : ¬t.val = 0) (h1 : t.val % 32 = 0) : cond0_1 (grid0.coords t) := (hcond0_1 t).mpr h1
theorem caseB_2 (t : Fin cfg0.N) (h0 : ¬t.val = 0) (h1 : t.val % 32 = 0) : ¬cond0_2 (grid0.coords t) := fun h => (hcond0_2 t).mp h h1
theorem caseB_3 (t : Fin cfg0.N) (h0 : ¬t.val = 0) (h1 : t.val % 32 = 0) : ¬cond0_3 (grid0.coords t) := fun h => by have := (hcond0_3 t).mp h; omega
theorem caseC_0 (t : Fin cfg0.N) (h1 : ¬t.val % 32 = 0) (h3 : ¬t.val % 32 = 31) : ¬cond0_0 (grid0.coords t) := fun h => by have := (hcond0_0 t).mp h; omega
theorem caseC_1 (t : Fin cfg0.N) (h1 : ¬t.val % 32 = 0) (h3 : ¬t.val % 32 = 31) : ¬cond0_1 (grid0.coords t) := fun h => h1 ((hcond0_1 t).mp h)
theorem caseC_2 (t : Fin cfg0.N) (h1 : ¬t.val % 32 = 0) (h3 : ¬t.val % 32 = 31) : cond0_2 (grid0.coords t) := (hcond0_2 t).mpr h1
theorem caseC_3 (t : Fin cfg0.N) (h1 : ¬t.val % 32 = 0) (h3 : ¬t.val % 32 = 31) : ¬cond0_3 (grid0.coords t) := fun h => h3 ((hcond0_3 t).mp h)
theorem caseD_0 (t : Fin cfg0.N) (h3 : t.val % 32 = 31) : ¬cond0_0 (grid0.coords t) := fun h => by have := (hcond0_0 t).mp h; omega
theorem caseD_1 (t : Fin cfg0.N) (h3 : t.val % 32 = 31) : ¬cond0_1 (grid0.coords t) := fun h => by have := (hcond0_1 t).mp h; omega
theorem caseD_2 (t : Fin cfg0.N) (h3 : t.val % 32 = 31) : cond0_2 (grid0.coords t) := (hcond0_2 t).mpr (by omega)
theorem caseD_3 (t : Fin cfg0.N) (h3 : t.val % 32 = 31) : cond0_3 (grid0.coords t) := (hcond0_3 t).mpr h3

/-! ## What the buffers hold after each point -/

/-- The four output windows' staging buffers and the two scratch buffers. -/
structure Outs (F : FTy → Type) [FloatOps F] where
  o2 : Vec F S1x256x32 .f32
  o3 : Vec F S1x256x32 .f32
  o4 : Vec F S1x8192x32 .f32
  o5 : Vec F S1x8192x32 .f32
  s0 : Vec F S8192x32 .f32
  s1 : Vec F S8192x32 .f32

/-- Contents nothing reads: what the recursion starts from (the first point reads none of it). -/
def junkOuts : Outs F where
  o2 := VO0_2.read (Elt F) VO0_2.junk
  o3 := VO0_3.read (Elt F) VO0_3.junk
  o4 := VO0_4.read (Elt F) VO0_4.junk
  o5 := VO0_5.read (Elt F) VO0_5.junk
  s0 := VS0_0.read (Elt F) VS0_0.junk
  s1 := VS0_1.read (Elt F) VS0_1.junk

/-- What the buffers hold after a point of this case. -/
def outsA (c : Dev nD) (t : Fin cfg0.N) (h0 : t.val = 0) : Outs F where
  o2 := out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o3 := out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o4 := out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  o5 := VO0_5.read (Elt F) VO0_5.junk
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)

/-- What the buffers hold after a point of this case over what the point before left. -/
def outsB (c : Dev nD) (t : Fin cfg0.N) (h0 : ¬t.val = 0) (h1 : t.val % 32 = 0) (prev : Outs F) : Outs F where
  o2 := out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o3 := out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o4 := out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  o5 := VO0_5.read (Elt F) VO0_5.junk
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) prev.s0 prev.s1
  s1 := prev.s1

/-- What the buffers hold after a point of this case over what the point before left. -/
def outsC (c : Dev nD) (t : Fin cfg0.N) (h1 : ¬t.val % 32 = 0) (h3 : ¬t.val % 32 = 31) (prev : Outs F) : Outs F where
  o2 := out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o3 := out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  o5 := VO0_5.read (Elt F) VO0_5.junk
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) prev.o4 prev.s0 prev.s1
  s1 := prev.s1

/-- What the buffers hold after a point of this case over what the point before left. -/
def outsD (c : Dev nD) (t : Fin cfg0.N) (h3 : t.val % 32 = 31) (prev : Outs F) : Outs F where
  o2 := out0_D_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o3 := out0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o4 := out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  o5 := out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1
  s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) prev.o4 prev.s0 prev.s1

/-- One point: the case its number selects. -/
def stepAt (c : Dev nD) (t : Fin cfg0.N) (prev : Outs F) : Outs F :=
  if h0 : t.val = 0 then outsA m c t h0
  else if h1 : t.val % 32 = 0 then outsB m c t h0 h1 prev
  else if h3 : t.val % 32 = 31 then outsD m c t h3 prev
  else outsC m c t h1 h3 prev

/-- The buffers after point n, by recursion on n. -/
def outsAt0 (c : Dev nD) : (n : ℕ) → n < cfg0.N → Outs F
  | 0, hn => stepAt m c ⟨0, hn⟩ junkOuts
  | n + 1, hn => stepAt m c ⟨n + 1, hn⟩ (outsAt0 c n (Nat.lt_of_succ_lt hn))

theorem outsAt0_A (c : Dev nD) (t : Fin cfg0.N) (h0 : t.val = 0) : outsAt0 m c t.val t.isLt = outsA m c t h0 := by
  obtain ⟨n, hn⟩ := t
  cases n with
  | zero => show stepAt m c ⟨0, hn⟩ junkOuts = _; unfold stepAt; rw [dif_pos h0]
  | succ n => exact absurd h0 (Nat.succ_ne_zero n)

theorem outsAt0_pos (c : Dev nD) (t : Fin cfg0.N) (h0 : ¬t.val = 0) :
    outsAt0 m c t.val t.isLt = stepAt m c t (outsAt0 m c (t.val - 1) (Nat.lt_of_le_of_lt (Nat.sub_le _ _) t.isLt)) := by
  obtain ⟨n, hn⟩ := t
  cases n with
  | zero => exact absurd rfl h0
  | succ n => rfl

theorem outsAt0_B (c : Dev nD) (t : Fin cfg0.N) (h0 : ¬t.val = 0) (h1 : t.val % 32 = 0) :
    outsAt0 m c t.val t.isLt = outsB m c t h0 h1 (outsAt0 m c (t.val - 1) (Nat.lt_of_le_of_lt (Nat.sub_le _ _) t.isLt)) := by
  rw [outsAt0_pos m c t h0]; unfold stepAt; rw [dif_neg h0, dif_pos h1]

theorem outsAt0_C (c : Dev nD) (t : Fin cfg0.N) (h1 : ¬t.val % 32 = 0) (h3 : ¬t.val % 32 = 31) :
    outsAt0 m c t.val t.isLt = outsC m c t h1 h3 (outsAt0 m c (t.val - 1) (Nat.lt_of_le_of_lt (Nat.sub_le _ _) t.isLt)) := by
  have h0 : ¬t.val = 0 := fun h => h1 (by omega)
  rw [outsAt0_pos m c t h0]; unfold stepAt; rw [dif_neg h0, dif_neg h1, dif_neg h3]

theorem outsAt0_D (c : Dev nD) (t : Fin cfg0.N) (h3 : t.val % 32 = 31) :
    outsAt0 m c t.val t.isLt = outsD m c t h3 (outsAt0 m c (t.val - 1) (Nat.lt_of_le_of_lt (Nat.sub_le _ _) t.isLt)) := by
  have h0 : ¬t.val = 0 := fun h => by omega
  have h1 : ¬t.val % 32 = 0 := fun h => by omega
  rw [outsAt0_pos m c t h0]; unfold stepAt; rw [dif_neg h0, dif_neg h1, dif_pos h3]

/-! ## The invariant: the scratch buffers at what the point before left -/

/-- Before point n: at the start the launch's invariant (both scratch buffers at anything); afterwards the user scratch and the
    item scratch at what point n - 1 left, and the generator register at some state. -/
def PhiS (c : Dev nD) : (n : ℕ) → n ≤ cfg0.N → sProp 𝕄
  | 0, _ => Pipeline.ΦA spec0 c
  | n + 1, hn => iprop(owns (c : Thread nD τ) scM0_0 fullShare ((outsAt0 m c n hn).s0) ∗ owns (c : Thread nD τ) scM0_1 fullShare ((outsAt0 m c n hn).s1) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare ((outsAt0 m c n hn).s0) ∗ owns (c : Thread nD τ) scM0_1 fullShare ((outsAt0 m c n hn).s1) ∗ (∃ r, prngReg c r)) := rfl

theorem PhiS_pos (c : Dev nD) (n : ℕ) (h : n ≤ cfg0.N) (hz : n ≠ 0) :
    PhiS m c n h = iprop(owns (c : Thread nD τ) scM0_0 fullShare ((outsAt0 m c (n - 1) (by omega)).s0) ∗ owns (c : Thread nD τ) scM0_1 fullShare ((outsAt0 m c (n - 1) (by omega)).s1) ∗ (∃ r, prngReg c r)) := by
  cases n with
  | zero => exact absurd rfl hz
  | succ n => rfl

/-! ## The pipeline's proof data -/

/-- The arrays as the region finds them; after the body at point t the inputs' buffers at their blocks and the outputs' at
    what the recursion says; the invariant carrying the scratch contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).o2
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).o2 := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Every stripe stores into the item aggregate's window: it is idle nowhere. -/
theorem live0_4 : ∀ i : grid0.Coords, cfg0.idle 4 i = false := by
  intro i
  show (!(k0_cond2 i == 1#1) && !(k0_cond3 i == 1#1)) = false
  unfold k0_cond2 k0_cond3
  have h : ∀ b : Fin 32, (!(Scalar.cmpi .ne (Scalar.extui (Scalar.cmpi .eq (BitVec.ofNat 32 b.val) 0#32)) 0#32 == 1#1)
      && !(Scalar.cmpi .ne (Scalar.extui (Scalar.cmpi .sgt (BitVec.ofNat 32 b.val) 0#32)) 0#32 == 1#1)) = false := by decide
  exact h (i 1)

/-- Within a layer, after its first stripe, the item aggregate's window holds what the stripe before left: the block index
    has not moved, so the buffer was not written back between. -/
theorem before0_4_kept (c : Dev nD) (t : Fin cfg0.N) (h1 : ¬t.val % 32 = 0) (d) :
    (dats m 0 c).before 4 t d = (outsAt0 m c (t.val - 1) (Nat.lt_of_le_of_lt (Nat.sub_le _ _) t.isLt)).o4 := by
  have hN : t.val < 96 := lt_of_lt_of_eq t.isLt (show cfg0.N = 96 from N_0)
  rw [Dat.before_out_kept _ 4 rfl t (by omega) (Bool.eq_false_iff.mpr fun h => by have := (flush0_4 _).mp h; dsimp only at this; omega)
    live0_4 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the point's number says which case it is in; the invariant hands the
    body the scratch buffers at what the point before left (at anything at the very first point) and takes them back at this point's
    contents; within a layer the item aggregate's window holds what the stripe before left; the item window is handed back untouched
    except at a layer's last stripe. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · rw [Dat.leavesExact_idle (dats m 0 c) 5 t (idleAt0_5 t (by omega)) (noFlush0_5 t (by omega))]
    rw [outsAt0_A m c t h0]
    unfold outsA out0_A_2 out0_A_3 out0_A_4 sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (iblk m c 0 t) (iblk m c 1 t)).2.2.2.2.2 _ Set.univ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [HS0]; · iexact HS0
    isplitl [HS1]; · iexact HS1
    iintro ⟨H0, H1, ⟨%e2, H2⟩, ⟨%e3, H3⟩, ⟨%e4, H4⟩, H5, ⟨%es0, HS0⟩, ⟨%es1, HS1⟩⟩
    isplitl [HS0 HS1 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    iexists _; iexact H5
  · by_cases h1 : t.val % 32 = 0
    · rw [Dat.leavesExact_idle (dats m 0 c) 5 t (idleAt0_5 t (by omega)) (noFlush0_5 t (by omega))]
      rw [outsAt0_B m c t h0 h1]
      unfold outsB out0_B_2 out0_B_3 out0_B_4 sout0_B_0; (try dsimp only)
      rw [PhiS_castSucc m c t, PhiS_pos m c _ _ h0]
      iintro ⟨⟨HS0, HS1, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (iblk m c 0 t) (iblk m c 1 t) (outsAt0 m c (t.val - 1) (Nat.lt_of_le_of_lt (Nat.sub_le _ _) t.isLt)).s0 (outsAt0 m c (t.val - 1) (Nat.lt_of_le_of_lt (Nat.sub_le _ _) t.isLt)).s1).2.2.2.2 _ Set.univ _)
      isplitl [H0]; · iexact H0
      isplitl [H1]; · iexact H1
      isplitl [H2]; · iexists _; iexact H2
      isplitl [H3]; · iexists _; iexact H3
      isplitl [H4]; · iexists _; iexact H4
      isplitl [H5]; · iexact H5
      isplitl [HS0]; · iexact HS0
      isplitl [HS1]; · iexact HS1
      iintro ⟨H0, H1, ⟨%e2, H2⟩, ⟨%e3, H3⟩, ⟨%e4, H4⟩, H5, HS0, HS1⟩
      isplitl [HS0 HS1 Hg]
      · isplitl [HS0]
        · unfold owns; iexists _; isplitr
          swap; · iexact HS0
          ipureintro; rfl
        isplitl [HS1]; · iexact HS1
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      iexists _; iexact H5
    · by_cases h3 : t.val % 32 = 31
      · rw [show (dats m 0 c).leavesExact 5 t = owns (c : Thread nD τ) (ms0_5 t) fullShare ((dats m 0 c).after 5 t) from by
          unfold Dat.leavesExact; rw [liveAt0_5 t h3], after0_5]
        rw [outsAt0_D m c t h3]
        unfold outsD out0_D_2 out0_D_3 out0_D_4 out0_D_5 sout0_D_0 sout0_D_1; (try dsimp only)
        rw [PhiS_castSucc m c t, PhiS_pos m c _ _ (by omega)]
        have hk4 := before0_4_kept m c t (by omega)
        simp only [hk4]
        iintro ⟨⟨HS0, HS1, Hg⟩, Ho, ⟨%d0, H0⟩, ⟨%d1, H1⟩, ⟨%d2, H2⟩, ⟨%d3, H3⟩, ⟨%d4, H4⟩, ⟨%d5, H5⟩⟩
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (iblk m c 0 t) (iblk m c 1 t) (outsAt0 m c (t.val - 1) (Nat.lt_of_le_of_lt (Nat.sub_le _ _) t.isLt)).o4 (outsAt0 m c (t.val - 1) (Nat.lt_of_le_of_lt (Nat.sub_le _ _) t.isLt)).s0 (outsAt0 m c (t.val - 1) (Nat.lt_of_le_of_lt (Nat.sub_le _ _) t.isLt)).s1).2.2.2.2.2.2 Set.univ _)
        isplitl [H0]; · iexact H0
        isplitl [H1]; · iexact H1
        isplitl [H2]; · iexists _; iexact H2
        isplitl [H3]; · iexists _; iexact H3
        isplitl [H4]; · iexact H4
        isplitl [H5]; · iexists _; iexact H5
        isplitl [HS0]; · iexact HS0
        isplitl [HS1]; · iexact HS1
        iintro ⟨H0, H1, ⟨%e2, H2⟩, ⟨%e3, H3⟩, ⟨%e4, H4⟩, ⟨%e5, H5⟩, HS0, ⟨%es1, HS1⟩⟩
        isplitl [HS0 HS1 Hg]
        · isplitl [HS0]
          · unfold owns; iexists _; isplitr
            swap; · iexact HS0
            ipureintro; rfl
          isplitl [HS1]
          · unfold owns; iexists _; isplitr
            swap; · iexact HS1
            ipureintro; exact View.read_writes_of_cover _ _ _ _ _ (scover0_D_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_D_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_D_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_D_4 c _ _ _ _ _ _ _ _ _ _ _ _ _ _ _ _ _ _ _ _ _ _ _ _ _ _)
        unfold owns; iexists _; isplitr
        swap; · iexact H5
        ipureintro; exact View.read_writes_of_cover _ _ _ _ _ (cover0_D_5 c _ _ _ _ _ _ _ _ _ _ _ _ _ _ _ _ _ _ _ _ _ _ _ _ _ _)
      · rw [Dat.leavesExact_idle (dats m 0 c) 5 t (idleAt0_5 t (by omega)) (noFlush0_5 t (by omega))]
        rw [outsAt0_C m c t h1 h3]
        unfold outsC out0_C_2 out0_C_3 out0_C_4 sout0_C_0; (try dsimp only)
        rw [PhiS_castSucc m c t, PhiS_pos m c _ _ (by omega)]
        have hk4 := before0_4_kept m c t (by omega)
        simp only [hk4]
        iintro ⟨⟨HS0, HS1, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (iblk m c 0 t) (iblk m c 1 t) (outsAt0 m c (t.val - 1) (Nat.lt_of_le_of_lt (Nat.sub_le _ _) t.isLt)).o4 (outsAt0 m c (t.val - 1) (Nat.lt_of_le_of_lt (Nat.sub_le _ _) t.isLt)).s0 (outsAt0 m c (t.val - 1) (Nat.lt_of_le_of_lt (Nat.sub_le _ _) t.isLt)).s1).2.2.2.2 _ Set.univ _)
        isplitl [H0]; · iexact H0
        isplitl [H1]; · iexact H1
        isplitl [H2]; · iexists _; iexact H2
        isplitl [H3]; · iexists _; iexact H3
        isplitl [H4]; · iexact H4
        isplitl [H5]; · iexact H5
        isplitl [HS0]; · iexact HS0
        isplitl [HS1]; · iexact HS1
        iintro ⟨H0, H1, ⟨%e2, H2⟩, ⟨%e3, H3⟩, ⟨%e4, H4⟩, H5, HS0, HS1⟩
        isplitl [HS0 HS1 Hg]
        · isplitl [HS0]
          · unfold owns; iexists _; isplitr
            swap; · iexact HS0
            ipureintro; rfl
          isplitl [HS1]; · iexact HS1
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _)
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 96 := N_0; omega), PhiA0_eq]
  iintro ⟨HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and in every final state each array of the pipeline holds what the
    library computes from the proof data, every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Rects.lean ====
/-
  The rectangles the body's partial loads and stores go through: the stripe's 256 rows of a scratch buffer, and the
  upper and lower halves of the embeddings' window.
-/
import proofs.«129477_g20109036880396_cont_8to1_786_6_alg».proof.Proof.KI.Common

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 256·s … 256·s + 255 of a scratch buffer, s the point's stripe. -/
abbrev stripeR (i : grid0.Coords) : Rect S8192x32 := Rect.unit (s := S8192x32) (k0_off1 i) S256x32.size (k0_off1_inb i)
/-- Rows 0 … 8191 of the embeddings (the users), -/
abbrev topR : Rect S16384x32 := Rect.unit (s := S16384x32) ![0, 0] S8192x32.size inb_S16384x32_S8192x32_0_0
/-- and rows 8192 … 16383 (the items). -/
abbrev botR : Rect S16384x32 := Rect.unit (s := S16384x32) ![8192, 0] S8192x32.size inb_S16384x32_S8192x32_8192_0

end Cert.KernelIdeal.Hand

end
-- ==== Proof.KI.Pieces.lean ====
/-
  What each case of the body leaves in each buffer, as the body's own arithmetic (the named payloads) of the point's
  inputs: the adjacency stripe x0, the embeddings x1, the item aggregate's window xo4, and the two scratch buffers
  xs0 (users) and xs1 (items) as the point found them. For every float instance.
-/
import proofs.«129477_g20109036880396_cont_8to1_786_6_alg».proof.Proof.KI.Body
import proofs.«129477_g20109036880396_cont_8to1_786_6_alg».proof.Proof.KI.Rects
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### Case A -/

theorem out0_A_2_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    out0_A_2 c i arg2 harg2 arg3 harg3 arg4 harg4 arg5 harg5 arg6 harg6 arg7 harg7 arg8 harg8 arg9 harg9 hc0 hc1 hc2 hc3 x0 x1 = k0_pay8 x0 (k0_pay6 (View.ld x1 botR)) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_2
  rw [View.read_writes_eq_canon _ _ _ (cover0_A_2 c i arg2 harg2 arg3 harg3 arg4 harg4 arg5 harg5 arg6 harg6 arg7 harg7 arg8 harg8 arg9 harg9 hc0 hc1 hc2 hc3 x0 x1)]
  unfold kernelRun0_A; dsimp only; sl_unfold_run_names
  rw [View.canon_unit_zero hz3]
  simp only [View.readAt_eq_ld, View.read_writes_junk_eq_canon, View.canon_unit_zero (S := S8192x32) hz2, View.readCov_unit_zero (S := S8192x32) _ hz2, harg2.read_unread, harg3.read_unread, View.ld_unit_zero (S := S256x8192) hz2]

theorem out0_A_3_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    out0_A_3 c i arg2 harg2 arg3 harg3 arg4 harg4 arg5 harg5 arg6 harg6 arg7 harg7 arg8 harg8 arg9 harg9 hc0 hc1 hc2 hc3 x0 x1 = k0_pay10 x0 (View.ld (k0_pay5 (View.ld x1 topR)) (stripeR i)) (k0_pay6 (View.ld x1 botR)) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_3
  rw [View.read_writes_eq_canon _ _ _ (cover0_A_3 c i arg2 harg2 arg3 harg3 arg4 harg4 arg5 harg5 arg6 harg6 arg7 harg7 arg8 harg8 arg9 harg9 hc0 hc1 hc2 hc3 x0 x1)]
  unfold kernelRun0_A; dsimp only; sl_unfold_run_names
  rw [View.canon_unit_zero hz3]
  simp only [View.readAt_eq_ld, View.read_writes_junk_eq_canon, View.canon_unit_zero (S := S8192x32) hz2, View.readCov_unit_zero (S := S8192x32) _ hz2, harg2.read_unread, harg3.read_unread, View.ld_unit_zero (S := S256x8192) hz2]

theorem out0_A_4_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    out0_A_4 c i arg2 harg2 arg3 harg3 arg4 harg4 arg5 harg5 arg6 harg6 arg7 harg7 arg8 harg8 arg9 harg9 hc0 hc1 hc2 hc3 x0 x1 = k0_pay13 x0 (View.ld (k0_pay5 (View.ld x1 topR)) (stripeR i)) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_4
  rw [View.read_writes_eq_canon _ _ _ (cover0_A_4 c i arg2 harg2 arg3 harg3 arg4 harg4 arg5 harg5 arg6 harg6 arg7 harg7 arg8 harg8 arg9 harg9 hc0 hc1 hc2 hc3 x0 x1)]
  unfold kernelRun0_A; dsimp only; sl_unfold_run_names
  rw [View.canon_unit_zero hz3]
  simp only [View.readAt_eq_ld, View.read_writes_junk_eq_canon, View.canon_unit_zero (S := S8192x32) hz2, View.readCov_unit_zero (S := S8192x32) _ hz2, harg2.read_unread, harg3.read_unread, View.ld_unit_zero (S := S256x8192) hz2]

/-- Inside the stripe the user scratch holds the new rows; -/
theorem sout0_A_0_in (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) (x : S256x32.Idx) :
    sout0_A_0 c i arg2 harg2 arg3 harg3 arg4 harg4 arg5 harg5 arg6 harg6 arg7 harg7 arg8 harg8 arg9 harg9 hc0 hc1 hc2 hc3 x0 x1 ((stripeR i).emb x) = k0_pay11 x0 (View.ld (k0_pay5 (View.ld x1 topR)) (stripeR i)) (k0_pay6 (View.ld x1 botR)) x := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_A_0
  unfold kernelRun0_A; dsimp only
  rw [View.read_writes_cons_emb]
  sl_unfold_run_names
  simp only [View.readAt_eq_ld, View.read_writes_junk_eq_canon, View.canon_unit_zero (S := S8192x32) hz2, View.readCov_unit_zero (S := S8192x32) _ hz2, harg2.read_unread, harg3.read_unread, View.ld_unit_zero (S := S256x8192) hz2]

/-- outside it what it held. -/
theorem sout0_A_0_out (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) (y : S8192x32.Idx) (hy : y ∉ (stripeR i).set) :
    sout0_A_0 c i arg2 harg2 arg3 harg3 arg4 harg4 arg5 harg5 arg6 harg6 arg7 harg7 arg8 harg8 arg9 harg9 hc0 hc1 hc2 hc3 x0 x1 y = k0_pay5 (View.ld x1 topR) y := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_A_0
  unfold kernelRun0_A; dsimp only
  rw [View.read_writes_junk_apply_eq_canon, View.canon_cons_of_not_mem]
  · sl_unfold_run_names
    rw [View.canon_unit_zero hz2]
    simp only [View.readAt_eq_ld, View.read_writes_junk_eq_canon, View.canon_unit_zero (S := S8192x32) hz2, View.readCov_unit_zero (S := S8192x32) _ hz2, harg2.read_unread, harg3.read_unread, View.ld_unit_zero (S := S256x8192) hz2]
  · exact hy

theorem sout0_A_1_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : cond0_0 i) (hc1 : cond0_1 i) (hc2 : ¬cond0_2 i) (hc3 : ¬cond0_3 i)
    (x0 : Vec F S256x8192 .f32) (x1 : Vec F S16384x32 .f32) :
    sout0_A_1 c i arg2 harg2 arg3 harg3 arg4 harg4 arg5 harg5 arg6 harg6 arg7 harg7 arg8 harg8 arg9 harg9 hc0 hc1 hc2 hc3 x0 x1 = k0_pay6 (View.ld x1 botR) := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_A_1
  rw [View.read_writes_eq_canon _ _ _ (scover0_A_1 c i arg2 harg2 arg3 harg3 arg4 harg4 arg5 harg5 arg6 harg6 arg7 harg7 arg8 harg8 arg9 harg9 hc0 hc1 hc2 hc3 x0 x1)]
  unfold kernelRun0_A; dsimp only; sl_unfold_run_names
  rw [View.canon_unit_zero hz2]
  simp only [View.readAt_eq_ld, View.read_writes_junk_eq_canon, View.canon_unit_zero (S := S8192x32) hz2, View.readCov_unit_zero (S := S8192x32) _ hz2, harg2.read_unread, harg3.read_unread, View.ld_unit_zero (S := S256x8192) hz2]

/-! ### Case B -/

theorem out0_B_2_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) :
    out0_B_2 c i arg2 harg2 arg3 harg3 arg4 harg4 arg5 harg5 arg6 harg6 arg7 harg7 arg8 harg8 arg9 harg9 hc0 hc1 hc2 hc3 x0 x1 xs0 xs1 = k0_pay8 x0 xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_B_2
  rw [View.read_writes_eq_canon _ _ _ (cover0_B_2 c i arg2 harg2 arg3 harg3 arg4 harg4 arg5 harg5 arg6 harg6 arg7 harg7 arg8 harg8 arg9 harg9 hc0 hc1 hc2 hc3 x0 x1 xs0 xs1)]
  unfold kernelRun0_B; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_B_3_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) :
    out0_B_3 c i arg2 harg2 arg3 harg3 arg4 harg4 arg5 harg5 arg6 harg6 arg7 harg7 arg8 harg8 arg9 harg9 hc0 hc1 hc2 hc3 x0 x1 xs0 xs1 = k0_pay10 x0 (View.ld xs0 (stripeR i)) xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_B_3
  rw [View.read_writes_eq_canon _ _ _ (cover0_B_3 c i arg2 harg2 arg3 harg3 arg4 harg4 arg5 harg5 arg6 harg6 arg7 harg7 arg8 harg8 arg9 harg9 hc0 hc1 hc2 hc3 x0 x1 xs0 xs1)]
  unfold kernelRun0_B; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_B_4_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) :
    out0_B_4 c i arg2 harg2 arg3 harg3 arg4 harg4 arg5 harg5 arg6 harg6 arg7 harg7 arg8 harg8 arg9 harg9 hc0 hc1 hc2 hc3 x0 x1 xs0 xs1 = k0_pay13 x0 (View.ld xs0 (stripeR i)) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_B_4
  rw [View.read_writes_eq_canon _ _ _ (cover0_B_4 c i arg2 harg2 arg3 harg3 arg4 harg4 arg5 harg5 arg6 harg6 arg7 harg7 arg8 harg8 arg9 harg9 hc0 hc1 hc2 hc3 x0 x1 xs0 xs1)]
  unfold kernelRun0_B; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- Inside the stripe the user scratch holds the new rows; -/
theorem sout0_B_0_in (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (x : S256x32.Idx) :
    sout0_B_0 c i arg2 harg2 arg3 harg3 arg4 harg4 arg5 harg5 arg6 harg6 arg7 harg7 arg8 harg8 arg9 harg9 hc0 hc1 hc2 hc3 x0 x1 xs0 xs1 ((stripeR i).emb x) = k0_pay11 x0 (View.ld xs0 (stripeR i)) xs1 x := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_B_0
  unfold kernelRun0_B; dsimp only
  rw [View.read_writes_cons_emb]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- outside it what it held. -/
theorem sout0_B_0_out (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : cond0_1 i) (hc2 : ¬cond0_2 i) (hc3 : ¬cond0_3 i)
    (x0 : Vec F S256x8192 .f32) (x1 : Vec F S16384x32 .f32) (xs0 : Vec F S8192x32 .f32) (xs1 : Vec F S8192x32 .f32) (y : S8192x32.Idx) (hy : y ∉ (stripeR i).set) :
    sout0_B_0 c i arg2 harg2 arg3 harg3 arg4 harg4 arg5 harg5 arg6 harg6 arg7 harg7 arg8 harg8 arg9 harg9 hc0 hc1 hc2 hc3 x0 x1 xs0 xs1 y = xs0 y := by
  unfold sout0_B_0
  unfold kernelRun0_B; dsimp only
  rw [View.read_writes_apply_of_forall_not_mem _ _ y _ (fun p hp => by
    rw [List.mem_singleton] at hp; subst hp; exact hy), harg8.read_unread]

/-! ### Case C -/

theorem out0_C_2_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) :
    out0_C_2 c i arg2 harg2 arg3 harg3 arg4 harg4 arg5 harg5 arg6 harg6 arg7 harg7 arg8 harg8 arg9 harg9 hc0 hc1 hc2 hc3 x0 x1 xo4 xs0 xs1 = k0_pay8 x0 xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_C_2
  rw [View.read_writes_eq_canon _ _ _ (cover0_C_2 c i arg2 harg2 arg3 harg3 arg4 harg4 arg5 harg5 arg6 harg6 arg7 harg7 arg8 harg8 arg9 harg9 hc0 hc1 hc2 hc3 x0 x1 xo4 xs0 xs1)]
  unfold kernelRun0_C; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_C_3_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) :
    out0_C_3 c i arg2 harg2 arg3 harg3 arg4 harg4 arg5 harg5 arg6 harg6 arg7 harg7 arg8 harg8 arg9 harg9 hc0 hc1 hc2 hc3 x0 x1 xo4 xs0 xs1 = k0_pay10 x0 (View.ld xs0 (stripeR i)) xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_C_3
  rw [View.read_writes_eq_canon _ _ _ (cover0_C_3 c i arg2 harg2 arg3 harg3 arg4 harg4 arg5 harg5 arg6 harg6 arg7 harg7 arg8 harg8 arg9 harg9 hc0 hc1 hc2 hc3 x0 x1 xo4 xs0 xs1)]
  unfold kernelRun0_C; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_C_4_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) :
    out0_C_4 c i arg2 harg2 arg3 harg3 arg4 harg4 arg5 harg5 arg6 harg6 arg7 harg7 arg8 harg8 arg9 harg9 hc0 hc1 hc2 hc3 x0 x1 xo4 xs0 xs1 = k0_pay1 (k0_pay12 x0 (View.ld xs0 (stripeR i))) xo4 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_C_4
  rw [View.read_writes_eq_canon _ _ _ (cover0_C_4 c i arg2 harg2 arg3 harg3 arg4 harg4 arg5 harg5 arg6 harg6 arg7 harg7 arg8 harg8 arg9 harg9 hc0 hc1 hc2 hc3 x0 x1 xo4 xs0 xs1)]
  unfold kernelRun0_C; dsimp only; sl_unfold_run_names
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- Inside the stripe the user scratch holds the new rows; -/
theorem sout0_C_0_in (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (x : S256x32.Idx) :
    sout0_C_0 c i arg2 harg2 arg3 harg3 arg4 harg4 arg5 harg5 arg6 harg6 arg7 harg7 arg8 harg8 arg9 harg9 hc0 hc1 hc2 hc3 x0 x1 xo4 xs0 xs1 ((stripeR i).emb x) = k0_pay11 x0 (View.ld xs0 (stripeR i)) xs1 x := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_C_0
  unfold kernelRun0_C; dsimp only
  rw [View.read_writes_cons_emb]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- outside it what it held. -/
theorem sout0_C_0_out (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : ¬cond0_3 i)
    (x0 : Vec F S256x8192 .f32) (x1 : Vec F S16384x32 .f32) (xo4 : Vec F S1x8192x32 .f32) (xs0 : Vec F S8192x32 .f32) (xs1 : Vec F S8192x32 .f32) (y : S8192x32.Idx) (hy : y ∉ (stripeR i).set) :
    sout0_C_0 c i arg2 harg2 arg3 harg3 arg4 harg4 arg5 harg5 arg6 harg6 arg7 harg7 arg8 harg8 arg9 harg9 hc0 hc1 hc2 hc3 x0 x1 xo4 xs0 xs1 y = xs0 y := by
  unfold sout0_C_0
  unfold kernelRun0_C; dsimp only
  rw [View.read_writes_apply_of_forall_not_mem _ _ y _ (fun p hp => by
    rw [List.mem_singleton] at hp; subst hp; exact hy), harg8.read_unread]

/-! ### Case D -/

theorem out0_D_2_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    out0_D_2 c i arg2 harg2 arg3 harg3 arg4 harg4 arg5 harg5 arg6 harg6 arg7 harg7 arg8 harg8 arg9 harg9 hc0 hc1 hc2 hc3 x0 x1 xo4 xs0 xs1 = k0_pay8 x0 xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_D_2
  rw [View.read_writes_eq_canon _ _ _ (cover0_D_2 c i arg2 harg2 arg3 harg3 arg4 harg4 arg5 harg5 arg6 harg6 arg7 harg7 arg8 harg8 arg9 harg9 hc0 hc1 hc2 hc3 x0 x1 xo4 xs0 xs1)]
  unfold kernelRun0_D; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_D_3_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    out0_D_3 c i arg2 harg2 arg3 harg3 arg4 harg4 arg5 harg5 arg6 harg6 arg7 harg7 arg8 harg8 arg9 harg9 hc0 hc1 hc2 hc3 x0 x1 xo4 xs0 xs1 = k0_pay10 x0 (View.ld xs0 (stripeR i)) xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_D_3
  rw [View.read_writes_eq_canon _ _ _ (cover0_D_3 c i arg2 harg2 arg3 harg3 arg4 harg4 arg5 harg5 arg6 harg6 arg7 harg7 arg8 harg8 arg9 harg9 hc0 hc1 hc2 hc3 x0 x1 xo4 xs0 xs1)]
  unfold kernelRun0_D; dsimp only
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_D_4_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    out0_D_4 c i arg2 harg2 arg3 harg3 arg4 harg4 arg5 harg5 arg6 harg6 arg7 harg7 arg8 harg8 arg9 harg9 hc0 hc1 hc2 hc3 x0 x1 xo4 xs0 xs1 = k0_pay1 (k0_pay12 x0 (View.ld xs0 (stripeR i))) xo4 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_D_4
  rw [View.read_writes_eq_canon _ _ _ (cover0_D_4 c i arg2 harg2 arg3 harg3 arg4 harg4 arg5 harg5 arg6 harg6 arg7 harg7 arg8 harg8 arg9 harg9 hc0 hc1 hc2 hc3 x0 x1 xo4 xs0 xs1)]
  unfold kernelRun0_D; dsimp only; sl_unfold_run_names
  rw [View.canon_unit_zero hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

theorem out0_D_5_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    out0_D_5 c i arg2 harg2 arg3 harg3 arg4 harg4 arg5 harg5 arg6 harg6 arg7 harg7 arg8 harg8 arg9 harg9 hc0 hc1 hc2 hc3 x0 x1 xo4 xs0 xs1 = k0_pay3 (k0_pay1 (k0_pay12 x0 (View.ld xs0 (stripeR i))) xo4) xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_D_5
  rw [View.read_writes_eq_canon _ _ _ (cover0_D_5 c i arg2 harg2 arg3 harg3 arg4 harg4 arg5 harg5 arg6 harg6 arg7 harg7 arg8 harg8 arg9 harg9 hc0 hc1 hc2 hc3 x0 x1 xo4 xs0 xs1)]
  unfold kernelRun0_D; dsimp only; sl_unfold_run_names
  rw [View.canon_unit_zero hz3, View.readCov_unit_zero _ hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- Inside the stripe the user scratch holds the new rows; -/
theorem sout0_D_0_in (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (x : S256x32.Idx) :
    sout0_D_0 c i arg2 harg2 arg3 harg3 arg4 harg4 arg5 harg5 arg6 harg6 arg7 harg7 arg8 harg8 arg9 harg9 hc0 hc1 hc2 hc3 x0 x1 xo4 xs0 xs1 ((stripeR i).emb x) = k0_pay11 x0 (View.ld xs0 (stripeR i)) xs1 x := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_D_0
  unfold kernelRun0_D; dsimp only
  rw [View.read_writes_cons_emb]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

/-- outside it what it held. -/
theorem sout0_D_0_out (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) (y : S8192x32.Idx) (hy : y ∉ (stripeR i).set) :
    sout0_D_0 c i arg2 harg2 arg3 harg3 arg4 harg4 arg5 harg5 arg6 harg6 arg7 harg7 arg8 harg8 arg9 harg9 hc0 hc1 hc2 hc3 x0 x1 xo4 xs0 xs1 y = xs0 y := by
  unfold sout0_D_0
  unfold kernelRun0_D; dsimp only
  rw [View.read_writes_apply_of_forall_not_mem _ _ y _ (fun p hp => by
    rw [List.mem_singleton] at hp; subst hp; exact hy), harg8.read_unread]

theorem sout0_D_1_eq (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole)
    (hc0 : ¬cond0_0 i) (hc1 : ¬cond0_1 i) (hc2 : cond0_2 i) (hc3 : cond0_3 i)
    (x0 : Vec F S256x8192 .f32) (x1 : Vec F S16384x32 .f32) (xo4 : Vec F S1x8192x32 .f32) (xs0 : Vec F S8192x32 .f32) (xs1 : Vec F S8192x32 .f32) :
    sout0_D_1 c i arg2 harg2 arg3 harg3 arg4 harg4 arg5 harg5 arg6 harg6 arg7 harg7 arg8 harg8 arg9 harg9 hc0 hc1 hc2 hc3 x0 x1 xo4 xs0 xs1 = k0_pay4 (k0_pay1 (k0_pay12 x0 (View.ld xs0 (stripeR i))) xo4) xs1 := by
  have hz3 : (![0, 0, 0] : Fin 3 → Nat) = fun _ => 0 := funext fun a => by fin_cases a <;> rfl
  have hz2 : (![0, 0] : Fin 2 → Nat) = fun _ => 0 := funext fun a => by fin_cases a <;> rfl
  unfold sout0_D_1
  rw [View.read_writes_eq_canon _ _ _ (scover0_D_1 c i arg2 harg2 arg3 harg3 arg4 harg4 arg5 harg5 arg6 harg6 arg7 harg7 arg8 harg8 arg9 harg9 hc0 hc1 hc2 hc3 x0 x1 xo4 xs0 xs1)]
  unfold kernelRun0_D; dsimp only; sl_unfold_run_names
  rw [View.canon_unit_zero hz2, View.readCov_unit_zero _ hz3]
  simp only [View.readAt_eq_ld, harg2.read_unread, harg6.read_unread, harg8.read_unread, harg9.read_unread, View.ld_unit_zero (S := S256x8192) hz2, View.ld_unit_zero (S := S8192x32) hz2, View.ld_unit_zero (S := S1x8192x32) hz3]

end Cert.KernelIdeal.Hand

end
-- ==== Proof.LibBlockSum.lean ====
/-
  Re-indexing of finite sums: a sum over a·b consecutive indices is the double sum over a blocks of b
  indices each (block t holds the indices t·b, …, t·b + b − 1); the instance 100000 = 20 · 5000; and a
  running accumulator that starts at zero and adds one term per step is the sum of the terms so far.
-/
import Mathlib.Data.EReal.Inv
import Mathlib.Data.Fintype.BigOperators
import Mathlib.Algebra.BigOperators.Fin
import Mathlib.Logic.Equiv.Fin.Basic
import Mathlib.Tactic.Ring

namespace Cert.LibBlockSum

/-- The r-th index of block t lies below a·b: t·b + r < t·b + b = (t+1)·b ≤ a·b. -/
theorem idx_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right _ t.isLt

/-- A sum over a·b indices is the sum over the a blocks of the sum over each block's b indices: the pair
    (t, r) ↦ t·b + r is a bijection of Fin a × Fin b with Fin (a·b). -/
theorem sum_blocks {M : Type*} [AddCommMonoid M] (a b : ℕ) (f : Fin (a * b) → M) :
    ∑ i : Fin (a * b), f i = ∑ t : Fin a, ∑ r : Fin b, f ⟨t.val * b + r.val, idx_lt t r⟩ := by
  rw [← finProdFinEquiv.sum_comp f, Fintype.sum_prod_type]
  refine Finset.sum_congr rfl fun t _ => Finset.sum_congr rfl fun r _ => ?_
  congr 1
  apply Fin.ext
  simp only [finProdFinEquiv_apply_val]
  ring

/-- The instance used for the rows: 100000 rows are 20 blocks of 5000. -/
theorem sum_rows (f : Fin 100000 → EReal) :
    ∑ i : Fin 100000, f i = ∑ t : Fin 20, ∑ r : Fin 5000, f ⟨t.val * 5000 + r.val, by omega⟩ :=
  sum_blocks 20 5000 f

/-- One more term of a running sum over an initial segment of the naturals. -/
theorem sum_range_succ_blocks (g : ℕ → EReal) (n : ℕ) :
    (∑ t ∈ Finset.range (n + 1), g t) = (∑ t ∈ Finset.range n, g t) + g n :=
  Finset.sum_range_succ g n

/-- A sum over Fin n of a function of the value is the sum over the naturals below n. -/
theorem sum_fin_eq_range (n : ℕ) (g : ℕ → EReal) : ∑ t : Fin n, g t.val = ∑ t ∈ Finset.range n, g t :=
  Fin.sum_univ_eq_sum_range g n

/-- An accumulator that starts at zero and adds g n at step n holds, after n steps, the sum of g over the
    steps taken. -/
theorem acc_eq_sum (acc g : ℕ → EReal) (h0 : acc 0 = 0) (hs : ∀ n, acc (n + 1) = acc n + g n) (n : ℕ) :
    acc n = ∑ t : Fin n, g t.val := by
  rw [sum_fin_eq_range]
  induction n with
  | zero => rw [h0, Finset.range_zero, Finset.sum_empty]
  | succ n ih => rw [hs, ih, Finset.sum_range_succ]

end Cert.LibBlockSum
-- ==== Proof.Spec.lean ====
/-
  The propagation as plain sums over the extended reals. With a the 8192 × 8192 adjacency and (u, v) the user and item
  embeddings of a layer, the layer's user aggregate at row r is the sum over items k of a r k · v k d, its item aggregate
  at item j the sum over users k of a k j · u k d, and the next layer's embeddings are aggregate + old embeddings.
  The kernel forms the item aggregate stripe by stripe (32 stripes of 256 users), the first stripe's contribution
  stored and each later one added to the running sum: after the last stripe that running sum is the whole aggregate,
  because a sum over 8192 = 32 · 256 users is the sum over the stripes of the sums inside them, and addition of
  extended reals is associative and commutative (nothing here needs the entries to be finite).
-/
import Mathlib.Data.EReal.Inv
import Mathlib.Algebra.BigOperators.Fin
import proofs.«129477_g20109036880396_cont_8to1_786_6_alg».proof.Proof.LibBlockSum

noncomputable section

namespace Cert.Spec

/-- The adjacency, and a block of embeddings (users or items). -/
abbrev Mat := Fin 8192 → Fin 8192 → EReal
abbrev Emb := Fin 8192 → Fin 32 → EReal

/-- A layer's user aggregate: row r of the adjacency against the item embeddings. -/
def aggU (a : Mat) (v : Emb) : Emb := fun r d => ∑ k : Fin 8192, a r k * v k d

/-- A layer's item aggregate: column j of the adjacency against the user embeddings. -/
def aggI (a : Mat) (u : Emb) : Emb := fun j d => ∑ k : Fin 8192, a k j * u k d

/-- The embeddings (users, items) entering layer l: the inputs at l = 0, then aggregate + old. -/
def lat (a : Mat) (u0 v0 : Emb) : ℕ → Emb × Emb
  | 0 => (u0, v0)
  | l + 1 => (fun r d => aggU a (lat a u0 v0 l).2 r d + (lat a u0 v0 l).1 r d,
              fun j d => aggI a (lat a u0 v0 l).1 j d + (lat a u0 v0 l).2 j d)

def latU (a : Mat) (u0 v0 : Emb) (l : ℕ) : Emb := (lat a u0 v0 l).1
def latI (a : Mat) (u0 v0 : Emb) (l : ℕ) : Emb := (lat a u0 v0 l).2

theorem latU_zero (a : Mat) (u0 v0 : Emb) : latU a u0 v0 0 = u0 := rfl
theorem latI_zero (a : Mat) (u0 v0 : Emb) : latI a u0 v0 0 = v0 := rfl
theorem latU_succ (a : Mat) (u0 v0 : Emb) (l : ℕ) (r : Fin 8192) (d : Fin 32) :
    latU a u0 v0 (l + 1) r d = aggU a (latI a u0 v0 l) r d + latU a u0 v0 l r d := rfl
theorem latI_succ (a : Mat) (u0 v0 : Emb) (l : ℕ) (j : Fin 8192) (d : Fin 32) :
    latI a u0 v0 (l + 1) j d = aggI a (latU a u0 v0 l) j d + latI a u0 v0 l j d := rfl

/-- Row r of stripe s. -/
def row (s : Fin 32) (r : Fin 256) : Fin 8192 := ⟨s.val * 256 + r.val, by have := s.isLt; have := r.isLt; omega⟩

theorem row_val (s : Fin 32) (r : Fin 256) : (row s r).val = s.val * 256 + r.val := rfl

/-- Stripe s's contribution to the item aggregate: the sum over the stripe's 256 users. -/
def contrib (a : Mat) (u : Emb) (s : Fin 32) : Emb := fun j d => ∑ r : Fin 256, a (row s r) j * u (row s r) d

/-- The running sum after stripe i (i < 32): stripe 0's contribution stored, each later one added on the right. -/
def accI (a : Mat) (u : Emb) : (i : ℕ) → i < 32 → Emb
  | 0, h => contrib a u ⟨0, h⟩
  | i + 1, h => fun j d => accI a u i (Nat.lt_of_succ_lt h) j d + contrib a u ⟨i + 1, h⟩ j d

theorem accI_zero (a : Mat) (u : Emb) (h : 0 < 32) : accI a u 0 h = contrib a u ⟨0, h⟩ := rfl
theorem accI_succ (a : Mat) (u : Emb) (i : ℕ) (h : i + 1 < 32) (j : Fin 8192) (d : Fin 32) :
    accI a u (i + 1) h j d = accI a u i (Nat.lt_of_succ_lt h) j d + contrib a u ⟨i + 1, h⟩ j d := rfl

/-- The running sum after stripe i is the sum of the contributions of stripes 0, …, i. -/
theorem accI_eq_sum (a : Mat) (u : Emb) (j : Fin 8192) (d : Fin 32) :
    ∀ (i : ℕ) (h : i < 32), accI a u i h j d = ∑ s : Fin (i + 1), contrib a u ⟨s.val, by have := s.isLt; omega⟩ j d
  | 0, h => by rw [accI_zero]; simp
  | i + 1, h => by
    rw [accI_succ, accI_eq_sum a u j d i (Nat.lt_of_succ_lt h), Fin.sum_univ_castSucc (n := i + 1)]
    rfl

/-- After the last stripe the running sum is the item aggregate. -/
theorem accI_last (a : Mat) (u : Emb) (h : 31 < 32) : accI a u 31 h = aggI a u := by
  funext j d
  rw [accI_eq_sum a u j d 31 h]
  unfold aggI contrib
  exact (Cert.LibBlockSum.sum_blocks 32 256 (fun k : Fin (32 * 256) => a k j * u k d)).symm

/-! ## The results, row by row over users then items -/

/-- Layer l's aggregate over all 16384 rows: users first (rows below 8192), then items. -/
def gcnAt (a : Mat) (u0 v0 : Emb) (l : ℕ) (r : Fin 16384) (d : Fin 32) : EReal :=
  if h : r.val < 8192 then aggU a (latI a u0 v0 l) ⟨r.val, h⟩ d
  else aggI a (latU a u0 v0 l) ⟨r.val - 8192, by have := r.isLt; omega⟩ d

/-- The embeddings entering layer l over all 16384 rows: users first, then items. -/
def latAt (a : Mat) (u0 v0 : Emb) (l : ℕ) (r : Fin 16384) (d : Fin 32) : EReal :=
  if h : r.val < 8192 then latU a u0 v0 l ⟨r.val, h⟩ d
  else latI a u0 v0 l ⟨r.val - 8192, by have := r.isLt; omega⟩ d

theorem latAt_succ (a : Mat) (u0 v0 : Emb) (l : ℕ) (r : Fin 16384) (d : Fin 32) :
    latAt a u0 v0 (l + 1) r d = gcnAt a u0 v0 l r d + latAt a u0 v0 l r d := by
  unfold latAt gcnAt
  split
  · rw [latU_succ]
  · rw [latI_succ]

end Cert.Spec

end
-- ==== Proof.SpecIdx.lean ====
/-
  The adjacency and the embeddings as the arrays hold them: entry (r, k) of the 8192 × 8192 array, and the two halves
  of the 16384 × 32 array (users in rows 0 … 8191, items in rows 8192 … 16383).
-/
import proofs.«129477_g20109036880396_cont_8to1_786_6_alg».proof.Proof.Spec
import Idealize.ShloMosaic.Lib.ValueIdx
import Idealize.ShloMosaic.PureOps.Ideal

noncomputable section

namespace Cert.Spec

open Idealize.ShloMosaic Idealize.ShloMosaic.ValueIdx

/-- The adjacency read off its array. -/
def aOf (x0 : Vec Ideal ⟨2, ![8192, 8192]⟩ .f32) : Mat := fun r k => x0 (ix2 r k)

/-- A row of the upper half of the embeddings' array, and of the lower half. -/
def upRow (r : Fin 8192) : Fin 16384 := ⟨r.val, by have := r.isLt; omega⟩
def loRow (r : Fin 8192) : Fin 16384 := ⟨8192 + r.val, by have := r.isLt; omega⟩

/-- The input user embeddings and item embeddings read off their array. -/
def uOf (x1 : Vec Ideal ⟨2, ![16384, 32]⟩ .f32) : Emb := fun r d => x1 (ix2 (upRow r) d)
def vOf (x1 : Vec Ideal ⟨2, ![16384, 32]⟩ .f32) : Emb := fun r d => x1 (ix2 (loRow r) d)

/-- Layer l's aggregate as an array of the embeddings' shape, -/
def gcnArr (x0 : Vec Ideal ⟨2, ![8192, 8192]⟩ .f32) (x1 : Vec Ideal ⟨2, ![16384, 32]⟩ .f32) (l : ℕ) : Vec Ideal ⟨2, ![16384, 32]⟩ .f32 :=
  fun i => gcnAt (aOf x0) (uOf x1) (vOf x1) l (i 0) (i 1)

/-- and the embeddings entering layer l. -/
def latArr (x0 : Vec Ideal ⟨2, ![8192, 8192]⟩ .f32) (x1 : Vec Ideal ⟨2, ![16384, 32]⟩ .f32) (l : ℕ) : Vec Ideal ⟨2, ![16384, 32]⟩ .f32 :=
  fun i => latAt (aOf x0) (uOf x1) (vOf x1) l (i 0) (i 1)

theorem latArr_zero (x0 : Vec Ideal ⟨2, ![8192, 8192]⟩ .f32) (x1 : Vec Ideal ⟨2, ![16384, 32]⟩ .f32) : latArr x0 x1 0 = x1 := by
  funext i
  obtain ⟨r, d, rfl⟩ : ∃ (r : Fin 16384) (d : Fin 32), i = ix2 r d := ⟨i 0, i 1, eq_ix2 i⟩
  show latAt (aOf x0) (uOf x1) (vOf x1) 0 r d = x1 (ix2 r d)
  unfold latAt
  split
  · next h =>
    show x1 (ix2 (upRow ⟨r.val, h⟩) d) = x1 (ix2 r d)
    have e : upRow ⟨r.val, h⟩ = r := Fin.ext rfl
    rw [e]
  · next h =>
    show x1 (ix2 (loRow ⟨r.val - 8192, _⟩) d) = x1 (ix2 r d)
    have e : loRow ⟨r.val - 8192, by have := r.isLt; omega⟩ = r := Fin.ext (by show 8192 + (r.val - 8192) = r.val; omega)
    rw [e]

end Cert.Spec

end
-- ==== Proof.KI.Payloads.lean ====
/-
  The body's arithmetic read at an index, at the ideal instance: a product of a stripe with the item embeddings is a sum
  over the 8192 items, the product of the stripe's transpose with the stripe's user rows a sum over the stripe's 256
  users, and the additions are additions of extended reals; the changes of shape between 256 × 32 and 1 × 256 × 32
  (8192 × 32 and 1 × 8192 × 32) move nothing. Also what a load through the stripe's rectangle, or through either half of
  the embeddings' window, reads.
-/
import proofs.«129477_g20109036880396_cont_8to1_786_6_alg».proof.Proof.Gen.KernelIdeal.Skeleton
import proofs.«129477_g20109036880396_cont_8to1_786_6_alg».proof.Proof.KI.Rects
import proofs.«129477_g20109036880396_cont_8to1_786_6_alg».proof.Proof.SpecIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ (UR sig nD τ) ℕ

/-! ## Loads through the rectangles (every float instance) -/

/-- The stripe of a point, from its coordinates. -/
theorem k0_off1_row (i : grid0.Coords) : k0_off1 i = ![(i 1).val * 256, 0] := by
  have h : (i 1).val < 32 := (i 1).isLt
  have e : (BitVec.ofNat 32 (i 1).val * 256#32).toNat = (i 1).val * 256 := by
    rw [BitVec.toNat_mul, BitVec.toNat_ofNat, BitVec.toNat_ofNat]
    omega
  show ![(BitVec.ofNat 32 (i 1).val * 256#32).toNat, 0] = ![(i 1).val * 256, 0]
  rw [e]

/-- Row r of the stripe is row (stripe)·256 + r of the scratch buffer. -/
def stripeRow (i : grid0.Coords) (r : Fin 256) : Fin 8192 := ⟨(i 1).val * 256 + r.val, by have h : (i 1).val < 32 := (i 1).isLt; have := r.isLt; omega⟩

/-- The stripe's rectangle places local entry (r, d) at row (stripe)·256 + r, column d. -/
theorem stripeR_idx (i : grid0.Coords) (r : Fin 256) (d : Fin 32) :
    (stripeR i).emb (ix2 r d) = ix2 (stripeRow i r) d := by
  funext a
  apply Fin.ext
  match a with
  | ⟨0, _⟩ =>
    show (k0_off1 i) 0 + 1 * r.val = (i 1).val * 256 + r.val
    rw [k0_off1_row]
    show (i 1).val * 256 + 1 * r.val = (i 1).val * 256 + r.val
    omega
  | ⟨1, _⟩ =>
    show (k0_off1 i) 1 + 1 * d.val = d.val
    rw [k0_off1_row]
    show 0 + 1 * d.val = d.val
    omega

theorem ld_stripe (i : grid0.Coords) (X : Vec F S8192x32 .f32) (r : Fin 256) (d : Fin 32) :
    View.ld X (stripeR i) (ix2 r d) = X (ix2 (stripeRow i r) d) := by
  show X ((stripeR i).emb (ix2 r d)) = X (ix2 (stripeRow i r) d)
  rw [stripeR_idx]

theorem stripe_emb (i : grid0.Coords) (r : Fin 256) (d : Fin 32) :
    (stripeR i).emb (ix2 r d) = ix2 (stripeRow i r) d := by
  exact stripeR_idx i r d

theorem stripe_mem_iff (i : grid0.Coords) (y : S8192x32.Idx) :
    y ∈ (stripeR i).set ↔ (i 1).val * 256 ≤ (y 0).val ∧ (y 0).val < (i 1).val * 256 + 256 := by
  rw [Rect.mem_set_unit, k0_off1_row]
  constructor
  · intro h
    exact h 0
  · intro h a
    match a with
    | ⟨0, _⟩ => exact h
    | ⟨1, _⟩ =>
      have h1 : (y 1).val < 32 := (y 1).isLt
      show 0 ≤ (y 1).val ∧ (y 1).val < 0 + 32
      omega

theorem ld_top (x1 : Vec F S16384x32 .f32) (r : Fin 8192) (d : Fin 32) :
    View.ld x1 topR (ix2 r d) = x1 (ix2 (Cert.Spec.upRow r) d) := by
  show x1 (topR.emb (ix2 r d)) = x1 (ix2 (Cert.Spec.upRow r) d)
  refine congrArg x1 (funext fun a => Fin.ext ?_)
  match a with
  | ⟨0, _⟩ =>
    show 0 + 1 * r.val = r.val
    omega
  | ⟨1, _⟩ =>
    show 0 + 1 * d.val = d.val
    omega

theorem ld_bot (x1 : Vec F S16384x32 .f32) (r : Fin 8192) (d : Fin 32) :
    View.ld x1 botR (ix2 r d) = x1 (ix2 (Cert.Spec.loRow r) d) := by
  show x1 (botR.emb (ix2 r d)) = x1 (ix2 (Cert.Spec.loRow r) d)
  refine congrArg x1 (funext fun a => Fin.ext ?_)
  match a with
  | ⟨0, _⟩ =>
    show 8192 + 1 * r.val = 8192 + r.val
    omega
  | ⟨1, _⟩ =>
    show 0 + 1 * d.val = d.val
    omega

/-! ## The payloads at an index (the ideal instance) -/

theorem pay5_eq (w : Vec F S8192x32 .f32) : k0_pay5 w = w := by
  unfold k0_pay5
  exact shapeCast_self w _

theorem pay6_eq (w : Vec F S8192x32 .f32) : k0_pay6 w = w := by
  unfold k0_pay6
  exact shapeCast_self w _

/-- A leading axis of extent one added to an m × n value moves nothing: entry (0, a, b) is entry (a, b). -/
theorem addUnit_ix3 {m n : Nat} {α : Type} (x : (⟨2, ![m, n]⟩ : Shape).Idx → α)
    (h : (⟨2, ![m, n]⟩ : Shape).ShapeCasts ⟨3, ![1, m, n]⟩) (a : Fin m) (b : Fin n) :
    shapeCast ⟨3, ![1, m, n]⟩ x h (ix3 (0 : Fin 1) a b) = x (ix2 a b) := by
  refine (shapeCast_addUnit_apply ![m, n] x h (ix3 (0 : Fin 1) a b)).trans (congrArg x ?_)
  funext c
  match c with
  | ⟨0, _⟩ => rfl
  | ⟨1, _⟩ => rfl

/-- Dropping it moves nothing either: entry (a, b) is entry (0, a, b). -/
theorem dropUnit_ix2 {m n : Nat} {α : Type} (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 (0 : Fin 1) a b) := by
  refine (shapeCast_dropUnit_apply ![m, n] x h (ix2 a b)).trans (congrArg x ?_)
  funext c
  match c with
  | ⟨0, _⟩ => rfl
  | ⟨1, _⟩ => rfl
  | ⟨2, _⟩ => rfl

/-! The first product contracts the stripe's columns against the items' rows: at output (r, d) and contraction
    coordinate k the left index is (r, k) and the right index (k, d). -/
theorem lhs_pay7_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
theorem lhs_pay7_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem rhs_pay7_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem rhs_pay7_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl

/-- The product of the stripe with the item embeddings into a zero accumulator, at (r, d): the sum over the items. -/
theorem pay7_apply (x0 : Vec Ideal S256x8192 .f32) (v : Vec Ideal S8192x32 .f32) (r : Fin 256) (d : Fin 32) :
    k0_pay7 (F := Ideal) x0 v (ix2 r d) = ∑ k : Fin 8192, x0 (ix2 r k) * v (ix2 k d) := by
  unfold k0_pay7
  show FloatOps.matmul (F := Ideal) (φ₁ := .f32) (φ₂ := .f32) dot_S256x8192_S8192x32_S256x32_1_0_0_1_n_n none x0 v (constant S256x32 .f32 0x00000000#32) (ix2 r d) = _
  rw [Ideal.matmul_constant_zero_apply, ← Equiv.sum_comp (ValueIdx.contrEquiv1 dot_S256x8192_S8192x32_S256x32_1_0_0_1_n_n 8192 rfl rfl).symm]
  refine Finset.sum_congr rfl fun k _ => ?_
  have hk := ValueIdx.contrEquiv1_symm_val dot_S256x8192_S8192x32_S256x32_1_0_0_1_n_n 8192 rfl rfl k
  have el : dot_S256x8192_S8192x32_S256x32_1_0_0_1_n_n.lhsIdx (ix2 r d) ((ValueIdx.contrEquiv1 dot_S256x8192_S8192x32_S256x32_1_0_0_1_n_n 8192 rfl rfl).symm k) = ix2 r k := funext fun a => Fin.ext (by
    match a with
    | ⟨0, _⟩ => exact lhs_pay7_0 _ _
    | ⟨1, _⟩ => exact (lhs_pay7_1 _ _).trans hk)
  have er : dot_S256x8192_S8192x32_S256x32_1_0_0_1_n_n.rhsIdx (ix2 r d) ((ValueIdx.contrEquiv1 dot_S256x8192_S8192x32_S256x32_1_0_0_1_n_n 8192 rfl rfl).symm k) = ix2 k d := funext fun a => Fin.ext (by
    match a with
    | ⟨0, _⟩ => exact (rhs_pay7_0 _ _).trans hk
    | ⟨1, _⟩ => exact rhs_pay7_1 _ _)
  rw [el, er]

/-- The stripe's new user rows before any change of shape: aggregate + old rows. -/
theorem pay9_apply (x0 : Vec Ideal S256x8192 .f32) (uo : Vec Ideal S256x32 .f32) (v : Vec Ideal S8192x32 .f32) (r : Fin 256) (d : Fin 32) :
    k0_pay9 (F := Ideal) x0 uo v (ix2 r d) = (∑ k : Fin 8192, x0 (ix2 r k) * v (ix2 k d)) + uo (ix2 r d) := by
  unfold k0_pay9
  show k0_pay7 (F := Ideal) x0 v (ix2 r d) + uo (ix2 r d) = _
  rw [pay7_apply]

/-- The stripe's user aggregate: row r of the stripe against the item embeddings. -/
theorem pay8_apply (x0 : Vec Ideal S256x8192 .f32) (v : Vec Ideal S8192x32 .f32) (r : Fin 256) (d : Fin 32) :
    k0_pay8 (F := Ideal) x0 v (ix3 (0 : Fin 1) r d) = ∑ k : Fin 8192, x0 (ix2 r k) * v (ix2 k d) := by
  unfold k0_pay8
  exact (addUnit_ix3 (k0_pay7 (F := Ideal) x0 v) _ r d).trans (pay7_apply x0 v r d)

/-- The stripe's new user rows: aggregate + old rows. -/
theorem pay10_apply (x0 : Vec Ideal S256x8192 .f32) (uo : Vec Ideal S256x32 .f32) (v : Vec Ideal S8192x32 .f32) (r : Fin 256) (d : Fin 32) :
    k0_pay10 (F := Ideal) x0 uo v (ix3 (0 : Fin 1) r d) = (∑ k : Fin 8192, x0 (ix2 r k) * v (ix2 k d)) + uo (ix2 r d) := by
  unfold k0_pay10
  exact (addUnit_ix3 (k0_pay9 (F := Ideal) x0 uo v) _ r d).trans (pay9_apply x0 uo v r d)

theorem pay11_apply (x0 : Vec Ideal S256x8192 .f32) (uo : Vec Ideal S256x32 .f32) (v : Vec Ideal S8192x32 .f32) (r : Fin 256) (d : Fin 32) :
    k0_pay11 (F := Ideal) x0 uo v (ix2 r d) = (∑ k : Fin 8192, x0 (ix2 r k) * v (ix2 k d)) + uo (ix2 r d) := by
  unfold k0_pay11
  rw [shapeCast_self]
  exact pay9_apply x0 uo v r d

/-! The second product contracts the stripe's rows against the stripe's user rows (the stripe's transpose times the
    rows): at output (j, d) and contraction coordinate k the left index is (k, j) and the right index (k, d). -/
theorem lhs_pay12_0 (i : S8192x32.Idx) (q : dot_S256x8192_S256x32_S8192x32_0_0_1_1_n_n.contr.Idx) :
    (dot_S256x8192_S256x32_S8192x32_0_0_1_1_n_n.lhsIdx i q 0).val = (q ⟨0, by decide⟩).val :=
  dot_S256x8192_S256x32_S8192x32_0_0_1_1_n_n.lhsIdx_val_of_single rfl i q
theorem lhs_pay12_1 (i : S8192x32.Idx) (q : dot_S256x8192_S256x32_S8192x32_0_0_1_1_n_n.contr.Idx) :
    (dot_S256x8192_S256x32_S8192x32_0_0_1_1_n_n.lhsIdx i q 1).val = (i 0).val := by
  unfold DotDims.lhsIdx
  rw [dif_neg (show ¬(1 : Fin S256x8192.rank) ∈ dot_S256x8192_S256x32_S8192x32_0_0_1_1_n_n.lhsBatch by decide), dif_pos (show (1 : Fin S256x8192.rank) ∈ dot_S256x8192_S256x32_S8192x32_0_0_1_1_n_n.lhsNonContracting by decide)]
  rfl
theorem rhs_pay12_0 (i : S8192x32.Idx) (q : dot_S256x8192_S256x32_S8192x32_0_0_1_1_n_n.contr.Idx) :
    (dot_S256x8192_S256x32_S8192x32_0_0_1_1_n_n.rhsIdx i q 0).val = (q ⟨0, by decide⟩).val :=
  dot_S256x8192_S256x32_S8192x32_0_0_1_1_n_n.rhsIdx_val_of_single rfl i q
theorem rhs_pay12_1 (i : S8192x32.Idx) (q : dot_S256x8192_S256x32_S8192x32_0_0_1_1_n_n.contr.Idx) :
    (dot_S256x8192_S256x32_S8192x32_0_0_1_1_n_n.rhsIdx i q 1).val = (i 1).val := by
  unfold DotDims.rhsIdx
  rw [dif_neg (show ¬(1 : Fin S256x32.rank) ∈ dot_S256x8192_S256x32_S8192x32_0_0_1_1_n_n.rhsBatch by decide), dif_pos (show (1 : Fin S256x32.rank) ∈ dot_S256x8192_S256x32_S8192x32_0_0_1_1_n_n.rhsNonContracting by decide)]
  rfl

/-- The product of the stripe's transpose with the stripe's user rows into a zero accumulator, at (j, d): the sum over
    the stripe's rows. -/
theorem pay12_apply (x0 : Vec Ideal S256x8192 .f32) (uo : Vec Ideal S256x32 .f32) (j : Fin 8192) (d : Fin 32) :
    k0_pay12 (F := Ideal) x0 uo (ix2 j d) = ∑ r : Fin 256, x0 (ix2 r j) * uo (ix2 r d) := by
  unfold k0_pay12
  show FloatOps.matmul (F := Ideal) (φ₁ := .f32) (φ₂ := .f32) dot_S256x8192_S256x32_S8192x32_0_0_1_1_n_n none x0 uo (constant S8192x32 .f32 0x00000000#32) (ix2 j d) = _
  rw [Ideal.matmul_constant_zero_apply, ← Equiv.sum_comp (ValueIdx.contrEquiv1 dot_S256x8192_S256x32_S8192x32_0_0_1_1_n_n 256 rfl rfl).symm]
  refine Finset.sum_congr rfl fun k _ => ?_
  have hk := ValueIdx.contrEquiv1_symm_val dot_S256x8192_S256x32_S8192x32_0_0_1_1_n_n 256 rfl rfl k
  have el : dot_S256x8192_S256x32_S8192x32_0_0_1_1_n_n.lhsIdx (ix2 j d) ((ValueIdx.contrEquiv1 dot_S256x8192_S256x32_S8192x32_0_0_1_1_n_n 256 rfl rfl).symm k) = ix2 k j := funext fun a => Fin.ext (by
    match a with
    | ⟨0, _⟩ => exact (lhs_pay12_0 _ _).trans hk
    | ⟨1, _⟩ => exact lhs_pay12_1 _ _)
  have er : dot_S256x8192_S256x32_S8192x32_0_0_1_1_n_n.rhsIdx (ix2 j d) ((ValueIdx.contrEquiv1 dot_S256x8192_S256x32_S8192x32_0_0_1_1_n_n 256 rfl rfl).symm k) = ix2 k d := funext fun a => Fin.ext (by
    match a with
    | ⟨0, _⟩ => exact (rhs_pay12_0 _ _).trans hk
    | ⟨1, _⟩ => exact rhs_pay12_1 _ _)
  rw [el, er]

/-- The stripe's contribution to the item aggregate: column j of the stripe against the stripe's user rows. -/
theorem pay13_apply (x0 : Vec Ideal S256x8192 .f32) (uo : Vec Ideal S256x32 .f32) (j : Fin 8192) (d : Fin 32) :
    k0_pay13 (F := Ideal) x0 uo (ix3 (0 : Fin 1) j d) = ∑ r : Fin 256, x0 (ix2 r j) * uo (ix2 r d) := by
  unfold k0_pay13
  exact (addUnit_ix3 (k0_pay12 (F := Ideal) x0 uo) _ j d).trans (pay12_apply x0 uo j d)

/-- The running sum: what the window held + the stripe's contribution. -/
theorem pay1_pay12_apply (x0 : Vec Ideal S256x8192 .f32) (uo : Vec Ideal S256x32 .f32) (g : Vec Ideal S1x8192x32 .f32) (j : Fin 8192) (d : Fin 32) :
    k0_pay1 (F := Ideal) (k0_pay12 x0 uo) g (ix3 (0 : Fin 1) j d) = g (ix3 (0 : Fin 1) j d) + ∑ r : Fin 256, x0 (ix2 r j) * uo (ix2 r d) := by
  unfold k0_pay1
  refine (addUnit_ix3 _ _ j d).trans ?_
  show shapeCast S8192x32 g _ (ix2 j d) + k0_pay12 (F := Ideal) x0 uo (ix2 j d) = _
  rw [dropUnit_ix2, pay12_apply]

/-- The layer's new item embeddings before any change of shape: aggregate + old. -/
theorem pay2_apply (g : Vec Ideal S1x8192x32 .f32) (v : Vec Ideal S8192x32 .f32) (j : Fin 8192) (d : Fin 32) :
    k0_pay2 (F := Ideal) g v (ix2 j d) = g (ix3 (0 : Fin 1) j d) + v (ix2 j d) := by
  unfold k0_pay2
  show shapeCast S8192x32 g _ (ix2 j d) + v (ix2 j d) = _
  rw [dropUnit_ix2]

/-- The layer's new item embeddings: aggregate + old. -/
theorem pay3_apply (g : Vec Ideal S1x8192x32 .f32) (v : Vec Ideal S8192x32 .f32) (j : Fin 8192) (d : Fin 32) :
    k0_pay3 (F := Ideal) g v (ix3 (0 : Fin 1) j d) = g (ix3 (0 : Fin 1) j d) + v (ix2 j d) := by
  unfold k0_pay3
  exact (addUnit_ix3 (k0_pay2 (F := Ideal) g v) _ j d).trans (pay2_apply g v j d)

theorem pay4_apply (g : Vec Ideal S1x8192x32 .f32) (v : Vec Ideal S8192x32 .f32) (j : Fin 8192) (d : Fin 32) :
    k0_pay4 (F := Ideal) g v (ix2 j d) = g (ix3 (0 : Fin 1) j d) + v (ix2 j d) := by
  unfold k0_pay4
  rw [shapeCast_self]
  exact pay2_apply g v j d

end Cert.KernelIdeal.Hand

end
-- ==== Proof.KI.Blocks.lean ====
/-
  The input windows' blocks as parts of the arrays: at point t the adjacency's window holds the stripe's 256 rows of
  the adjacency (all 8192 columns), and the embeddings' window holds the whole embeddings array.
-/
import proofs.«129477_g20109036880396_cont_8to1_786_6_alg».proof.Proof.KI.Body
import proofs.«129477_g20109036880396_cont_8to1_786_6_alg».proof.Proof.KI.Payloads

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec

variable (m : (ℓ : Loc nD τ sig) → Buf (Elt F) ℓ)

/-- The two input blocks at a point and the two input arrays, at their literal types. -/
abbrev ablk (c : Dev nD) (t : Fin cfg0.N) : Vec F S256x8192 .f32 := iblk m c 0 t
abbrev eblk (c : Dev nD) (t : Fin cfg0.N) : Vec F S16384x32 .f32 := iblk m c 1 t
abbrev adjArr (c : Dev nD) : Vec F S8192x8192 .f32 := V m c main_arg0
abbrev embArr (c : Dev nD) : Vec F S16384x32 .f32 := V m c main_arg1

/-- Point t is stripe t % 32 of layer t / 32. -/
theorem coords_stripe (t : Fin cfg0.N) : ((grid0.coords t) 1).val = t.val % 32 :=
  (by decide +kernel : ∀ t : Fin grid0.N, ((grid0.coords t) 1).val = t.val % 32) t

theorem coords_layer (t : Fin cfg0.N) : ((grid0.coords t) 0).val = t.val / 32 :=
  (by decide +kernel : ∀ t : Fin grid0.N, ((grid0.coords t) 0).val = t.val / 32) t

theorem stripeRow_coords (t : Fin cfg0.N) (r : Fin 256) :
    stripeRow (grid0.coords t) r = Cert.Spec.row ⟨t.val % 32, Nat.mod_lt _ (by decide)⟩ r := by
  apply Fin.ext
  show ((grid0.coords t) 1).val * 256 + r.val = t.val % 32 * 256 + r.val
  rw [coords_stripe]

/-- The two input windows' block indices over the grid: the adjacency's block is (stripe, 0), the embeddings' block is
    (0, 0). -/
private theorem idx_in : ∀ t : Fin cfg0.N, win0_0.index t (0 : Fin 2) = t.val % 32 ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val % 32 ∧ win0_0.index t (1 : Fin 2) = 0
    ∧ win0_1.index t (0 : Fin 2) = 0 ∧ win0_1.index t (1 : Fin 2) = 0)

/-- Row r of the adjacency's block is row (stripe)·256 + r of the adjacency. -/
theorem ablk_apply (c : Dev nD) (t : Fin cfg0.N) (r : Fin 256) (k : Fin 8192) :
    ablk m c t (ix2 r k) = adjArr m c (ix2 (stripeRow (grid0.coords t) r) k) := by
  show V m c main_arg0 (((cfg0.win 0).blk t).view.emb (ix2 r k)) = V m c main_arg0 (ix2 (stripeRow (grid0.coords t) r) k)
  obtain ⟨e0, e1, -, -⟩ := idx_in t
  refine congrArg (V m c main_arg0) ?_
  funext a; apply Fin.ext
  match a with
  | ⟨0, _⟩ =>
    show win0_0.index t (0 : Fin 2) * 256 + 1 * r.val = ((grid0.coords t) 1).val * 256 + r.val
    rw [e0, coords_stripe]; omega
  | ⟨1, _⟩ =>
    show win0_0.index t (1 : Fin 2) * 8192 + 1 * k.val = k.val
    rw [e1]; omega

/-- The embeddings' block is the embeddings. -/
theorem eblk_eq (c : Dev nD) (t : Fin cfg0.N) : eblk m c t = embArr m c := by
  funext y
  show V m c main_arg1 (((cfg0.win 1).blk t).view.emb y) = V m c main_arg1 y
  obtain ⟨-, -, e0, e1⟩ := idx_in t
  refine congrArg (V m c main_arg1) ?_
  funext a; apply Fin.ext
  match a with
  | ⟨0, _⟩ =>
    show win0_1.index t (0 : Fin 2) * 16384 + 1 * (y 0).val = (y 0).val
    rw [e0]; omega
  | ⟨1, _⟩ =>
    show win0_1.index t (1 : Fin 2) * 32 + 1 * (y 1).val = (y 1).val
    rw [e1]; omega

end Cert.KernelIdeal.Hand

end
-- ==== Proof.KI.Invariant.lean ====
/-
  What the buffers hold after each point, as the layers' aggregates and embeddings. After stripe i of layer l: the
  user aggregate's window holds the stripe's rows of layer l's user aggregate and the user window the stripe's rows
  of layer l + 1's user embeddings; the item aggregate's window holds the running sum of the contributions of stripes
  0 … i; at the last stripe the item window holds layer l + 1's item embeddings; the user scratch holds layer l + 1's
  rows for the stripes done and layer l's for the rest; the item scratch holds layer l's item embeddings until the last
  stripe, then layer l + 1's. By induction on the point.
-/
import proofs.«129477_g20109036880396_cont_8to1_786_6_alg».proof.Proof.KI.Pieces
import proofs.«129477_g20109036880396_cont_8to1_786_6_alg».proof.Proof.KI.Blocks

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec

variable (m : (ℓ : Loc nD τ sig) → Buf (Elt Ideal) ℓ) (c : Dev nD)

/-- The adjacency and the input embeddings, read off the arrays. -/
abbrev aM : Mat := aOf (adjArr m c)
abbrev uM : Emb := uOf (embArr m c)
abbrev vM : Emb := vOf (embArr m c)

/-- The layer and the stripe of a point. -/
abbrev lay (t : Fin cfg0.N) : ℕ := t.val / 32
abbrev str (t : Fin cfg0.N) : ℕ := t.val % 32
theorem str_lt (t : Fin cfg0.N) : str t < 32 := Nat.mod_lt _ (by decide)

structure Inv (t : Fin cfg0.N) : Prop where
  o2 : ∀ (r : Fin 256) (d : Fin 32), (outsAt0 m c t.val t.isLt).o2 (ix3 (0 : Fin 1) r d)
        = aggU (aM m c) (latI (aM m c) (uM m c) (vM m c) (lay t)) (Cert.Spec.row ⟨str t, str_lt t⟩ r) d
  o3 : ∀ (r : Fin 256) (d : Fin 32), (outsAt0 m c t.val t.isLt).o3 (ix3 (0 : Fin 1) r d)
        = latU (aM m c) (uM m c) (vM m c) (lay t + 1) (Cert.Spec.row ⟨str t, str_lt t⟩ r) d
  o4 : ∀ (j : Fin 8192) (d : Fin 32), (outsAt0 m c t.val t.isLt).o4 (ix3 (0 : Fin 1) j d)
        = accI (aM m c) (latU (aM m c) (uM m c) (vM m c) (lay t)) (str t) (str_lt t) j d
  o5 : str t = 31 → ∀ (j : Fin 8192) (d : Fin 32), (outsAt0 m c t.val t.isLt).o5 (ix3 (0 : Fin 1) j d)
        = latI (aM m c) (uM m c) (vM m c) (lay t + 1) j d
  s0 : ∀ (r : Fin 8192) (d : Fin 32), (outsAt0 m c t.val t.isLt).s0 (ix2 r d)
        = if r.val < (str t + 1) * 256 then latU (aM m c) (uM m c) (vM m c) (lay t + 1) r d else latU (aM m c) (uM m c) (vM m c) (lay t) r d
  s1 : ∀ (j : Fin 8192) (d : Fin 32), (outsAt0 m c t.val t.isLt).s1 (ix2 j d)
        = if str t = 31 then latI (aM m c) (uM m c) (vM m c) (lay t + 1) j d else latI (aM m c) (uM m c) (vM m c) (lay t) j d

/-! ## The running sum, by cases on the stripe -/

theorem accI_of_zero (a : Mat) (u : Emb) : ∀ (i : ℕ) (h : i < 32), i = 0 → accI a u i h = contrib a u ⟨i, h⟩
  | 0, _, _ => rfl
  | i + 1, _, e => absurd e (Nat.succ_ne_zero i)

theorem accI_of_pos (a : Mat) (u : Emb) (j : Fin 8192) (d : Fin 32) :
    ∀ (i : ℕ) (h : i < 32) (hi : ¬i = 0),
      accI a u i h j d = accI a u (i - 1) (Nat.lt_of_le_of_lt (Nat.sub_le _ _) h) j d + contrib a u ⟨i, h⟩ j d
  | 0, _, hi => absurd rfl hi
  | i + 1, _, _ => rfl

theorem accI_of_last (a : Mat) (u : Emb) (i : ℕ) (h : i < 32) (hi : i = 31) : accI a u i h = aggI a u := by
  subst hi; exact accI_last a u h

/-! ## What a point computes from what it finds

  A point of stripe s and layer l finds the item embeddings of layer l in the item scratch (xs1) and, in the user
  scratch (xs0), layer l + 1's rows above the stripe and layer l's rows from the stripe on. -/

theorem hN96 (t : Fin cfg0.N) : t.val < 96 := t.isLt

/-- Row r of the adjacency's block is row r of the point's stripe. -/
theorem ablk_row (t : Fin cfg0.N) (r : Fin 256) (k : Fin 8192) :
    ablk m c t (ix2 r k) = aM m c (Cert.Spec.row ⟨str t, str_lt t⟩ r) k := by
  rw [ablk_apply m c t r k, stripeRow_coords t r]
  rfl

/-- The upper half of the embeddings' window is the input user embeddings, the lower half the input item embeddings. -/
theorem top_read (t : Fin cfg0.N) (r : Fin 8192) (d : Fin 32) :
    k0_pay5 (View.ld (eblk m c t) topR) (ix2 r d) = uM m c r d := by
  rw [pay5_eq, ld_top, eblk_eq]
  rfl

theorem bot_read (t : Fin cfg0.N) (r : Fin 8192) (d : Fin 32) :
    k0_pay6 (View.ld (eblk m c t) botR) (ix2 r d) = vM m c r d := by
  rw [pay6_eq, ld_bot, eblk_eq]
  rfl

section Point

variable (t : Fin cfg0.N) (xs0 xs1 : Vec Ideal S8192x32 .f32)

/-- The stripe's rows of the layer's user aggregate. -/
theorem agg_read (hs1 : ∀ (j : Fin 8192) (d : Fin 32), xs1 (ix2 j d) = latI (aM m c) (uM m c) (vM m c) (lay t) j d)
    (r : Fin 256) (d : Fin 32) :
    (∑ k : Fin 8192, ablk m c t (ix2 r k) * xs1 (ix2 k d))
      = aggU (aM m c) (latI (aM m c) (uM m c) (vM m c) (lay t)) (Cert.Spec.row ⟨str t, str_lt t⟩ r) d := by
  unfold aggU
  exact Finset.sum_congr rfl fun k _ => by rw [ablk_row m c t r k, hs1 k d]

/-- The stripe's rows of the user scratch are still layer l's. -/
theorem old_read
    (hs0 : ∀ (r : Fin 8192) (d : Fin 32), xs0 (ix2 r d)
      = if r.val < str t * 256 then latU (aM m c) (uM m c) (vM m c) (lay t + 1) r d else latU (aM m c) (uM m c) (vM m c) (lay t) r d)
    (r : Fin 256) (d : Fin 32) :
    View.ld xs0 (stripeR (grid0.coords t)) (ix2 r d)
      = latU (aM m c) (uM m c) (vM m c) (lay t) (Cert.Spec.row ⟨str t, str_lt t⟩ r) d := by
  rw [ld_stripe (grid0.coords t) xs0 r d, stripeRow_coords t r, hs0]
  exact if_neg (by rw [row_val]; show ¬(str t * 256 + r.val < str t * 256); omega)

/-- The stripe's new user rows are layer l + 1's. -/
theorem new_read (hs1 : ∀ (j : Fin 8192) (d : Fin 32), xs1 (ix2 j d) = latI (aM m c) (uM m c) (vM m c) (lay t) j d)
    (hs0 : ∀ (r : Fin 8192) (d : Fin 32), xs0 (ix2 r d)
      = if r.val < str t * 256 then latU (aM m c) (uM m c) (vM m c) (lay t + 1) r d else latU (aM m c) (uM m c) (vM m c) (lay t) r d)
    (r : Fin 256) (d : Fin 32) :
    (∑ k : Fin 8192, ablk m c t (ix2 r k) * xs1 (ix2 k d)) + View.ld xs0 (stripeR (grid0.coords t)) (ix2 r d)
      = latU (aM m c) (uM m c) (vM m c) (lay t + 1) (Cert.Spec.row ⟨str t, str_lt t⟩ r) d := by
  rw [agg_read m c t xs1 hs1 r d, old_read m c t xs0 hs0 r d, latU_succ]

/-- The stripe's contribution to the item aggregate. -/
theorem contrib_read
    (hs0 : ∀ (r : Fin 8192) (d : Fin 32), xs0 (ix2 r d)
      = if r.val < str t * 256 then latU (aM m c) (uM m c) (vM m c) (lay t + 1) r d else latU (aM m c) (uM m c) (vM m c) (lay t) r d)
    (j : Fin 8192) (d : Fin 32) :
    (∑ r : Fin 256, ablk m c t (ix2 r j) * View.ld xs0 (stripeR (grid0.coords t)) (ix2 r d))
      = contrib (aM m c) (latU (aM m c) (uM m c) (vM m c) (lay t)) ⟨str t, str_lt t⟩ j d := by
  unfold contrib
  exact Finset.sum_congr rfl fun r _ => by rw [ablk_row m c t r j, old_read m c t xs0 hs0 r d]

/-- The user scratch after the point: the stripe's rows replaced by the new rows, the others kept. -/
theorem s0_read (S : Vec Ideal S8192x32 .f32)
    (hs1 : ∀ (j : Fin 8192) (d : Fin 32), xs1 (ix2 j d) = latI (aM m c) (uM m c) (vM m c) (lay t) j d)
    (hs0 : ∀ (r : Fin 8192) (d : Fin 32), xs0 (ix2 r d)
      = if r.val < str t * 256 then latU (aM m c) (uM m c) (vM m c) (lay t + 1) r d else latU (aM m c) (uM m c) (vM m c) (lay t) r d)
    (hin : ∀ x : S256x32.Idx, S ((stripeR (grid0.coords t)).emb x)
      = k0_pay11 (F := Ideal) (ablk m c t) (View.ld xs0 (stripeR (grid0.coords t))) xs1 x)
    (hout : ∀ y : S8192x32.Idx, y ∉ (stripeR (grid0.coords t)).set → S y = xs0 y)
    (r : Fin 8192) (d : Fin 32) :
    S (ix2 r d) = if r.val < (str t + 1) * 256 then latU (aM m c) (uM m c) (vM m c) (lay t + 1) r d
      else latU (aM m c) (uM m c) (vM m c) (lay t) r d := by
  have hc : ((grid0.coords t) 1).val = str t := coords_stripe t
  by_cases hmem : str t * 256 ≤ r.val ∧ r.val < str t * 256 + 256
  · obtain ⟨hlo, hhi⟩ := hmem
    have er : r = Cert.Spec.row ⟨str t, str_lt t⟩ ⟨r.val - str t * 256, by omega⟩ :=
      Fin.ext (by rw [row_val]; show r.val = str t * 256 + (r.val - str t * 256); omega)
    have e1 : ix2 r d = (stripeR (grid0.coords t)).emb (ix2 (⟨r.val - str t * 256, by omega⟩ : Fin 256) d) := by
      rw [stripe_emb, stripeRow_coords, ← er]
    rw [e1, hin, pay11_apply, new_read m c t xs0 xs1 hs1 hs0, ← er]
    exact (if_pos (by omega)).symm
  · have hy : ix2 r d ∉ (stripeR (grid0.coords t)).set := fun h => by
      have h' := (stripe_mem_iff (grid0.coords t) (ix2 r d)).mp h
      rw [hc] at h'
      exact hmem h'
    rw [hout _ hy, hs0 r d]
    by_cases hlt : r.val < str t * 256
    · rw [if_pos hlt, if_pos (by omega)]
    · rw [if_neg hlt, if_neg (by omega)]

end Point

/-! ## The first point -/

section CaseA

/-- The two halves of the embeddings' window as the first point stores them in the scratch buffers. -/
abbrev u0blk (t : Fin cfg0.N) : Vec Ideal S8192x32 .f32 := k0_pay5 (F := Ideal) (View.ld (eblk m c t) topR)
abbrev v0blk (t : Fin cfg0.N) : Vec Ideal S8192x32 .f32 := k0_pay6 (F := Ideal) (View.ld (eblk m c t) botR)

variable (t : Fin cfg0.N) (h0 : t.val = 0)
include h0

/-- At the first point the item embeddings are the input's lower half, -/
theorem A_hs1 (j : Fin 8192) (d : Fin 32) :
    v0blk m c t (ix2 j d) = latI (aM m c) (uM m c) (vM m c) (lay t) j d := by
  have hl : lay t = 0 := by show t.val / 32 = 0; omega
  refine (bot_read m c t j d).trans ?_
  rw [hl]
  rfl

/-- and the user embeddings its upper half. -/
theorem A_hs0 (r : Fin 8192) (d : Fin 32) :
    u0blk m c t (ix2 r d)
      = if r.val < str t * 256 then latU (aM m c) (uM m c) (vM m c) (lay t + 1) r d else latU (aM m c) (uM m c) (vM m c) (lay t) r d := by
  have hl : lay t = 0 := by show t.val / 32 = 0; omega
  have hs : str t = 0 := by show t.val % 32 = 0; omega
  refine (top_read m c t r d).trans ?_
  rw [if_neg (by omega), hl]
  rfl

theorem A_o2 (r : Fin 256) (d : Fin 32) :
    (outsA m c t h0).o2 (ix3 (0 : Fin 1) r d) = aggU (aM m c) (latI (aM m c) (uM m c) (vM m c) (lay t)) (Cert.Spec.row ⟨str t, str_lt t⟩ r) d := by
  dsimp only [outsA]
  refine (congrFun (out0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t)) (ix3 (0 : Fin 1) r d)).trans ?_
  refine (pay8_apply (ablk m c t) (v0blk m c t) r d).trans ?_
  exact agg_read m c t (v0blk m c t) (A_hs1 m c t h0) r d

theorem A_o3 (r : Fin 256) (d : Fin 32) :
    (outsA m c t h0).o3 (ix3 (0 : Fin 1) r d) = latU (aM m c) (uM m c) (vM m c) (lay t + 1) (Cert.Spec.row ⟨str t, str_lt t⟩ r) d := by
  dsimp only [outsA]
  refine (congrFun (out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t)) (ix3 (0 : Fin 1) r d)).trans ?_
  refine (pay10_apply (ablk m c t) (View.ld (u0blk m c t) (stripeR (grid0.coords t))) (v0blk m c t) r d).trans ?_
  exact new_read m c t (u0blk m c t) (v0blk m c t) (A_hs1 m c t h0) (A_hs0 m c t h0) r d

theorem A_o4 (j : Fin 8192) (d : Fin 32) :
    (outsA m c t h0).o4 (ix3 (0 : Fin 1) j d) = accI (aM m c) (latU (aM m c) (uM m c) (vM m c) (lay t)) (str t) (str_lt t) j d := by
  have hs : str t = 0 := by show t.val % 32 = 0; omega
  dsimp only [outsA]
  refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t)) (ix3 (0 : Fin 1) j d)).trans ?_
  refine (pay13_apply (ablk m c t) (View.ld (u0blk m c t) (stripeR (grid0.coords t))) j d).trans ?_
  refine (contrib_read m c t (u0blk m c t) (A_hs0 m c t h0) j d).trans ?_
  exact (congrFun (congrFun (accI_of_zero (aM m c) (latU (aM m c) (uM m c) (vM m c) (lay t)) (str t) (str_lt t) hs) j) d).symm

theorem A_s0 (r : Fin 8192) (d : Fin 32) :
    (outsA m c t h0).s0 (ix2 r d) = if r.val < (str t + 1) * 256 then latU (aM m c) (uM m c) (vM m c) (lay t + 1) r d
      else latU (aM m c) (uM m c) (vM m c) (lay t) r d := by
  dsimp only [outsA]
  exact s0_read m c t (u0blk m c t) (v0blk m c t) _ (A_hs1 m c t h0) (A_hs0 m c t h0)
    (fun x => sout0_A_0_in (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t) x)
    (fun y hy => sout0_A_0_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t) y hy) r d

theorem A_s1 (j : Fin 8192) (d : Fin 32) :
    (outsA m c t h0).s1 (ix2 j d) = latI (aM m c) (uM m c) (vM m c) (lay t) j d := by
  dsimp only [outsA]
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseA_0 t h0) (caseA_1 t h0) (caseA_2 t h0) (caseA_3 t h0) (ablk m c t) (eblk m c t)) (ix2 j d)).trans ?_
  exact A_hs1 m c t h0 j d

end CaseA

/-! ## Stripe 0 of layers 1 and 2 -/

section CaseB

variable (t : Fin cfg0.N) (h0 : ¬t.val = 0) (h1 : t.val % 32 = 0) (P : Outs Ideal)

theorem B_o2 (hs1 : ∀ (j : Fin 8192) (d : Fin 32), P.s1 (ix2 j d) = latI (aM m c) (uM m c) (vM m c) (lay t) j d) (r : Fin 256) (d : Fin 32) :
    (outsB m c t h0 h1 P).o2 (ix3 (0 : Fin 1) r d) = aggU (aM m c) (latI (aM m c) (uM m c) (vM m c) (lay t)) (Cert.Spec.row ⟨str t, str_lt t⟩ r) d := by
  dsimp only [outsB]
  refine (congrFun (out0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (ablk m c t) (eblk m c t) P.s0 P.s1) (ix3 (0 : Fin 1) r d)).trans ?_
  refine (pay8_apply (ablk m c t) P.s1 r d).trans ?_
  exact agg_read m c t P.s1 hs1 r d

theorem B_o3 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 256) (d : Fin 32) :
    (outsB m c t h0 h1 P).o3 (ix3 (0 : Fin 1) r d) = latU (aM m c) (uM m c) (vM m c) (lay t + 1) (Cert.Spec.row ⟨str t, str_lt t⟩ r) d := by
  dsimp only [outsB]
  refine (congrFun (out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (ablk m c t) (eblk m c t) P.s0 P.s1) (ix3 (0 : Fin 1) r d)).trans ?_
  refine (pay10_apply (ablk m c t) (View.ld P.s0 (stripeR (grid0.coords t))) P.s1 r d).trans ?_
  exact new_read m c t P.s0 P.s1 hs1 hs0 r d

theorem B_o4 (hs0 : ∀ (r : Fin 8192) (d : Fin 32), P.s0 (ix2 r d)
      = if r.val < str t * 256 then latU (aM m c) (uM m c) (vM m c) (lay t + 1) r d else latU (aM m c) (uM m c) (vM m c) (lay t) r d) (j : Fin 8192) (d : Fin 32) :
    (outsB m c t h0 h1 P).o4 (ix3 (0 : Fin 1) j d) = accI (aM m c) (latU (aM m c) (uM m c) (vM m c) (lay t)) (str t) (str_lt t) j d := by
  dsimp only [outsB]
  refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (ablk m c t) (eblk m c t) P.s0 P.s1) (ix3 (0 : Fin 1) j d)).trans ?_
  refine (pay13_apply (ablk m c t) (View.ld P.s0 (stripeR (grid0.coords t))) j d).trans ?_
  rw [contrib_read m c t P.s0 hs0 j d, accI_of_zero (aM m c) (latU (aM m c) (uM m c) (vM m c) (lay t)) (str t) (str_lt t) h1]

theorem B_s0 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 8192) (d : Fin 32) :
    (outsB m c t h0 h1 P).s0 (ix2 r d) = if r.val < (str t + 1) * 256 then latU (aM m c) (uM m c) (vM m c) (lay t + 1) r d
      else latU (aM m c) (uM m c) (vM m c) (lay t) r d := by
  dsimp only [outsB]
  exact s0_read m c t P.s0 P.s1 _ hs1 hs0
    (fun x => sout0_B_0_in (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (ablk m c t) (eblk m c t) P.s0 P.s1 x)
    (fun y hy => sout0_B_0_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseB_0 t h0 h1) (caseB_1 t h0 h1) (caseB_2 t h0 h1) (caseB_3 t h0 h1) (ablk m c t) (eblk m c t) P.s0 P.s1 y hy) r d

end CaseB

/-! ## Stripes 1 … 30 -/

section CaseC

variable (t : Fin cfg0.N) (h1 : ¬t.val % 32 = 0) (h3 : ¬t.val % 32 = 31) (P : Outs Ideal)

theorem C_o2 (hs1 : ∀ (j : Fin 8192) (d : Fin 32), P.s1 (ix2 j d) = latI (aM m c) (uM m c) (vM m c) (lay t) j d) (r : Fin 256) (d : Fin 32) :
    (outsC m c t h1 h3 P).o2 (ix3 (0 : Fin 1) r d) = aggU (aM m c) (latI (aM m c) (uM m c) (vM m c) (lay t)) (Cert.Spec.row ⟨str t, str_lt t⟩ r) d := by
  dsimp only [outsC]
  refine (congrFun (out0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (ablk m c t) (eblk m c t) P.o4 P.s0 P.s1) (ix3 (0 : Fin 1) r d)).trans ?_
  refine (pay8_apply (ablk m c t) P.s1 r d).trans ?_
  exact agg_read m c t P.s1 hs1 r d

theorem C_o3 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 256) (d : Fin 32) :
    (outsC m c t h1 h3 P).o3 (ix3 (0 : Fin 1) r d) = latU (aM m c) (uM m c) (vM m c) (lay t + 1) (Cert.Spec.row ⟨str t, str_lt t⟩ r) d := by
  dsimp only [outsC]
  refine (congrFun (out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (ablk m c t) (eblk m c t) P.o4 P.s0 P.s1) (ix3 (0 : Fin 1) r d)).trans ?_
  refine (pay10_apply (ablk m c t) (View.ld P.s0 (stripeR (grid0.coords t))) P.s1 r d).trans ?_
  exact new_read m c t P.s0 P.s1 hs1 hs0 r d

theorem C_o4 (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    (outsC m c t h1 h3 P).o4 (ix3 (0 : Fin 1) j d) = accI (aM m c) (latU (aM m c) (uM m c) (vM m c) (lay t)) (str t) (str_lt t) j d := by
  dsimp only [outsC]
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (ablk m c t) (eblk m c t) P.o4 P.s0 P.s1) (ix3 (0 : Fin 1) j d)).trans ?_
  refine (pay1_pay12_apply (ablk m c t) (View.ld P.s0 (stripeR (grid0.coords t))) P.o4 j d).trans ?_
  rw [ho4 j d, contrib_read m c t P.s0 hs0 j d]
  exact (accI_of_pos (aM m c) (latU (aM m c) (uM m c) (vM m c) (lay t)) j d (str t) (str_lt t) h1).symm

theorem C_s0 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 8192) (d : Fin 32) :
    (outsC m c t h1 h3 P).s0 (ix2 r d) = if r.val < (str t + 1) * 256 then latU (aM m c) (uM m c) (vM m c) (lay t + 1) r d
      else latU (aM m c) (uM m c) (vM m c) (lay t) r d := by
  dsimp only [outsC]
  exact s0_read m c t P.s0 P.s1 _ hs1 hs0
    (fun x => sout0_C_0_in (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (ablk m c t) (eblk m c t) P.o4 P.s0 P.s1 x)
    (fun y hy => sout0_C_0_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseC_0 t h1 h3) (caseC_1 t h1 h3) (caseC_2 t h1 h3) (caseC_3 t h1 h3) (ablk m c t) (eblk m c t) P.o4 P.s0 P.s1 y hy) r d

end CaseC

/-! ## Stripe 31 -/

section CaseD

variable (t : Fin cfg0.N) (h3 : t.val % 32 = 31) (P : Outs Ideal)
include h3

theorem D_o2 (hs1 : ∀ (j : Fin 8192) (d : Fin 32), P.s1 (ix2 j d) = latI (aM m c) (uM m c) (vM m c) (lay t) j d) (r : Fin 256) (d : Fin 32) :
    (outsD m c t h3 P).o2 (ix3 (0 : Fin 1) r d) = aggU (aM m c) (latI (aM m c) (uM m c) (vM m c) (lay t)) (Cert.Spec.row ⟨str t, str_lt t⟩ r) d := by
  dsimp only [outsD]
  refine (congrFun (out0_D_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1) (ix3 (0 : Fin 1) r d)).trans ?_
  refine (pay8_apply (ablk m c t) P.s1 r d).trans ?_
  exact agg_read m c t P.s1 hs1 r d

theorem D_o3 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 256) (d : Fin 32) :
    (outsD m c t h3 P).o3 (ix3 (0 : Fin 1) r d) = latU (aM m c) (uM m c) (vM m c) (lay t + 1) (Cert.Spec.row ⟨str t, str_lt t⟩ r) d := by
  dsimp only [outsD]
  refine (congrFun (out0_D_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1) (ix3 (0 : Fin 1) r d)).trans ?_
  refine (pay10_apply (ablk m c t) (View.ld P.s0 (stripeR (grid0.coords t))) P.s1 r d).trans ?_
  exact new_read m c t P.s0 P.s1 hs1 hs0 r d

/-- The running sum after the last stripe, as the window's old contents + the stripe's contribution. -/
theorem D_acc (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    k0_pay1 (F := Ideal) (k0_pay12 (ablk m c t) (View.ld P.s0 (stripeR (grid0.coords t)))) P.o4 (ix3 (0 : Fin 1) j d)
      = accI (aM m c) (latU (aM m c) (uM m c) (vM m c) (lay t)) (str t) (str_lt t) j d := by
  have h1 : ¬t.val % 32 = 0 := fun h => by omega
  refine (pay1_pay12_apply (ablk m c t) (View.ld P.s0 (stripeR (grid0.coords t))) P.o4 j d).trans ?_
  rw [ho4 j d, contrib_read m c t P.s0 hs0 j d]
  exact (accI_of_pos (aM m c) (latU (aM m c) (uM m c) (vM m c) (lay t)) j d (str t) (str_lt t) h1).symm

theorem D_o4 (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    (outsD m c t h3 P).o4 (ix3 (0 : Fin 1) j d) = accI (aM m c) (latU (aM m c) (uM m c) (vM m c) (lay t)) (str t) (str_lt t) j d := by
  dsimp only [outsD]
  refine (congrFun (out0_D_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1) (ix3 (0 : Fin 1) j d)).trans ?_
  exact D_acc m c t h3 P hs0 ho4 j d

/-- After the last stripe the running sum is the item aggregate, and aggregate + old is the next layer's. -/
theorem D_next (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    k0_pay1 (F := Ideal) (k0_pay12 (ablk m c t) (View.ld P.s0 (stripeR (grid0.coords t)))) P.o4 (ix3 (0 : Fin 1) j d) + P.s1 (ix2 j d)
      = latI (aM m c) (uM m c) (vM m c) (lay t + 1) j d := by
  rw [D_acc m c t h3 P hs0 ho4 j d, hs1 j d, accI_of_last (aM m c) (latU (aM m c) (uM m c) (vM m c) (lay t)) (str t) (str_lt t) h3, latI_succ]

theorem D_o5 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    (outsD m c t h3 P).o5 (ix3 (0 : Fin 1) j d) = latI (aM m c) (uM m c) (vM m c) (lay t + 1) j d := by
  dsimp only [outsD]
  refine (congrFun (out0_D_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1) (ix3 (0 : Fin 1) j d)).trans ?_
  refine (pay3_apply (k0_pay1 (F := Ideal) (k0_pay12 (ablk m c t) (View.ld P.s0 (stripeR (grid0.coords t)))) P.o4) P.s1 j d).trans ?_
  exact D_next m c t h3 P hs1 hs0 ho4 j d

theorem D_s1 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d)
    (ho4 : ∀ (j : Fin 8192) (d : Fin 32), P.o4 (ix3 (0 : Fin 1) j d)
      = accI (aM m c) (latU (aM m c) (uM m c) (vM m c) (lay t)) (str t - 1) (Nat.lt_of_le_of_lt (Nat.sub_le _ _) (str_lt t)) j d) (j : Fin 8192) (d : Fin 32) :
    (outsD m c t h3 P).s1 (ix2 j d) = latI (aM m c) (uM m c) (vM m c) (lay t + 1) j d := by
  dsimp only [outsD]
  refine (congrFun (sout0_D_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1) (ix2 j d)).trans ?_
  refine (pay4_apply (k0_pay1 (F := Ideal) (k0_pay12 (ablk m c t) (View.ld P.s0 (stripeR (grid0.coords t)))) P.o4) P.s1 j d).trans ?_
  exact D_next m c t h3 P hs1 hs0 ho4 j d

theorem D_s0 (hs1 : ∀ (j : Fin 8192) (d : Fin 32), P.s1 (ix2 j d) = latI (aM m c) (uM m c) (vM m c) (lay t) j d)
    (hs0 : ∀ (r : Fin 8192) (d : Fin 32), P.s0 (ix2 r d)
      = if r.val < str t * 256 then latU (aM m c) (uM m c) (vM m c) (lay t + 1) r d else latU (aM m c) (uM m c) (vM m c) (lay t) r d) (r : Fin 8192) (d : Fin 32) :
    (outsD m c t h3 P).s0 (ix2 r d) = if r.val < (str t + 1) * 256 then latU (aM m c) (uM m c) (vM m c) (lay t + 1) r d
      else latU (aM m c) (uM m c) (vM m c) (lay t) r d := by
  dsimp only [outsD]
  exact s0_read m c t P.s0 P.s1 _ hs1 hs0
    (fun x => sout0_D_0_in (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1 x)
    (fun y hy => sout0_D_0_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc0_0 scM0_1 hsc0_1 (caseD_0 t h3) (caseD_1 t h3) (caseD_2 t h3) (caseD_3 t h3) (ablk m c t) (eblk m c t) P.o4 P.s0 P.s1 y hy) r d

end CaseD

/-! ## What a point finds, from what the point before left -/

/-- The point before t. -/
abbrev predPt (t : Fin cfg0.N) : Fin cfg0.N := ⟨t.val - 1, Nat.lt_of_le_of_lt (Nat.sub_le _ _) t.isLt⟩
abbrev prevOuts (t : Fin cfg0.N) : Outs Ideal := outsAt0 m c (t.val - 1) (Nat.lt_of_le_of_lt (Nat.sub_le _ _) t.isLt)

theorem accI_congr (a : Mat) (u u' : Emb) (i i' : ℕ) (h : i < 32) (h' : i' < 32) (eu : u = u') (ei : i = i') :
    accI a u i h = accI a u' i' h' := by
  subst eu; subst ei; rfl

section Prev

variable (t : Fin cfg0.N) (h0 : ¬t.val = 0) (I : Inv m c (predPt t))
include h0 I

/-- The item scratch holds the layer's item embeddings. -/
theorem prev_s1 (j : Fin 8192) (d : Fin 32) :
    (prevOuts m c t).s1 (ix2 j d) = latI (aM m c) (uM m c) (vM m c) (lay t) j d := by
  have hN := hN96 t
  refine (I.s1 j d).trans ?_
  show (if (t.val - 1) % 32 = 31 then latI (aM m c) (uM m c) (vM m c) ((t.val - 1) / 32 + 1) j d
      else latI (aM m c) (uM m c) (vM m c) ((t.val - 1) / 32) j d) = latI (aM m c) (uM m c) (vM m c) (t.val / 32) j d
  by_cases h1 : t.val % 32 = 0
  · have e1 : (t.val - 1) / 32 + 1 = t.val / 32 := by omega
    rw [if_pos (by omega), e1]
  · have e2 : (t.val - 1) / 32 = t.val / 32 := by omega
    rw [if_neg (by omega), e2]

/-- The user scratch holds the next layer's rows above the stripe and the layer's rows from the stripe on. -/
theorem prev_s0 (r : Fin 8192) (d : Fin 32) :
    (prevOuts m c t).s0 (ix2 r d)
      = if r.val < str t * 256 then latU (aM m c) (uM m c) (vM m c) (lay t + 1) r d else latU (aM m c) (uM m c) (vM m c) (lay t) r d := by
  have hN := hN96 t
  have hr : r.val < 8192 := r.isLt
  refine (I.s0 r d).trans ?_
  show (if r.val < ((t.val - 1) % 32 + 1) * 256 then latU (aM m c) (uM m c) (vM m c) ((t.val - 1) / 32 + 1) r d
      else latU (aM m c) (uM m c) (vM m c) ((t.val - 1) / 32) r d)
    = if r.val < t.val % 32 * 256 then latU (aM m c) (uM m c) (vM m c) (t.val / 32 + 1) r d
      else latU (aM m c) (uM m c) (vM m c) (t.val / 32) r d
  by_cases h1 : t.val % 32 = 0
  · have e1 : (t.val - 1) / 32 + 1 = t.val / 32 := by omega
    rw [if_pos (by omega), if_neg (by omega), e1]
  · have e1 : (t.val - 1) % 32 + 1 = t.val % 32 := by omega
    have e2 : (t.val - 1) / 32 = t.val / 32 := by omega
    rw [e1, e2]

/-- The item aggregate's window holds the running sum up to the stripe before. -/
theorem prev_o4 (h1 : ¬t.val % 32 = 0) (j : Fin 8192) (d : Fin 32) :
    (prevOuts m c t).o4 (ix3 (0 : Fin 1) j d)
      = accI (aM m c) (latU (aM m c) (uM m c) (vM m c) (lay t)) (str t - 1) (Nat.lt_of_le_of_lt (Nat.sub_le _ _) (str_lt t)) j d := by
  have hN := hN96 t
  refine (I.o4 j d).trans ?_
  have e1 : str (predPt t) = str t - 1 := by show (t.val - 1) % 32 = t.val % 32 - 1; omega
  have e2 : lay (predPt t) = lay t := by show (t.val - 1) / 32 = t.val / 32; omega
  exact congrFun (congrFun (accI_congr (aM m c) _ _ _ _ _ _ (congrArg (latU (aM m c) (uM m c) (vM m c)) e2) e1) j) d

end Prev

/-! ## The induction -/

theorem step_A (t : Fin cfg0.N) (h0 : t.val = 0) : Inv m c t := by
  have hs : ¬str t = 31 := by show ¬t.val % 32 = 31; omega
  refine ⟨?_, ?_, ?_, ?_, ?_, ?_⟩
  · intro r d; rw [outsAt0_A m c t h0]; exact A_o2 m c t h0 r d
  · intro r d; rw [outsAt0_A m c t h0]; exact A_o3 m c t h0 r d
  · intro j d; rw [outsAt0_A m c t h0]; exact A_o4 m c t h0 j d
  · intro h; exact absurd h hs
  · intro r d; rw [outsAt0_A m c t h0]; exact A_s0 m c t h0 r d
  · intro j d; rw [outsAt0_A m c t h0, if_neg hs]; exact A_s1 m c t h0 j d

theorem step_B (t : Fin cfg0.N) (h0 : ¬t.val = 0) (h1 : t.val % 32 = 0) (I : Inv m c (predPt t)) : Inv m c t := by
  have hs : ¬str t = 31 := by show ¬t.val % 32 = 31; omega
  have hs1 := prev_s1 m c t h0 I
  have hs0 := prev_s0 m c t h0 I
  refine ⟨?_, ?_, ?_, ?_, ?_, ?_⟩
  · intro r d; rw [outsAt0_B m c t h0 h1]; exact B_o2 m c t h0 h1 (prevOuts m c t) hs1 r d
  · intro r d; rw [outsAt0_B m c t h0 h1]; exact B_o3 m c t h0 h1 (prevOuts m c t) hs1 hs0 r d
  · intro j d; rw [outsAt0_B m c t h0 h1]; exact B_o4 m c t h0 h1 (prevOuts m c t) hs0 j d
  · intro h; exact absurd h hs
  · intro r d; rw [outsAt0_B m c t h0 h1]; exact B_s0 m c t h0 h1 (prevOuts m c t) hs1 hs0 r d
  · intro j d; rw [outsAt0_B m c t h0 h1, if_neg hs]; exact hs1 j d

theorem step_C (t : Fin cfg0.N) (h1 : ¬t.val % 32 = 0) (h3 : ¬t.val % 32 = 31) (I : Inv m c (predPt t)) : Inv m c t := by
  have h0 : ¬t.val = 0 := fun h => h1 (by omega)
  have hs1 := prev_s1 m c t h0 I
  have hs0 := prev_s0 m c t h0 I
  have ho4 := prev_o4 m c t h0 I h1
  refine ⟨?_, ?_, ?_, ?_, ?_, ?_⟩
  · intro r d; rw [outsAt0_C m c t h1 h3]; exact C_o2 m c t h1 h3 (prevOuts m c t) hs1 r d
  · intro r d; rw [outsAt0_C m c t h1 h3]; exact C_o3 m c t h1 h3 (prevOuts m c t) hs1 hs0 r d
  · intro j d; rw [outsAt0_C m c t h1 h3]; exact C_o4 m c t h1 h3 (prevOuts m c t) hs0 ho4 j d
  · intro h; exact absurd h h3
  · intro r d; rw [outsAt0_C m c t h1 h3]; exact C_s0 m c t h1 h3 (prevOuts m c t) hs1 hs0 r d
  · intro j d; rw [outsAt0_C m c t h1 h3, if_neg h3]; exact hs1 j d

theorem step_D (t : Fin cfg0.N) (h3 : t.val % 32 = 31) (I : Inv m c (predPt t)) : Inv m c t := by
  have h0 : ¬t.val = 0 := fun h => by omega
  have h1 : ¬t.val % 32 = 0 := fun h => by omega
  have hs1 := prev_s1 m c t h0 I
  have hs0 := prev_s0 m c t h0 I
  have ho4 := prev_o4 m c t h0 I h1
  refine ⟨?_, ?_, ?_, ?_, ?_, ?_⟩
  · intro r d; rw [outsAt0_D m c t h3]; exact D_o2 m c t h3 (prevOuts m c t) hs1 r d
  · intro r d; rw [outsAt0_D m c t h3]; exact D_o3 m c t h3 (prevOuts m c t) hs1 hs0 r d
  · intro j d; rw [outsAt0_D m c t h3]; exact D_o4 m c t h3 (prevOuts m c t) hs0 ho4 j d
  · intro _ j d; rw [outsAt0_D m c t h3]; exact D_o5 m c t h3 (prevOuts m c t) hs1 hs0 ho4 j d
  · intro r d; rw [outsAt0_D m c t h3]; exact D_s0 m c t h3 (prevOuts m c t) hs1 hs0 r d
  · intro j d; rw [outsAt0_D m c t h3, if_pos h3]; exact D_s1 m c t h3 (prevOuts m c t) hs1 hs0 ho4 j d

theorem inv_aux : ∀ (n : ℕ) (hn : n < cfg0.N), Inv m c ⟨n, hn⟩
  | 0, hn => step_A m c ⟨0, hn⟩ rfl
  | n + 1, hn => by
    have I : Inv m c (predPt ⟨n + 1, hn⟩) := inv_aux n (Nat.lt_of_succ_lt hn)
    by_cases h1 : (n + 1) % 32 = 0
    · exact step_B m c ⟨n + 1, hn⟩ (Nat.succ_ne_zero n) h1 I
    · by_cases h3 : (n + 1) % 32 = 31
      · exact step_D m c ⟨n + 1, hn⟩ h3 I
      · exact step_C m c ⟨n + 1, hn⟩ h1 h3 I

theorem inv (t : Fin cfg0.N) : Inv m c t := inv_aux m c t.val t.isLt

end Cert.KernelIdeal.Hand

end
-- ==== Proof.KI.Final.lean ====
/-
  The four result arrays after the run, entry by entry. The user aggregate's and the user embeddings' arrays are written
  back block by block, block (l, i) at point 32·l + i; the item arrays a layer at a time, layer l at point 32·l + 31.
  So entry (l, r, d) of the first two is what point 32·l + r / 256 left at row r % 256, and entry (l, j, d) of the last
  two what point 32·l + 31 left at row j.
-/
import proofs.«129477_g20109036880396_cont_8to1_786_6_alg».proof.Proof.KI.Invariant

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec

variable (m : (ℓ : Loc nD τ sig) → Buf (Elt Ideal) ℓ) (c : Dev nD)

/-- The four result arrays after the run, at their literal type. -/
abbrev W2 : Vec Ideal S3x8192x32 .f32 := (dats m 0 c).arrAt 2 cfg0.N
abbrev W3 : Vec Ideal S3x8192x32 .f32 := (dats m 0 c).arrAt 3 cfg0.N
abbrev W4 : Vec Ideal S3x8192x32 .f32 := (dats m 0 c).arrAt 4 cfg0.N
abbrev W5 : Vec Ideal S3x8192x32 .f32 := (dats m 0 c).arrAt 5 cfg0.N

/-! ## The results as functions of the whole index -/

/-- Entry (l, r, d) of the four results: the user aggregate and the item aggregate of layer l, the user and the item
    embeddings entering layer l + 1. -/
private def GU : Vec Ideal S3x8192x32 .f32 :=
  fun i => aggU (aM m c) (latI (aM m c) (uM m c) (vM m c) (i 0).val) (i 1) (i 2)
private def EU : Vec Ideal S3x8192x32 .f32 :=
  fun i => latU (aM m c) (uM m c) (vM m c) ((i 0).val + 1) (i 1) (i 2)
private def GI : Vec Ideal S3x8192x32 .f32 :=
  fun i => aggI (aM m c) (latU (aM m c) (uM m c) (vM m c) (i 0).val) (i 1) (i 2)
private def EI : Vec Ideal S3x8192x32 .f32 :=
  fun i => latI (aM m c) (uM m c) (vM m c) ((i 0).val + 1) (i 1) (i 2)

/-! ## Where the blocks sit -/

private theorem lay_lt (t : Fin cfg0.N) : lay t < 3 := by
  have h : t.val < 96 := lt_of_lt_of_eq t.isLt (show cfg0.N = 96 from N_0)
  show t.val / 32 < 3
  omega

/-- The four output windows' block indices over the grid: the user windows' block is (layer, stripe, 0), the item
    windows' block is (layer, 0, 0). -/
private theorem idx_out : ∀ t : Fin cfg0.N,
    (win0_2.index t (0 : Fin 3) = t.val / 32 ∧ win0_2.index t (1 : Fin 3) = t.val % 32 ∧ win0_2.index t (2 : Fin 3) = 0)
    ∧ (win0_3.index t (0 : Fin 3) = t.val / 32 ∧ win0_3.index t (1 : Fin 3) = t.val % 32 ∧ win0_3.index t (2 : Fin 3) = 0)
    ∧ (win0_4.index t (0 : Fin 3) = t.val / 32 ∧ win0_4.index t (1 : Fin 3) = 0 ∧ win0_4.index t (2 : Fin 3) = 0)
    ∧ (win0_5.index t (0 : Fin 3) = t.val / 32 ∧ win0_5.index t (1 : Fin 3) = 0 ∧ win0_5.index t (2 : Fin 3) = 0) :=
  (by decide +kernel : ∀ t : Fin grid0.N, _)

/-- Row r, feature d of the user aggregate's block at point t is entry (layer, stripe · 256 + r, d) of the array. -/
private theorem emb2 (t : Fin cfg0.N) (r : Fin 256) (d : Fin 32) :
    ((cfg0.win 2).blk t).view.emb (ix3 (0 : Fin 1) r d)
      = ix3 (⟨lay t, lay_lt t⟩ : Fin 3) (Cert.Spec.row ⟨str t, str_lt t⟩ r) d := by
  obtain ⟨⟨e0, e1, e2⟩, -, -, -⟩ := idx_out t
  funext a; apply Fin.ext
  match a with
  | ⟨0, _⟩ => show win0_2.index t (0 : Fin 3) * 1 + 1 * 0 = t.val / 32; rw [e0]; omega
  | ⟨1, _⟩ => show win0_2.index t (1 : Fin 3) * 256 + 1 * r.val = t.val % 32 * 256 + r.val; rw [e1]; omega
  | ⟨2, _⟩ => show win0_2.index t (2 : Fin 3) * 32 + 1 * d.val = d.val; rw [e2]; omega

private theorem emb3 (t : Fin cfg0.N) (r : Fin 256) (d : Fin 32) :
    ((cfg0.win 3).blk t).view.emb (ix3 (0 : Fin 1) r d)
      = ix3 (⟨lay t, lay_lt t⟩ : Fin 3) (Cert.Spec.row ⟨str t, str_lt t⟩ r) d := by
  obtain ⟨-, ⟨e0, e1, e2⟩, -, -⟩ := idx_out t
  funext a; apply Fin.ext
  match a with
  | ⟨0, _⟩ => show win0_3.index t (0 : Fin 3) * 1 + 1 * 0 = t.val / 32; rw [e0]; omega
  | ⟨1, _⟩ => show win0_3.index t (1 : Fin 3) * 256 + 1 * r.val = t.val % 32 * 256 + r.val; rw [e1]; omega
  | ⟨2, _⟩ => show win0_3.index t (2 : Fin 3) * 32 + 1 * d.val = d.val; rw [e2]; omega

/-- Row j, feature d of an item window's block at point t is entry (layer, j, d) of the array. -/
private theorem emb4 (t : Fin cfg0.N) (j : Fin 8192) (d : Fin 32) :
    ((cfg0.win 4).blk t).view.emb (ix3 (0 : Fin 1) j d) = ix3 (⟨lay t, lay_lt t⟩ : Fin 3) j d := by
  obtain ⟨-, -, ⟨e0, e1, e2⟩, -⟩ := idx_out t
  funext a; apply Fin.ext
  match a with
  | ⟨0, _⟩ => show win0_4.index t (0 : Fin 3) * 1 + 1 * 0 = t.val / 32; rw [e0]; omega
  | ⟨1, _⟩ => show win0_4.index t (1 : Fin 3) * 8192 + 1 * j.val = j.val; rw [e1]; omega
  | ⟨2, _⟩ => show win0_4.index t (2 : Fin 3) * 32 + 1 * d.val = d.val; rw [e2]; omega

private theorem emb5 (t : Fin cfg0.N) (j : Fin 8192) (d : Fin 32) :
    ((cfg0.win 5).blk t).view.emb (ix3 (0 : Fin 1) j d) = ix3 (⟨lay t, lay_lt t⟩ : Fin 3) j d := by
  obtain ⟨-, -, -, ⟨e0, e1, e2⟩⟩ := idx_out t
  funext a; apply Fin.ext
  match a with
  | ⟨0, _⟩ => show win0_5.index t (0 : Fin 3) * 1 + 1 * 0 = t.val / 32; rw [e0]; omega
  | ⟨1, _⟩ => show win0_5.index t (1 : Fin 3) * 8192 + 1 * j.val = j.val; rw [e1]; omega
  | ⟨2, _⟩ => show win0_5.index t (2 : Fin 3) * 32 + 1 * d.val = d.val; rw [e2]; omega

/-- Two blocks with one layer are equal when they agree at every (0, row, feature). -/
private theorem ext_one_layer {α : Type} {n1 n2 : ℕ} (f g : (⟨3, ![1, n1, n2]⟩ : Shape).Idx → α)
    (h : ∀ (r : Fin n1) (d : Fin n2), f (ix3 (0 : Fin 1) r d) = g (ix3 (0 : Fin 1) r d)) : f = g := by
  funext y
  have hy : y = ix3 (0 : Fin 1) (y 1 : Fin n1) (y 2 : Fin n2) := by
    funext a
    match a with
    | ⟨0, _⟩ => exact Fin.ext (by have h0 : (y 0).val < 1 := (y 0).isLt; show (y 0).val = 0; omega)
    | ⟨1, _⟩ => rfl
    | ⟨2, _⟩ => rfl
  rw [hy]; exact h _ _

/-! ## What each point writes back is its block of the result -/

private theorem flushed2_eq (t : Fin cfg0.N) :
    (dats m 0 c).flushed 2 t = ((cfg0.win 2).blk t).view.read (Elt Ideal) (GU m c) := by
  show (cfg0.win 2).cut (grid0.coords t) ((dats m 0 c).after 2 t) = _
  rw [after0_2]
  refine ext_one_layer (n1 := 256) (n2 := 32) _ _ fun r d => ?_
  show (outsAt0 m c t.val t.isLt).o2 (ix3 (0 : Fin 1) r d) = GU m c (((cfg0.win 2).blk t).view.emb (ix3 (0 : Fin 1) r d))
  rw [emb2 t, (inv m c t).o2]
  rfl

private theorem flushed3_eq (t : Fin cfg0.N) :
    (dats m 0 c).flushed 3 t = ((cfg0.win 3).blk t).view.read (Elt Ideal) (EU m c) := by
  show (cfg0.win 3).cut (grid0.coords t) ((dats m 0 c).after 3 t) = _
  rw [after0_3]
  refine ext_one_layer (n1 := 256) (n2 := 32) _ _ fun r d => ?_
  show (outsAt0 m c t.val t.isLt).o3 (ix3 (0 : Fin 1) r d) = EU m c (((cfg0.win 3).blk t).view.emb (ix3 (0 : Fin 1) r d))
  rw [emb3 t, (inv m c t).o3]
  rfl

/-- At a layer's last stripe the running sum is the layer's item aggregate. -/
private theorem accI_at_last (a : Mat) (u : Emb) (i : ℕ) (h : i < 32) (e : i = 31) : accI a u i h = aggI a u := by
  subst e; exact accI_last a u h

private theorem flushed4_eq (t : Fin cfg0.N) (hf : (cfg0.win 4).flush t = true) :
    (dats m 0 c).flushed 4 t = ((cfg0.win 4).blk t).view.read (Elt Ideal) (GI m c) := by
  have hs : str t = 31 := (flush0_4 t).mp hf
  show (cfg0.win 4).cut (grid0.coords t) ((dats m 0 c).after 4 t) = _
  rw [after0_4]
  refine ext_one_layer (n1 := 8192) (n2 := 32) _ _ fun j d => ?_
  show (outsAt0 m c t.val t.isLt).o4 (ix3 (0 : Fin 1) j d) = GI m c (((cfg0.win 4).blk t).view.emb (ix3 (0 : Fin 1) j d))
  rw [emb4 t, (inv m c t).o4, accI_at_last _ _ _ _ hs]
  rfl

private theorem flushed5_eq (t : Fin cfg0.N) (hf : (cfg0.win 5).flush t = true) :
    (dats m 0 c).flushed 5 t = ((cfg0.win 5).blk t).view.read (Elt Ideal) (EI m c) := by
  have hs : str t = 31 := (flush0_5 t).mp hf
  show (cfg0.win 5).cut (grid0.coords t) ((dats m 0 c).after 5 t) = _
  rw [after0_5]
  refine ext_one_layer (n1 := 8192) (n2 := 32) _ _ fun j d => ?_
  show (outsAt0 m c t.val t.isLt).o5 (ix3 (0 : Fin 1) j d) = EI m c (((cfg0.win 5).blk t).view.emb (ix3 (0 : Fin 1) j d))
  rw [emb5 t, (inv m c t).o5 hs]
  rfl

/-! ## The blocks cover the arrays -/

private theorem mem_blk2 (t : Fin cfg0.N) (i : S3x8192x32.Idx) :
    i ∈ ((cfg0.win 2).blk t).view.set ↔ ∀ a : Fin 3, win0_2.index t a * S1x256x32.size a ≤ (i a).val ∧ (i a).val < win0_2.index t a * S1x256x32.size a + S1x256x32.size a := by
  show i ∈ ((View.whole main_v0_0).slice (win0_2.rect t)).set ↔ _
  rw [View.set_slice_whole, Rect.mem_set_unit]
  exact Iff.rfl

private theorem mem_blk3 (t : Fin cfg0.N) (i : S3x8192x32.Idx) :
    i ∈ ((cfg0.win 3).blk t).view.set ↔ ∀ a : Fin 3, win0_3.index t a * S1x256x32.size a ≤ (i a).val ∧ (i a).val < win0_3.index t a * S1x256x32.size a + S1x256x32.size a := by
  show i ∈ ((View.whole main_v0_1).slice (win0_3.rect t)).set ↔ _
  rw [View.set_slice_whole, Rect.mem_set_unit]
  exact Iff.rfl

private theorem mem_blk4 (t : Fin cfg0.N) (i : S3x8192x32.Idx) :
    i ∈ ((cfg0.win 4).blk t).view.set ↔ ∀ a : Fin 3, win0_4.index t a * S1x8192x32.size a ≤ (i a).val ∧ (i a).val < win0_4.index t a * S1x8192x32.size a + S1x8192x32.size a := by
  show i ∈ ((View.whole main_v0_2).slice (win0_4.rect t)).set ↔ _
  rw [View.set_slice_whole, Rect.mem_set_unit]
  exact Iff.rfl

private theorem mem_blk5 (t : Fin cfg0.N) (i : S3x8192x32.Idx) :
    i ∈ ((cfg0.win 5).blk t).view.set ↔ ∀ a : Fin 3, win0_5.index t a * S1x8192x32.size a ≤ (i a).val ∧ (i a).val < win0_5.index t a * S1x8192x32.size a + S1x8192x32.size a := by
  show i ∈ ((View.whole main_v0_3).slice (win0_5.rect t)).set ↔ _
  rw [View.set_slice_whole, Rect.mem_set_unit]
  exact Iff.rfl

/-- The point of layer l, stripe s. -/
private def pt (l s : ℕ) (hl : l < 3) (hs : s < 32) : Fin cfg0.N :=
  ⟨32 * l + s, by rw [show cfg0.N = 96 from N_0]; omega⟩

/-- Entry (l, r, d) of a user array is in the block of point 32·l + r / 256. -/
private theorem cover2 (i : S3x8192x32.Idx) :
    ∃ t : Fin cfg0.N, (cfg0.win 2).flush t = true ∧ i ∈ ((cfg0.win 2).blk t).view.set := by
  have h0 : (i 0).val < 3 := (i 0).isLt
  have h1 : (i 1).val < 8192 := (i 1).isLt
  have h2 : (i 2).val < 32 := (i 2).isLt
  refine ⟨pt (i 0).val ((i 1).val / 256) h0 (by omega), flush0_2 _, ?_⟩
  rw [mem_blk2]
  obtain ⟨⟨e0, e1, e2⟩, -, -, -⟩ := idx_out (pt (i 0).val ((i 1).val / 256) h0 (by omega))
  have ev : (pt (i 0).val ((i 1).val / 256) h0 (by omega)).val = 32 * (i 0).val + (i 1).val / 256 := rfl
  rw [ev] at e0 e1
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 256 ≤ (i 1).val ∧ (i 1).val < win0_2.index _ (1 : Fin 3) * 256 + 256; rw [e1]; omega
  | ⟨2, _⟩ => show win0_2.index _ (2 : Fin 3) * 32 ≤ (i 2).val ∧ (i 2).val < win0_2.index _ (2 : Fin 3) * 32 + 32; rw [e2]; omega

private theorem cover3 (i : S3x8192x32.Idx) :
    ∃ t : Fin cfg0.N, (cfg0.win 3).flush t = true ∧ i ∈ ((cfg0.win 3).blk t).view.set := by
  have h0 : (i 0).val < 3 := (i 0).isLt
  have h1 : (i 1).val < 8192 := (i 1).isLt
  have h2 : (i 2).val < 32 := (i 2).isLt
  refine ⟨pt (i 0).val ((i 1).val / 256) h0 (by omega), flush0_3 _, ?_⟩
  rw [mem_blk3]
  obtain ⟨-, ⟨e0, e1, e2⟩, -, -⟩ := idx_out (pt (i 0).val ((i 1).val / 256) h0 (by omega))
  have ev : (pt (i 0).val ((i 1).val / 256) h0 (by omega)).val = 32 * (i 0).val + (i 1).val / 256 := rfl
  rw [ev] at e0 e1
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 256 ≤ (i 1).val ∧ (i 1).val < win0_3.index _ (1 : Fin 3) * 256 + 256; rw [e1]; omega
  | ⟨2, _⟩ => show win0_3.index _ (2 : Fin 3) * 32 ≤ (i 2).val ∧ (i 2).val < win0_3.index _ (2 : Fin 3) * 32 + 32; rw [e2]; omega

/-- Entry (l, j, d) of an item array is in the block of point 32·l + 31. -/
private theorem cover4 (i : S3x8192x32.Idx) :
    ∃ t : Fin cfg0.N, (cfg0.win 4).flush t = true ∧ i ∈ ((cfg0.win 4).blk t).view.set := by
  have h0 : (i 0).val < 3 := (i 0).isLt
  have h1 : (i 1).val < 8192 := (i 1).isLt
  have h2 : (i 2).val < 32 := (i 2).isLt
  have ev : (pt (i 0).val 31 h0 (by omega)).val = 32 * (i 0).val + 31 := rfl
  refine ⟨pt (i 0).val 31 h0 (by omega), (flush0_4 _).mpr (by rw [ev]; omega), ?_⟩
  rw [mem_blk4]
  obtain ⟨-, -, ⟨e0, e1, e2⟩, -⟩ := idx_out (pt (i 0).val 31 h0 (by omega))
  rw [ev] at e0
  intro a
  match a with
  | ⟨0, _⟩ => show win0_4.index _ (0 : Fin 3) * 1 ≤ (i 0).val ∧ (i 0).val < win0_4.index _ (0 : Fin 3) * 1 + 1; rw [e0]; omega
  | ⟨1, _⟩ => show win0_4.index _ (1 : Fin 3) * 8192 ≤ (i 1).val ∧ (i 1).val < win0_4.index _ (1 : Fin 3) * 8192 + 8192; rw [e1]; omega
  | ⟨2, _⟩ => show win0_4.index _ (2 : Fin 3) * 32 ≤ (i 2).val ∧ (i 2).val < win0_4.index _ (2 : Fin 3) * 32 + 32; rw [e2]; omega

private theorem cover5 (i : S3x8192x32.Idx) :
    ∃ t : Fin cfg0.N, (cfg0.win 5).flush t = true ∧ i ∈ ((cfg0.win 5).blk t).view.set := by
  have h0 : (i 0).val < 3 := (i 0).isLt
  have h1 : (i 1).val < 8192 := (i 1).isLt
  have h2 : (i 2).val < 32 := (i 2).isLt
  have ev : (pt (i 0).val 31 h0 (by omega)).val = 32 * (i 0).val + 31 := rfl
  refine ⟨pt (i 0).val 31 h0 (by omega), (flush0_5 _).mpr (by rw [ev]; omega), ?_⟩
  rw [mem_blk5]
  obtain ⟨-, -, -, ⟨e0, e1, e2⟩⟩ := idx_out (pt (i 0).val 31 h0 (by omega))
  rw [ev] at e0
  intro a
  match a with
  | ⟨0, _⟩ => show win0_5.index _ (0 : Fin 3) * 1 ≤ (i 0).val ∧ (i 0).val < win0_5.index _ (0 : Fin 3) * 1 + 1; rw [e0]; omega
  | ⟨1, _⟩ => show win0_5.index _ (1 : Fin 3) * 8192 ≤ (i 1).val ∧ (i 1).val < win0_5.index _ (1 : Fin 3) * 8192 + 8192; rw [e1]; omega
  | ⟨2, _⟩ => show win0_5.index _ (2 : Fin 3) * 32 ≤ (i 2).val ∧ (i 2).val < win0_5.index _ (2 : Fin 3) * 32 + 32; rw [e2]; omega

/-! ## The arrays after the run -/

private theorem W2_eq : W2 m c = GU m c :=
  (dats m 0 c).arrAt_eq_of_cover 2 (GU m c) (fun t _ => flushed2_eq m c t) cover2

private theorem W3_eq : W3 m c = EU m c :=
  (dats m 0 c).arrAt_eq_of_cover 3 (EU m c) (fun t _ => flushed3_eq m c t) cover3

private theorem W4_eq : W4 m c = GI m c :=
  (dats m 0 c).arrAt_eq_of_cover 4 (GI m c) (flushed4_eq m c) cover4

private theorem W5_eq : W5 m c = EI m c :=
  (dats m 0 c).arrAt_eq_of_cover 5 (EI m c) (flushed5_eq m c) cover5

theorem W2_apply (l : Fin 3) (r : Fin 8192) (d : Fin 32) :
    W2 m c (ix3 l r d) = aggU (aM m c) (latI (aM m c) (uM m c) (vM m c) l.val) r d := by
  rw [W2_eq]; rfl

theorem W3_apply (l : Fin 3) (r : Fin 8192) (d : Fin 32) :
    W3 m c (ix3 l r d) = latU (aM m c) (uM m c) (vM m c) (l.val + 1) r d := by
  rw [W3_eq]; rfl

theorem W4_apply (l : Fin 3) (j : Fin 8192) (d : Fin 32) :
    W4 m c (ix3 l j d) = aggI (aM m c) (latU (aM m c) (uM m c) (vM m c) l.val) j d := by
  rw [W4_eq]; rfl

theorem W5_apply (l : Fin 3) (j : Fin 8192) (d : Fin 32) :
    W5 m c (ix3 l j d) = latI (aM m c) (uM m c) (vM m c) (l.val + 1) j d := by
  rw [W5_eq]; rfl

end Cert.KernelIdeal.Hand

end
-- ==== Proof.KI.Tail.lean ====
/-
  The host lines after the region, read at an index. Each of the six results is a concatenation of a layer of a user
  array (rows 0 … 8191) and the same layer of an item array (rows 8192 … 16383): the layer is sliced out of the
  3 × 8192 × 32 array and reshaped to 8192 × 32, which moves nothing.
-/
import proofs.«129477_g20109036880396_cont_8to1_786_6_alg».proof.Proof.KI.Final
import Idealize.ShloMosaic.Lib.StableHlo.Run

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec

variable (m : (ℓ : Loc nD τ sig) → Buf (Elt Ideal) ℓ) (c : Dev nD)

/-- Row r below 8192 from layer l of the array U, row r from 8192 on from layer l of the array I (at row r − 8192). -/
def joinAt (U I : Vec Ideal S3x8192x32 .f32) (l : Fin 3) (r : Fin 16384) (d : Fin 32) : EReal :=
  if h : r.val < 8192 then U (ix3 l ⟨r.val, h⟩ d)
  else I (ix3 l ⟨r.val - 8192, by have := r.isLt; omega⟩ d)

/-- The same as an array of the embeddings' shape. -/
def joinLayer (U I : Vec Ideal S3x8192x32 .f32) (l : Fin 3) : Vec Ideal S16384x32 .f32 := fun i => joinAt U I l (i 0) (i 1)

/-- What the host lines leave in a reference of the program, over the arrays the run ended with. -/
abbrev tailAt (b : Ref sig .tc) : Buf (Elt Ideal) ((c.tc : Thread nD τ).loc b) :=
  Pipeline.afterTail₀ cfgs (dats m) 0 (V0 m) [hostOps1] c b

/-- Layer l of a 3 × 8192 × 32 array, sliced out at offsets (l, 0, 0) and reshaped to 8192 × 32, read at (r, d), is the
    array at (l, r, d): the reshape drops a unit axis, so the row-major position r · 32 + d is kept, and the slice
    shifts the first coordinate by l. -/
theorem layer_apply {α : Type} (U : S3x8192x32.Idx → α) (off : Fin 3 → Nat) (hs : S3x8192x32.Slices off S1x8192x32)
    (hc : S1x8192x32.ShapeCasts S8192x32) (l : Fin 3) (h0 : off 0 = l.val) (h1 : off 1 = 0) (h2 : off 2 = 0)
    (r : Fin 8192) (d : Fin 32) :
    shapeCast S8192x32 (extractStridedSlice S1x8192x32 off U hs) hc (ix2 r d) = U (ix3 l r d) := by
  refine (shapeCast_apply _ hc (ix2 r d) (ix3 (0 : Fin 1) r d) ?_).trans ?_
  · rw [Shape.rowMajor_val_three, Shape.rowMajor_val_two]
    show ((0 : Nat) * 8192 + r.val) * 32 + d.val = r.val * 32 + d.val
    omega
  · exact extractStridedSlice_apply off U hs (ix3 (0 : Fin 1) r d) (ix3 l r d) (fun a => match a with
      | ⟨0, _⟩ => by show l.val = off 0 + 0; omega
      | ⟨1, _⟩ => by show r.val = off 1 + r.val; omega
      | ⟨2, _⟩ => by show d.val = off 2 + d.val; omega)

/-- Layer l of U and layer l of I laid end to end along the rows: a row below 8192 falls in the first piece, a row
    from 8192 on in the second, 8192 rows further up. -/
theorem join_eq (U I : Vec Ideal S3x8192x32 .f32) (off : Fin 3 → Nat) (hs : S3x8192x32.Slices off S1x8192x32)
    (hc : S1x8192x32.ShapeCasts S8192x32) (hcat : Shape.Concatenates [S8192x32, S8192x32] S16384x32 0)
    (l : Fin 3) (h0 : off 0 = l.val) (h1 : off 1 = 0) (h2 : off 2 = 0) :
    concatenate S16384x32 0 [⟨S8192x32, shapeCast S8192x32 (extractStridedSlice S1x8192x32 off U hs) hc⟩,
      ⟨S8192x32, shapeCast S8192x32 (extractStridedSlice S1x8192x32 off I hs) hc⟩] hcat = joinLayer U I l := by
  funext j
  show _ = joinAt U I l (j 0) (j 1)
  unfold joinAt
  by_cases hj : (j 0).val < 8192
  · rw [dif_pos hj]
    refine (concatenate_pair_apply_left (t := S16384x32) (s₁ := S8192x32) (s₂ := S8192x32) (0 : Fin 2) _ _ hcat j rfl
      (ix2 (⟨(j 0).val, hj⟩ : Fin 8192) (j 1)) (fun b => match b with
      | ⟨0, _⟩ => rfl
      | ⟨1, _⟩ => rfl)).trans ?_
    exact layer_apply U off hs hc l h0 h1 h2 _ _
  · rw [dif_neg hj]
    have hlt : (j 0).val < 16384 := (j 0).isLt
    refine (concatenate_pair_apply_right (t := S16384x32) (s₁ := S8192x32) (s₂ := S8192x32) (0 : Fin 2) _ _ hcat j rfl rfl
      (ix2 (⟨(j 0).val - 8192, by omega⟩ : Fin 8192) (j 1)) (fun b => match b with
      | ⟨0, _⟩ => fun hb => absurd rfl hb
      | ⟨1, _⟩ => fun _ => rfl) ?_).trans ?_
    · show (j 0).val - 8192 + 8192 = (j 0).val
      omega
    · exact layer_apply I off hs hc l h0 h1 h2 _ _

/-- The four result arrays as the host lines read them: each is the array its window ended with. -/
theorem arr_W2 : Pipeline.withArrays spec0 c (V0 m c) (fun w => (dats m 0 c).arrAt w cfg0.N) (Proc.devRef .tc main_v0_0) = W2 m c :=
  Pipeline.withArrays_arr spec0 launch0.win.arr_inj c _ _ 2
theorem arr_W3 : Pipeline.withArrays spec0 c (V0 m c) (fun w => (dats m 0 c).arrAt w cfg0.N) (Proc.devRef .tc main_v0_1) = W3 m c :=
  Pipeline.withArrays_arr spec0 launch0.win.arr_inj c _ _ 3
theorem arr_W4 : Pipeline.withArrays spec0 c (V0 m c) (fun w => (dats m 0 c).arrAt w cfg0.N) (Proc.devRef .tc main_v0_2) = W4 m c :=
  Pipeline.withArrays_arr spec0 launch0.win.arr_inj c _ _ 4
theorem arr_W5 : Pipeline.withArrays spec0 c (V0 m c) (fun w => (dats m 0 c).arrAt w cfg0.N) (Proc.devRef .tc main_v0_3) = W5 m c :=
  Pipeline.withArrays_arr spec0 launch0.win.arr_inj c _ _ 5

theorem tail_v5 : tailAt m c main_v5 = joinLayer (W2 m c) (W4 m c) 0 := by
  unfold tailAt Pipeline.afterTail₀
  show StableHlo.after hostOps1 _ (Proc.devRef .tc main_v5) = _
  after_results
  rw [arr_W2 m c, arr_W4 m c]
  exact join_eq (W2 m c) (W4 m c) ![0, 0, 0] slices_S3x8192x32_S1x8192x32_0_0_0 shapeCasts_S1x8192x32_S8192x32
    concatenates_S8192x32_S8192x32_S16384x32_d0 0 rfl rfl rfl
theorem tail_v10 : tailAt m c main_v10 = joinLayer (W3 m c) (W5 m c) 0 := by
  unfold tailAt Pipeline.afterTail₀
  show StableHlo.after hostOps1 _ (Proc.devRef .tc main_v10) = _
  after_results
  rw [arr_W3 m c, arr_W5 m c]
  exact join_eq (W3 m c) (W5 m c) ![0, 0, 0] slices_S3x8192x32_S1x8192x32_0_0_0 shapeCasts_S1x8192x32_S8192x32
    concatenates_S8192x32_S8192x32_S16384x32_d0 0 rfl rfl rfl
theorem tail_v15 : tailAt m c main_v15 = joinLayer (W2 m c) (W4 m c) 1 := by
  unfold tailAt Pipeline.afterTail₀
  show StableHlo.after hostOps1 _ (Proc.devRef .tc main_v15) = _
  after_results
  rw [arr_W2 m c, arr_W4 m c]
  exact join_eq (W2 m c) (W4 m c) ![1, 0, 0] slices_S3x8192x32_S1x8192x32_1_0_0 shapeCasts_S1x8192x32_S8192x32
    concatenates_S8192x32_S8192x32_S16384x32_d0 1 rfl rfl rfl
theorem tail_v20 : tailAt m c main_v20 = joinLayer (W3 m c) (W5 m c) 1 := by
  unfold tailAt Pipeline.afterTail₀
  show StableHlo.after hostOps1 _ (Proc.devRef .tc main_v20) = _
  after_results
  rw [arr_W3 m c, arr_W5 m c]
  exact join_eq (W3 m c) (W5 m c) ![1, 0, 0] slices_S3x8192x32_S1x8192x32_1_0_0 shapeCasts_S1x8192x32_S8192x32
    concatenates_S8192x32_S8192x32_S16384x32_d0 1 rfl rfl rfl
theorem tail_v25 : tailAt m c main_v25 = joinLayer (W2 m c) (W4 m c) 2 := by
  unfold tailAt Pipeline.afterTail₀
  show StableHlo.after hostOps1 _ (Proc.devRef .tc main_v25) = _
  after_results
  rw [arr_W2 m c, arr_W4 m c]
  exact join_eq (W2 m c) (W4 m c) ![2, 0, 0] slices_S3x8192x32_S1x8192x32_2_0_0 shapeCasts_S1x8192x32_S8192x32
    concatenates_S8192x32_S8192x32_S16384x32_d0 2 rfl rfl rfl
theorem tail_v30 : tailAt m c main_v30 = joinLayer (W3 m c) (W5 m c) 2 := by
  unfold tailAt Pipeline.afterTail₀
  show StableHlo.after hostOps1 _ (Proc.devRef .tc main_v30) = _
  after_results
  rw [arr_W3 m c, arr_W5 m c]
  exact join_eq (W3 m c) (W5 m c) ![2, 0, 0] slices_S3x8192x32_S1x8192x32_2_0_0 shapeCasts_S1x8192x32_S8192x32
    concatenates_S8192x32_S8192x32_S16384x32_d0 2 rfl rfl rfl

end Cert.KernelIdeal.Hand

end
-- ==== Proof.KI.Value.lean ====
/-
  The idealized kernel's run with its results named: the six computed results are the layers' aggregates and embeddings,
  the embeddings themselves are returned unchanged, and both arguments end as they began.
-/
import proofs.«129477_g20109036880396_cont_8to1_786_6_alg».proof.Proof.KI.Tail

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec

variable (m : (ℓ : Loc nD τ sig) → Buf (Elt Ideal) ℓ) (ρ : Dev nD → PrngReg)

/-- A layer of the user aggregate over a layer of the item aggregate is the layer's aggregate; -/
theorem join_gcn (c : Dev nD) (l : Fin 3) : joinLayer (W2 m c) (W4 m c) l = gcnArr (adjArr m c) (embArr m c) l.val := by
  have key : ∀ (r : Fin 16384) (d : Fin 32), joinAt (W2 m c) (W4 m c) l r d = gcnAt (aM m c) (uM m c) (vM m c) l.val r d := by
    intro r d
    unfold joinAt gcnAt
    split
    · rw [W2_apply]
    · rw [W4_apply]
  funext i
  exact key (i 0) (i 1)

/-- a layer of the new user embeddings over a layer of the new item embeddings is the next layer's embeddings. -/
theorem join_lat (c : Dev nD) (l : Fin 3) : joinLayer (W3 m c) (W5 m c) l = latArr (adjArr m c) (embArr m c) (l.val + 1) := by
  have key : ∀ (r : Fin 16384) (d : Fin 32), joinAt (W3 m c) (W5 m c) l r d = latAt (aM m c) (uM m c) (vM m c) (l.val + 1) r d := by
    intro r d
    unfold joinAt latAt
    split
    · rw [W3_apply]
    · rw [W5_apply]
  funext i
  exact key (i 0) (i 1)

/-- A host result is no array of the pipeline and is not scoped: the run's post speaks of it. -/
theorem mem_rest (b : Ref sig .tc) (hs : b.isScoped = false) (ha : ∀ w, (spec0 w).arr.view.ref ≠ b) :
    b ∈ Pipeline.restRefs sig spec0 := Pipeline.mem_restRefs_of b hs ha

theorem kernel_run : θ_run defs (onTc (τ := τ) (main (F := Ideal))) ⟨m, fun _ => 0, ρ⟩ (fun r => ∀ c : Dev nD,
      r.2.mem ((c.tc : Thread nD τ).loc main_arg1) = m ((c.tc : Thread nD τ).loc main_arg1)
      ∧ r.2.mem ((c.tc : Thread nD τ).loc main_v10) = latArr (m ((c.tc : Thread nD τ).loc main_arg0)) (m ((c.tc : Thread nD τ).loc main_arg1)) 1
      ∧ r.2.mem ((c.tc : Thread nD τ).loc main_v20) = latArr (m ((c.tc : Thread nD τ).loc main_arg0)) (m ((c.tc : Thread nD τ).loc main_arg1)) 2
      ∧ r.2.mem ((c.tc : Thread nD τ).loc main_v30) = latArr (m ((c.tc : Thread nD τ).loc main_arg0)) (m ((c.tc : Thread nD τ).loc main_arg1)) 3
      ∧ r.2.mem ((c.tc : Thread nD τ).loc main_arg1) = m ((c.tc : Thread nD τ).loc main_arg1)
      ∧ r.2.mem ((c.tc : Thread nD τ).loc main_v5) = gcnArr (m ((c.tc : Thread nD τ).loc main_arg0)) (m ((c.tc : Thread nD τ).loc main_arg1)) 0
      ∧ r.2.mem ((c.tc : Thread nD τ).loc main_v15) = gcnArr (m ((c.tc : Thread nD τ).loc main_arg0)) (m ((c.tc : Thread nD τ).loc main_arg1)) 1
      ∧ r.2.mem ((c.tc : Thread nD τ).loc main_v25) = gcnArr (m ((c.tc : Thread nD τ).loc main_arg0)) (m ((c.tc : Thread nD τ).loc main_arg1)) 2
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have h0 : r.2.mem ((c.tc : Thread nD τ).loc main_arg0) = m ((c.tc : Thread nD τ).loc main_arg0) :=
    ((h c).1 0).trans (((dats m 0 c).arrAt_in 0 rfl _).trans ((A_eq m c 0).trans (V_main_arg0 m c)))
  have h1 : r.2.mem ((c.tc : Thread nD τ).loc main_arg1) = m ((c.tc : Thread nD τ).loc main_arg1) :=
    ((h c).1 1).trans (((dats m 0 c).arrAt_in 1 rfl _).trans ((A_eq m c 1).trans (V_main_arg1 m c)))
  have hr := (h c).2
  refine ⟨h1, ?_, ?_, ?_, h1, ?_, ?_, ?_, h0, h1⟩
  · exact (hr main_v10 (mem_rest _ rfl (by decide))).trans ((tail_v10 m c).trans (join_lat m c 0))
  · exact (hr main_v20 (mem_rest _ rfl (by decide))).trans ((tail_v20 m c).trans (join_lat m c 1))
  · exact (hr main_v30 (mem_rest _ rfl (by decide))).trans ((tail_v30 m c).trans (join_lat m c 2))
  · exact (hr main_v5 (mem_rest _ rfl (by decide))).trans ((tail_v5 m c).trans (join_gcn m c 0))
  · exact (hr main_v15 (mem_rest _ rfl (by decide))).trans ((tail_v15 m c).trans (join_gcn m c 1))
  · exact (hr main_v25 (mem_rest _ rfl (by decide))).trans ((tail_v25 m c).trans (join_gcn m c 2))

end Cert.KernelIdeal.Hand

end
-- ==== Proof.RefRead.lean ====
/-
  The reference's generated run and its read-at-an-index lemmas, imported here so that the modules
  that compare the two programs share one import.
-/
import proofs.«129477_g20109036880396_cont_8to1_786_6_alg».proof.Proof.Gen.ReferenceIdeal.Run
import proofs.«129477_g20109036880396_cont_8to1_786_6_alg».proof.Proof.Gen.ReferenceIdeal.Read
-- ==== Proof.RefValue.lean ====
/-
  The reference's six results as the layers' aggregates and embeddings. Each layer of the reference slices the current
  embeddings into items (rows 8192 … 16383) and users (rows 0 … 8191), multiplies the adjacency by the items and the
  transposed adjacency by the users, concatenates the two products (the layer's aggregate), and adds the current
  embeddings (the next layer's embeddings). At the ideal instance each product is a sum of products, so entry by entry
  these are the specification's sums.
-/
import proofs.«129477_g20109036880396_cont_8to1_786_6_alg».proof.Proof.RefRead
import proofs.«129477_g20109036880396_cont_8to1_786_6_alg».proof.Proof.SpecIdx
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Spec

variable (x0 : Vec Ideal S8192x8192 .f32) (x1 : Vec Ideal S16384x32 .f32)

/-! ## The embeddings' array read in its two halves -/

/-- A lower-half row of the embeddings entering layer l is an item's row. -/
theorem latArr_lo (l : ℕ) (k : Fin 8192) (d : Fin 32) :
    latArr x0 x1 l (ix2 (loRow k) d) = latI (aOf x0) (uOf x1) (vOf x1) l k d := by
  show latAt (aOf x0) (uOf x1) (vOf x1) l (loRow k) d = _
  unfold latAt
  have hk : ¬ (loRow k).val < 8192 := by show ¬ 8192 + k.val < 8192; omega
  rw [dif_neg hk]
  have e : (⟨(loRow k).val - 8192, by have := (loRow k).isLt; omega⟩ : Fin 8192) = k :=
    Fin.ext (by show 8192 + k.val - 8192 = k.val; omega)
  rw [e]

/-- An upper-half row of the embeddings entering layer l is a user's row. -/
theorem latArr_up (l : ℕ) (k : Fin 8192) (d : Fin 32) :
    latArr x0 x1 l (ix2 (upRow k) d) = latU (aOf x0) (uOf x1) (vOf x1) l k d := by
  show latAt (aOf x0) (uOf x1) (vOf x1) l (upRow k) d = _
  unfold latAt
  have hk : (upRow k).val < 8192 := k.isLt
  rw [dif_pos hk]
  have e : (⟨(upRow k).val, hk⟩ : Fin 8192) = k := Fin.ext rfl
  rw [e]

/-! ## One layer's aggregate, for any embeddings L -/

/-- The concatenation of two 8192 × 32 arrays along the rows, read at row r: the first array's row r when r < 8192,
    else the second's row r − 8192. -/
theorem concat_at (y1 y2 : Vec Ideal S8192x32 .f32) (r : Fin 16384) (d : Fin 32) :
    concatenate S16384x32 0 [⟨S8192x32, y1⟩, ⟨S8192x32, y2⟩] concatenates_S8192x32_S8192x32_S16384x32_d0 (ix2 r d)
      = if h : r.val < 8192 then y1 (ix2 ⟨r.val, h⟩ d)
        else y2 (ix2 ⟨r.val - 8192, by have := r.isLt; omega⟩ d) := by
  split
  · next h =>
    exact concatenate_pair_apply_left (0 : Fin S16384x32.rank) y1 y2 concatenates_S8192x32_S8192x32_S16384x32_d0
      (ix2 r d) rfl (ix2 ⟨r.val, h⟩ d) (fun b => match b with
        | ⟨0, _⟩ => rfl
        | ⟨1, _⟩ => rfl)
  · next h =>
    exact concatenate_pair_apply_right (0 : Fin S16384x32.rank) y1 y2 concatenates_S8192x32_S8192x32_S16384x32_d0
      (ix2 r d) rfl rfl (ix2 ⟨r.val - 8192, by have := r.isLt; omega⟩ d) (fun b => match b with
        | ⟨0, _⟩ => fun hb => absurd rfl hb
        | ⟨1, _⟩ => fun _ => rfl)
      (by show r.val - 8192 + 8192 = r.val; omega)

/-- The index functions of the two products, at an index given by its coordinates. -/
theorem lidx_v1_ix2 (r : Fin 8192) (d : Fin 32) (k : Fin 8192) : lidx_main_v1 (ix2 r d) k = ix2 r k :=
  funext fun a => Fin.ext (by match a with | ⟨0, _⟩ => rfl | ⟨1, _⟩ => rfl)
theorem ridx_v1_ix2 (r : Fin 8192) (d : Fin 32) (k : Fin 8192) : idx_main_v0 (ridx_main_v1 (ix2 r d) k) = ix2 (loRow k) d :=
  funext fun a => Fin.ext (by match a with | ⟨0, _⟩ => rfl | ⟨1, _⟩ => rfl)
theorem lidx_v4_ix2 (j : Fin 8192) (d : Fin 32) (k : Fin 8192) : idx_main_v2 (lidx_main_v4 (ix2 j d) k) = ix2 k j :=
  funext fun a => Fin.ext (by match a with | ⟨0, _⟩ => rfl | ⟨1, _⟩ => rfl)
theorem ridx_v4_ix2 (j : Fin 8192) (d : Fin 32) (k : Fin 8192) : idx_main_v3 (ridx_main_v4 (ix2 j d) k) = ix2 (upRow k) d :=
  funext fun a => Fin.ext (by match a with | ⟨0, _⟩ => rfl | ⟨1, _⟩ => rfl)

/-- One layer of the reference applied to any embeddings L (the first layer's program text, with L for the input
    embeddings): at row r < 8192 the user aggregate of L's lower half, else the item aggregate of L's upper half. -/
theorem layer_at (L : Vec Ideal S16384x32 .f32) (r : Fin 16384) (d : Fin 32) :
    val_main_v5 (F := Ideal) x0 L (ix2 r d)
      = if h : r.val < 8192 then aggU (aOf x0) (fun k d => L (ix2 (loRow k) d)) ⟨r.val, h⟩ d
        else aggI (aOf x0) (fun k d => L (ix2 (upRow k) d)) ⟨r.val - 8192, by have := r.isLt; omega⟩ d := by
  unfold val_main_v5
  rw [concat_at]
  split
  · next h =>
    rw [val_main_v1_apply]
    unfold aggU aOf
    refine Finset.sum_congr rfl fun k _ => ?_
    rw [val_main_v0_apply, lidx_v1_ix2, ridx_v1_ix2]
  · next h =>
    rw [val_main_v4_apply]
    unfold aggI aOf
    refine Finset.sum_congr rfl fun k _ => ?_
    rw [val_main_v2_apply, val_main_v3_apply, lidx_v4_ix2, ridx_v4_ix2]

/-- A layer of the reference applied to the embeddings entering layer l is layer l's aggregate. -/
theorem layer_eq (l : ℕ) : val_main_v5 (F := Ideal) x0 (latArr x0 x1 l) = gcnArr x0 x1 l := by
  funext i
  obtain ⟨r, d, rfl⟩ : ∃ (r : Fin 16384) (d : Fin 32), i = ix2 r d := ⟨i 0, i 1, eq_ix2 i⟩
  rw [layer_at]
  show _ = gcnAt (aOf x0) (uOf x1) (vOf x1) l r d
  unfold gcnAt
  have eI : (fun k d => latArr x0 x1 l (ix2 (loRow k) d)) = latI (aOf x0) (uOf x1) (vOf x1) l :=
    funext fun k => funext fun d => latArr_lo x0 x1 l k d
  have eU : (fun k d => latArr x0 x1 l (ix2 (upRow k) d)) = latU (aOf x0) (uOf x1) (vOf x1) l :=
    funext fun k => funext fun d => latArr_up x0 x1 l k d
  rw [eI, eU]

/-- Aggregate + embeddings entering layer l are the embeddings entering layer l + 1. -/
theorem add_eq (l : ℕ) :
    addf (F := Ideal) (s := S16384x32) (φ := .f32) (gcnArr x0 x1 l) (latArr x0 x1 l) = latArr x0 x1 (l + 1) := by
  funext i
  obtain ⟨r, d, rfl⟩ : ∃ (r : Fin 16384) (d : Fin 32), i = ix2 r d := ⟨i 0, i 1, eq_ix2 i⟩
  show gcnAt (aOf x0) (uOf x1) (vOf x1) l r d + latAt (aOf x0) (uOf x1) (vOf x1) l r d
    = latAt (aOf x0) (uOf x1) (vOf x1) (l + 1) r d
  rw [latAt_succ]

/-! ## The six results -/

theorem val_v5 : val_main_v5 (F := Ideal) x0 x1 = gcnArr x0 x1 0 := by
  have h := layer_eq x0 x1 0
  rw [latArr_zero] at h
  exact h
theorem val_v6 : val_main_v6 (F := Ideal) x0 x1 = latArr x0 x1 1 := by
  have h := add_eq x0 x1 0
  rw [latArr_zero] at h
  unfold val_main_v6
  rw [val_v5]
  exact h
theorem val_v12 : val_main_v12 (F := Ideal) x0 x1 = gcnArr x0 x1 1 := by
  have e : val_main_v12 (F := Ideal) x0 x1 = val_main_v5 (F := Ideal) x0 (val_main_v6 (F := Ideal) x0 x1) := by
    unfold val_main_v12 val_main_v8 val_main_v11 val_main_v7 val_main_v10 val_main_v9 val_main_v5 val_main_v1 val_main_v4
      val_main_v0 val_main_v3 val_main_v2
    rfl
  rw [e, val_v6]
  exact layer_eq x0 x1 1
theorem val_v13 : val_main_v13 (F := Ideal) x0 x1 = latArr x0 x1 2 := by
  unfold val_main_v13
  rw [val_v12, val_v6]
  exact add_eq x0 x1 1
theorem val_v19 : val_main_v19 (F := Ideal) x0 x1 = gcnArr x0 x1 2 := by
  have e : val_main_v19 (F := Ideal) x0 x1 = val_main_v5 (F := Ideal) x0 (val_main_v13 (F := Ideal) x0 x1) := by
    unfold val_main_v19 val_main_v15 val_main_v18 val_main_v14 val_main_v17 val_main_v16 val_main_v5 val_main_v1 val_main_v4
      val_main_v0 val_main_v3 val_main_v2
    rfl
  rw [e, val_v13]
  exact layer_eq x0 x1 2
theorem val_v20 : val_main_v20 (F := Ideal) x0 x1 = latArr x0 x1 3 := by
  unfold val_main_v20
  rw [val_v19, val_v13]
  exact add_eq x0 x1 2

end Cert.ReferenceIdeal.RefValue

end
-- ==== Proof.lean ====
/-
  The certificate of the three-layer graph propagation kernel against its reference.

  The kernel streams each 256-row stripe of the 8192 × 8192 adjacency once per layer and forms both products from it:
  the stripe against the layer's item embeddings (the stripe's rows of the user aggregate), and the stripe's transpose
  against the stripe's user rows (the stripe's contribution to the item aggregate, stored at the first stripe and added
  at each later one). The evolving embeddings live in two scratch buffers that the kernel carries from grid point to
  grid point. The reference forms each layer's two products whole. Over the extended reals the two agree because a
  sum over the 8192 users is the sum over the 32 stripes of the sums inside them, in whatever grouping: addition there
  is associative and commutative, so the inputs' finiteness is never used.

  The frames of the kernel's two readings are one proof stated for every float instance (the body run case by case,
  the scratch contents carried in the launch's invariant); the reference's frame is its run with the results dropped.
-/
import proofs.«129477_g20109036880396_cont_8to1_786_6_alg».proof.Defs
import proofs.«129477_g20109036880396_cont_8to1_786_6_alg».proof.Proof.K.Body
import proofs.«129477_g20109036880396_cont_8to1_786_6_alg».proof.Proof.KI.Value
import proofs.«129477_g20109036880396_cont_8to1_786_6_alg».proof.Proof.RefValue
import proofs.«129477_g20109036880396_cont_8to1_786_6_alg».proof.Proof.Gen.Pre_finite_inputs
import proofs.«129477_g20109036880396_cont_8to1_786_6_alg».proof.Proof.Gen.ReferenceIdeal
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2.2)
    (Cert.ReferenceIdeal.Value.run (F := Ideal) m ρ)

/-- Both programs, run from memories agreeing on the adjacency and the embeddings, end with the embeddings, the three
    layers' embeddings and the three layers' aggregates: the kernel's by the run of its body point by point, the
    reference's by its run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => m ((c.tc : Thread _ _).loc Cert.KernelIdeal.main_arg1),
    fun c => latArr (m ((c.tc : Thread _ _).loc Cert.KernelIdeal.main_arg0)) (m ((c.tc : Thread _ _).loc Cert.KernelIdeal.main_arg1)) 1,
    fun c => latArr (m ((c.tc : Thread _ _).loc Cert.KernelIdeal.main_arg0)) (m ((c.tc : Thread _ _).loc Cert.KernelIdeal.main_arg1)) 2,
    fun c => latArr (m ((c.tc : Thread _ _).loc Cert.KernelIdeal.main_arg0)) (m ((c.tc : Thread _ _).loc Cert.KernelIdeal.main_arg1)) 3,
    fun c => m ((c.tc : Thread _ _).loc Cert.KernelIdeal.main_arg1),
    fun c => gcnArr (m ((c.tc : Thread _ _).loc Cert.KernelIdeal.main_arg0)) (m ((c.tc : Thread _ _).loc Cert.KernelIdeal.main_arg1)) 0,
    fun c => gcnArr (m ((c.tc : Thread _ _).loc Cert.KernelIdeal.main_arg0)) (m ((c.tc : Thread _ _).loc Cert.KernelIdeal.main_arg1)) 1,
    fun c => gcnArr (m ((c.tc : Thread _ _).loc Cert.KernelIdeal.main_arg0)) (m ((c.tc : Thread _ _).loc Cert.KernelIdeal.main_arg1)) 2,
    Cert.KernelIdeal.Hand.kernel_run m ρ, ?_⟩
  refine (θ_run Cert.ReferenceIdeal.defs _ _).mono (fun r h c => ?_) (Cert.ReferenceIdeal.Value.run (F := Ideal) m' ρ')
  obtain ⟨ha1, h6, h13, h20, _, h5, h12, h19, ha0, _⟩ := h c
  have e0 := (hagree c).1
  have e1 := (hagree c).2
  refine ⟨ha1.trans e1, ?_, ?_, ?_, ha1.trans e1, ?_, ?_, ?_, ha0, ha1⟩
  · rw [h6, Cert.ReferenceIdeal.Read.val_main_v6_eq, Cert.ReferenceIdeal.RefValue.val_v6, e0, e1]
  · rw [h13, Cert.ReferenceIdeal.Read.val_main_v13_eq, Cert.ReferenceIdeal.RefValue.val_v13, e0, e1]
  · rw [h20, Cert.ReferenceIdeal.Read.val_main_v20_eq, Cert.ReferenceIdeal.RefValue.val_v20, e0, e1]
  · rw [h5, Cert.ReferenceIdeal.Read.val_main_v5_eq, Cert.ReferenceIdeal.RefValue.val_v5, e0, e1]
  · rw [h12, Cert.ReferenceIdeal.Read.val_main_v12_eq, Cert.ReferenceIdeal.RefValue.val_v12, e0, e1]
  · rw [h19, Cert.ReferenceIdeal.Read.val_main_v19_eq, Cert.ReferenceIdeal.RefValue.val_v19, e0, e1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
